-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048 : Shape := ⟨1, ![2048]⟩
abbrev S2048x2048 : Shape := ⟨2, ![2048, 2048]⟩
abbrev S4096x2048 : Shape := ⟨2, ![4096, 2048]⟩
abbrev S4096x1024 : Shape := ⟨2, ![4096, 1024]⟩
abbrev S4096 : Shape := ⟨1, ![4096]⟩
abbrev S64x2048 : Shape := ⟨2, ![64, 2048]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S64 .f32) (main_arg15 : FVec F S1x64 .f32) (main_arg16 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S1x64 .f32 := Host.absf main_arg15
  let main_cst_28 : FVec F S_ .f32 := constant S_ .f32 0x7F800000#32
  let main_v75 : FVec F S1x64 .f32 := broadcastInDim S1x64 ![] bcast_S_S1x64 main_cst_28
  let main_v76 : IVec S1x64 1 := cmpf .olt main_v74 main_v75
  let main_c_29 : IVec S_ 1 := constantI S_ 1 1#1
  let main_v77 : IVec S_ 1 := (fun x v => Host.reduce IntOp.andi x v reducesTo_S1x64_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S4096 .f32) (main_arg12 : FVec F S4096 .f32) (main_arg13 : FVec F S64x2048 .f32) (main_arg14 : FVec F S64 .f32) (main_arg15 : FVec F S1x64 .f32) (main_arg16 : FVec F S1 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S64x2048 .f32 := Host.absf main_arg13
  let main_cst_24 : FVec F S_ .f32 := constant S_ .f32 0x7F800000#32
  let main_v65 : FVec F S64x2048 .f32 := broadcastInDim S64x2048 ![] bcast_S_S64x2048 main_cst_24
  let main_v66 : IVec S64x2048 1 := cmpf .olt main_v64 main_v65
  let main_c_25 : IVec S_ 1 := constantI S_ 1 1#1
  let main_v67 : IVec S_ 1 := (fun x v => Host.reduce IntOp.andi x v reducesTo_S64x2048_S_d0_1 h_S_) main_v66 main_c_25
  fn_part4 (F := F) main_arg14 main_arg15 main_arg16 main_v63 main_v67

def fn_part2 {F : FTy → Type} [FloatOps F] (main_arg7 : FVec F S4096 .f32) (main_arg8 : FVec F S4096 .f32) (main_arg9 : FVec F S4096x2048 .f32) (main_arg10 : FVec F S4096x1024 .f32) (main_arg11 : FVec F S4096 .f32) (main_arg12 : FVec F S4096 .f32) (main_arg13 : FVec F S64x2048 .f32) (main_arg14 : FVec F S64 .f32) (main_arg15 : FVec F S1x64 .f32) (main_arg16 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_arg11 main_arg12 main_arg13 main_arg14 main_arg15 main_arg16 main_v48 main_v49 main_v50

def fn_part1 {F : FTy → Type} [FloatOps F] (main_arg4 : FVec F S2048 .f32) (main_arg5 : FVec F S4096x2048 .f32) (main_arg6 : FVec F S4096x1024 .f32) (main_arg7 : FVec F S4096 .f32) (main_arg8 : FVec F S4096 .f32) (main_arg9 : FVec F S4096x2048 .f32) (main_arg10 : FVec F S4096x1024 .f32) (main_arg11 : FVec F S4096 .f32) (main_arg12 : FVec F S4096 .f32) (main_arg13 : FVec F S64x2048 .f32) (main_arg14 : FVec F S64 .f32) (main_arg15 : FVec F S1x64 .f32) (main_arg16 : FVec F S1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x2048 .f32) (main_arg1 : FVec F S2048 .f32) (main_arg2 : FVec F S2048 .f32) (main_arg3 : FVec F S2048x2048 .f32) (main_arg4 : FVec F S2048 .f32) (main_arg5 : FVec F S4096x2048 .f32) (main_arg6 : FVec F S4096x1024 .f32) (main_arg7 : FVec F S4096 .f32) (main_arg8 : FVec F S4096 .f32) (main_arg9 : FVec F S4096x2048 .f32) (main_arg10 : FVec F S4096x1024 .f32) (main_arg11 : FVec F S4096 .f32) (main_arg12 : FVec F S4096 .f32) (main_arg13 : FVec F S64x2048 .f32) (main_arg14 : FVec F S64 .f32) (main_arg15 : FVec F S1x64 .f32) (main_arg16 : FVec F S1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x2048 : Shape := ⟨2, ![8192, 2048]⟩
abbrev S2048 : Shape := ⟨1, ![2048]⟩
abbrev S2048x2048 : Shape := ⟨2, ![2048, 2048]⟩
abbrev S4096x2048 : Shape := ⟨2, ![4096, 2048]⟩
abbrev S4096x1024 : Shape := ⟨2, ![4096, 1024]⟩
abbrev S4096 : Shape := ⟨1, ![4096]⟩
abbrev S64x2048 : Shape := ⟨2, ![64, 2048]⟩
abbrev S64 : Shape := ⟨1, ![64]⟩
abbrev S1x64 : Shape := ⟨2, ![1, 64]⟩
abbrev S1 : Shape := ⟨1, ![1]⟩
abbrev S1x2048 : Shape := ⟨2, ![1, 2048]⟩
abbrev S1024x2048 : Shape := ⟨2, ![1024, 2048]⟩
abbrev S3072x2048 : Shape := ⟨2, ![3072, 2048]⟩
abbrev S1024 : Shape := ⟨1, ![1024]⟩
abbrev S3072 : Shape := ⟨1, ![3072]⟩
abbrev S2048x3072 : Shape := ⟨2, ![2048, 3072]⟩
abbrev S1x3072 : Shape := ⟨2, ![1, 3072]⟩
abbrev S2048x64 : Shape := ⟨2, ![2048, 64]⟩
abbrev S64x1 : Shape := ⟨2, ![64, 1]⟩
abbrev S1x1 : Shape := ⟨2, ![1, 1]⟩
abbrev S8192 : Shape := ⟨1, ![8192]⟩
abbrev S512x2048 : Shape := ⟨2, ![512, 2048]⟩
abbrev S512 : Shape := ⟨1, ![512]⟩
abbrev S512x1 : Shape := ⟨2, ![512, 1]⟩
abbrev S256x2048 : Shape := ⟨2, ![256, 2048]⟩
abbrev S256 : Shape := ⟨1, ![256]⟩
abbrev S256x3072 : Shape := ⟨2, ![256, 3072]⟩
abbrev S256x1024 : Shape := ⟨2, ![256, 1024]⟩
abbrev S256x64 : Shape := ⟨2, ![256, 64]⟩
abbrev S256x1 : Shape := ⟨2, ![256, 1]⟩

abbrev nBuf : Space → Nat
  | .hbm => 50
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S4096x2048, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096x2048, .f32⟩
  | .hbm, ⟨10, _⟩ => ⟨S4096x1024, .f32⟩
  | .hbm, ⟨11, _⟩ => ⟨S4096, .f32⟩
  | .hbm, ⟨12, _⟩ => ⟨S4096, .f32⟩
  | .hbm, ⟨13, _⟩ => ⟨S64x2048, .f32⟩
  | .hbm, ⟨14, _⟩ => ⟨S64, .f32⟩
  | .hbm, ⟨15, _⟩ => ⟨S1x64, .f32⟩
  | .hbm, ⟨16, _⟩ => ⟨S1, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S2048x2048, .f32⟩
  | .hbm, ⟨21, _⟩ => ⟨S2048x2048, .bf16⟩
  | .hbm, ⟨22, _⟩ => ⟨S8192x2048, .bf16⟩
  | .hbm, ⟨23, _⟩ => ⟨S1024x2048, .f32⟩
  | .hbm, ⟨24, _⟩ => ⟨S2048x2048, .f32⟩
  | .hbm, ⟨25, _⟩ => ⟨S3072x2048, .f32⟩
  | .hbm, ⟨26, _⟩ => ⟨S1024x2048, .f32⟩
  | .hbm, ⟨27, _⟩ => ⟨S2048x2048, .f32⟩
  | .hbm, ⟨28, _⟩ => ⟨S3072x2048, .f32⟩
  | .hbm, ⟨29, _⟩ => ⟨S4096, .f32⟩
  | .hbm, ⟨30, _⟩ => ⟨S1024, .f32⟩
  | .hbm, ⟨31, _⟩ => ⟨S2048, .f32⟩
  | .hbm, ⟨32, _⟩ => ⟨S3072, .f32⟩
  | .hbm, ⟨33, _⟩ => ⟨S4096, .f32⟩
  | .hbm, ⟨34, _⟩ => ⟨S1024, .f32⟩
  | .hbm, ⟨35, _⟩ => ⟨S2048, .f32⟩
  | .hbm, ⟨36, _⟩ => ⟨S3072, .f32⟩
  | .hbm, ⟨37, _⟩ => ⟨S2048x3072, .f32⟩
  | .hbm, ⟨38, _⟩ => ⟨S2048x3072, .bf16⟩
  | .hbm, ⟨39, _⟩ => ⟨S2048x3072, .f32⟩
  | .hbm, ⟨40, _⟩ => ⟨S2048x3072, .bf16⟩
  | .hbm, ⟨41, _⟩ => ⟨S1x3072, .f32⟩
  | .hbm, ⟨42, _⟩ => ⟨S1x3072, .f32⟩
  | .hbm, ⟨43, _⟩ => ⟨S2048x64, .f32⟩
  | .hbm, ⟨44, _⟩ => ⟨S2048x64, .bf16⟩
  | .hbm, ⟨45, _⟩ => ⟨S1x64, .f32⟩
  | .hbm, ⟨46, _⟩ => ⟨S64x1, .f32⟩
  | .hbm, ⟨47, _⟩ => ⟨S64x1, .bf16⟩
  | .hbm, ⟨48, _⟩ => ⟨S1x1, .f32⟩
  | .hbm, ⟨49, _⟩ => ⟨S8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S256x2048, .bf16⟩
  | .local _ .vmem, ⟨9, _⟩ => ⟨S256x2048, .bf16⟩
  | .local _ .vmem, ⟨10, _⟩ => ⟨S2048x3072, .bf16⟩
  | .local _ .vmem, ⟨11, _⟩ => ⟨S2048x3072, .bf16⟩
  | .local _ .vmem, ⟨12, _⟩ => ⟨S1x3072, .f32⟩
  | .local _ .vmem, ⟨13, _⟩ => ⟨S1x3072, .f32⟩
  | .local _ .vmem, ⟨14, _⟩ => ⟨S2048x64, .bf16⟩
  | .local _ .vmem, ⟨15, _⟩ => ⟨S1x64, .f32⟩
  | .local _ .vmem, ⟨16, _⟩ => ⟨S64x1, .bf16⟩
  | .local _ .vmem, ⟨17, _⟩ => ⟨S1x1, .f32⟩
  | .local _ .vmem, ⟨18, _⟩ => ⟨S256, .f32⟩
  | .local _ .vmem, ⟨19, _⟩ => ⟨S256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_v0 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x3072 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x3072 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S2048_S1x2048 : S2048.ShapeCasts S1x2048
  transposes_S2048x2048_S2048x2048_1_0 : S2048x2048.Transposes [1, 0] S2048x2048
  bitsLt_bf16_f32 : FTy.bits .bf16 < FTy.bits .f32
  slices_S4096x2048_S1024x2048_0_0 : S4096x2048.Slices ![0, 0] S1024x2048
  slices_S4096x2048_S2048x2048_2048_0 : S4096x2048.Slices ![2048, 0] S2048x2048
  concatenates_S1024x2048_S2048x2048_S3072x2048_d0 : Shape.Concatenates [S1024x2048, S2048x2048] S3072x2048 0
  slices_S4096_S1024_0 : S4096.Slices ![0] S1024
  slices_S4096_S2048_2048 : S4096.Slices ![2048] S2048
  concatenates_S1024_S2048_S3072_d0 : Shape.Concatenates [S1024, S2048] S3072 0
  transposes_S3072x2048_S2048x3072_1_0 : S3072x2048.Transposes [1, 0] S2048x3072
  shapeCasts_S3072_S1x3072 : S3072.ShapeCasts S1x3072
  transposes_S64x2048_S2048x64_1_0 : S64x2048.Transposes [1, 0] S2048x64
  shapeCasts_S64_S1x64 : S64.ShapeCasts S1x64
  transposes_S1x64_S64x1_1_0 : S1x64.Transposes [1, 0] S64x1
  shapeCasts_S1_S1x1 : S1.ShapeCasts S1x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x3072_S2048x3072_0_0 : ∀ a, (![0, 0] : Fin 2 → Nat) a + S2048x3072.size a ≤ S2048x3072.size a
  h_S2048x3072 : 0 < S2048x3072.numel
  shapeCasts_S2048x3072_S2048x3072 : S2048x3072.ShapeCasts S2048x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  concatenates_S256x1024_S256x1024_S256x2048_d1 : Shape.Concatenates [S256x1024, S256x1024] S256x2048 1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  shapeCasts_S256x1_S256 : S256x1.ShapeCasts S256
  inb_S256_S256_0 : ∀ a, (![0] : Fin 1 → Nat) a + S256.size a ≤ S256.size a
  h_S256 : 0 < S256.numel
  dot_S512x2048_S2048x2048_S512x2048_1_0_0_1_n_n_wf : DotDims.WF S512x2048 S2048x2048 S512x2048 [1] [0] [0] [1] [] []
  dot_S256x2048_S2048x3072_S256x3072_1_0_0_1_n_n_wf : DotDims.WF S256x2048 S2048x3072 S256x3072 [1] [0] [0] [1] [] []
  dot_S256x2048_S2048x64_S256x64_1_0_0_1_n_n_wf : DotDims.WF S256x2048 S2048x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .bf16 = 32 ∨ (Rect.block (s := S8192x2048) S256x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x3072.size a ≤ S2048x3072.size a
  hwx1_1 : ∀ i : grid1.Coords, EltTy.bits .bf16 = 32 ∨ (Rect.block (s := S2048x3072) S2048x3072.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x3072.size a ≤ S2048x3072.size a
  hwx1_2 : ∀ i : grid1.Coords, EltTy.bits .bf16 = 32 ∨ (Rect.block (s := S2048x3072) S2048x3072.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x3072.size a ≤ S1x3072.size a
  hwx1_3 : ∀ i : grid1.Coords, EltTy.bits .f32 = 32 ∨ (Rect.block (s := S1x3072) S1x3072.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3072.size a ≤ S1x3072.size a
  hwx1_4 : ∀ i : grid1.Coords, EltTy.bits .f32 = 32 ∨ (Rect.block (s := S1x3072) S1x3072.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S2048x64.size a
  hwx1_5 : ∀ i : grid1.Coords, EltTy.bits .bf16 = 32 ∨ (Rect.block (s := S2048x64) S2048x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .bf16 = 32 ∨ (Rect.block (s := S64x1) S64x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256.size a ≤ S8192.size a
  hwx1_9 : ∀ i : grid1.Coords, EltTy.bits .f32 = 32 ∨ (Rect.block (s := S8192) S256.size (cc1_transform_9 i) (hinb1_9 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S256x2048_S2048x3072_S256x3072_1_0_0_1_n_n : DotDims S256x2048 S2048x3072 S256x3072 where
  lhsContracting := [1]
  rhsContracting := [0]
  lhsNonContracting := [0]
  rhsNonContracting := [1]
  lhsBatch := []
  rhsBatch := []
  wf := dot_S256x2048_S2048x3072_S256x3072_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v5) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v21) S2048x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v23) S2048x3072.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v24) S1x3072.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v25) S1x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v27) S2048x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v30) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v31) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v0) S256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048 : Shape := ⟨1, ![2048]⟩
abbrev S2048x2048 : Shape := ⟨2, ![2048, 2048]⟩
abbrev S4096x2048 : Shape := ⟨2, ![4096, 2048]⟩
abbrev S4096x1024 : Shape := ⟨2, ![4096, 1024]⟩
abbrev S4096 : Shape := ⟨1, ![4096]⟩
abbrev S64x2048 : Shape := ⟨2, ![64, 2048]⟩
abbrev S64 : Shape := ⟨1, ![64]⟩
abbrev S1x64 : Shape := ⟨2, ![1, 64]⟩
abbrev S1 : Shape := ⟨1, ![1]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x4096 : Shape := ⟨2, ![2048, 4096]⟩
abbrev S8192x4096 : Shape := ⟨2, ![8192, 4096]⟩
abbrev S1x4096 : Shape := ⟨2, ![1, 4096]⟩
abbrev S8192x1024 : Shape := ⟨2, ![8192, 1024]⟩
abbrev S2048x64 : Shape := ⟨2, ![2048, 64]⟩
abbrev S8192x64 : Shape := ⟨2, ![8192, 64]⟩
abbrev S64x1 : Shape := ⟨2, ![64, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S8192x2048, .f32⟩
  | 1 => ⟨S2048, .f32⟩
  | 2 => ⟨S2048, .f32⟩
  | 3 => ⟨S2048x2048, .f32⟩
  | 4 => ⟨S2048, .f32⟩
  | 5 => ⟨S4096x2048, .f32⟩
  | 6 => ⟨S4096x1024, .f32⟩
  | 7 => ⟨S4096, .f32⟩
  | 8 => ⟨S4096, .f32⟩
  | 9 => ⟨S4096x2048, .f32⟩
  | 10 => ⟨S4096x1024, .f32⟩
  | 11 => ⟨S4096, .f32⟩
  | 12 => ⟨S4096, .f32⟩
  | 13 => ⟨S64x2048, .f32⟩
  | 14 => ⟨S64, .f32⟩
  | 15 => ⟨S1x64, .f32⟩
  | 16 => ⟨S1, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .i32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x2048, .f32⟩
  | 31 => ⟨S8192x2048, .f32⟩
  | 32 => ⟨S8192x2048, .f32⟩
  | 33 => ⟨S_, .f32⟩
  | 34 => ⟨S_, .f32⟩
  | 35 => ⟨S_, .f32⟩
  | 36 => ⟨S_, .f32⟩
  | 37 => ⟨S8192, .f32⟩
  | 38 => ⟨S8192x1, .f32⟩
  | 39 => ⟨S8192x1, .f32⟩
  | 40 => ⟨S8192x1, .f32⟩
  | 41 => ⟨S_, .f32⟩
  | 42 => ⟨S_, .i1⟩
  | 43 => ⟨S_, .f32⟩
  | 44 => ⟨S_, .f32⟩
  | 45 => ⟨S8192x1, .f32⟩
  | 46 => ⟨S8192x1, .f32⟩
  | 47 => ⟨S8192x2048, .f32⟩
  | 48 => ⟨S8192x2048, .f32⟩
  | 49 => ⟨S_, .f32⟩
  | 50 => ⟨S8192x1, .f32⟩
  | 51 => ⟨S8192x1, .f32⟩
  | 52 => ⟨S8192x1, .f32⟩
  | 53 => ⟨S8192x2048, .f32⟩
  | 54 => ⟨S8192x2048, .f32⟩
  | 55 => ⟨S1x2048, .f32⟩
  | 56 => ⟨S8192x2048, .f32⟩
  | 57 => ⟨S8192x2048, .f32⟩
  | 58 => ⟨S1x2048, .f32⟩
  | 59 => ⟨S8192x2048, .f32⟩
  | 60 => ⟨S8192x2048, .f32⟩
  | 61 => ⟨S2048x2048, .f32⟩
  | 62 => ⟨S8192x2048, .f32⟩
  | 63 => ⟨S1x2048, .f32⟩
  | 64 => ⟨S8192x2048, .f32⟩
  | 65 => ⟨S8192x2048, .f32⟩
  | 66 => ⟨S8192x2048, .f32⟩
  | 67 => ⟨S8192x2048, .f32⟩
  | 68 => ⟨S_, .f32⟩
  | 69 => ⟨S8192x2048, .f32⟩
  | 70 => ⟨S8192x2048, .f32⟩
  | 71 => ⟨S_, .f32⟩
  | 72 => ⟨S8192x2048, .f32⟩
  | 73 => ⟨S8192x2048, .f32⟩
  | 74 => ⟨S8192x2048, .f32⟩
  | 75 => ⟨S2048x4096, .f32⟩
  | 76 => ⟨S8192x4096, .f32⟩
  | 77 => ⟨S4096, .f32⟩
  | 78 => ⟨S1x4096, .f32⟩
  | 79 => ⟨S8192x4096, .f32⟩
  | 80 => ⟨S8192x4096, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S8192x1024, .f32⟩
  | 104 => ⟨S8192x1024, .f32⟩
  | 105 => ⟨S2048x4096, .f32⟩
  | 106 => ⟨S8192x4096, .f32⟩
  | 107 => ⟨S4096, .f32⟩
  | 108 => ⟨S1x4096, .f32⟩
  | 109 => ⟨S8192x4096, .f32⟩
  | 110 => ⟨S8192x4096, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S_, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S_, .f32⟩
  | _ => ⟨S8192x2048, .f32⟩

abbrev hbmTy0_1 (i : Nat) : BufTy := match i % 128 with
  | 0 => ⟨S8192x1024, .f32⟩
  | 1 => ⟨S8192x1024, .f32⟩
  | 2 => ⟨S_, .f32⟩
  | 3 => ⟨S8192x1024, .f32⟩
  | 4 => ⟨S8192x1024, .f32⟩
  | 5 => ⟨S8192x1024, .f32⟩
  | 6 => ⟨S8192x1024, .f32⟩
  | 7 => ⟨S8192x2048, .f32⟩
  | 8 => ⟨S2048x64, .f32⟩
  | 9 => ⟨S8192x64, .f32⟩
  | 10 => ⟨S1x64, .f32⟩
  | 11 => ⟨S8192x64, .f32⟩
  | 12 => ⟨S8192x64, .f32⟩
  | 13 => ⟨S_, .f32⟩
  | 14 => ⟨S8192x64, .f32⟩
  | 15 => ⟨S8192x64, .f32⟩
  | 16 => ⟨S64x1, .f32⟩
  | 17 => ⟨S8192x1, .f32⟩
  | 18 => ⟨S1x1, .f32⟩
  | 19 => ⟨S8192x1, .f32⟩
  | 20 => ⟨S8192x1, .f32⟩
  | 21 => ⟨S8192, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst_1 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst_2 : Ref sig .tc := ⟨.hbm, 68, rfl⟩
abbrev main_v25 : Ref sig .tc := ⟨.hbm, 69, rfl⟩
abbrev main_v26 : Ref sig .tc := ⟨.hbm, 70, rfl⟩
abbrev main_cst_3 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_4 : Ref sig .tc := ⟨.hbm, 87, rfl⟩
abbrev main_v42 : Ref sig .tc := ⟨.hbm, 88, rfl⟩
abbrev main_v43 : Ref sig .tc := ⟨.hbm, 89, rfl⟩
abbrev main_cst_5 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_6 : Ref sig .tc := ⟨.hbm, 97, rfl⟩
abbrev main_v50 : Ref sig .tc := ⟨.hbm, 98, rfl⟩
abbrev main_v51 : Ref sig .tc := ⟨.hbm, 99, rfl⟩
abbrev main_cst_7 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_8 : Ref sig .tc := ⟨.hbm, 117, rfl⟩
abbrev main_v68 : Ref sig .tc := ⟨.hbm, 118, rfl⟩
abbrev main_v69 : Ref sig .tc := ⟨.hbm, 119, rfl⟩
abbrev main_cst_9 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_cst_10 : Ref sig .tc := ⟨.hbm, 127, rfl⟩
abbrev main_v76 : Ref sig .tc := ⟨.hbm, 128, rfl⟩
abbrev main_v77 : Ref sig .tc := ⟨.hbm, 129, rfl⟩
abbrev main_cst_11 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_call1_cst : Ref sig .tc := ⟨.hbm, 141, rfl⟩
abbrev main_call1_v0 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x2048_S2048x2048_1_0 : S2048x2048.Transposes [1, 0] S2048x2048
  bcast_S_S8192x2048 : S_.BroadcastsInDim S8192x2048 (![] : Fin 0 → Fin S8192x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  transposes_S64x2048_S2048x64_1_0 : S64x2048.Transposes [1, 0] S2048x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S1x64_S64x1_1_0 : S1x64.Transposes [1, 0] S64x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x2048_S2048x2048_S8192x2048_1_0_0_1_n_n_wf : DotDims.WF S8192x2048 S2048x2048 S8192x2048 [1] [0] [0] [1] [] []
  dot_S8192x2048_S2048x4096_S8192x4096_1_0_0_1_n_n_wf : DotDims.WF S8192x2048 S2048x4096 S8192x4096 [1] [0] [0] [1] [] []
  dot_S8192x2048_S2048x64_S8192x64_1_0_0_1_n_n_wf : DotDims.WF S8192x2048 S2048x64 S8192x64 [1] [0] [0] [1] [] []
  dot_S8192x64_S64x1_S8192x1_1_0_0_1_n_n_wf : DotDims.WF S8192x64 S64x1 S8192x1 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.Spec.lean ====
/-
  The mathematics both programs compute, written once over plain coordinate functions on the extended reals
  (no array layout, no tiling): a batch of 8192 rows of 2048 features goes through

  * a feature gate: each row is normalised (mean and variance over its 2048 entries, an affine map `g, b`),
    multiplied into a 2048 x 2048 weight, shifted, squashed by the logistic function, and the row is multiplied
    entry by entry by the result;
  * one step of a two-direction recurrent cell from the zero state: per direction three gate pre-activations
    (input, candidate, output — the forget gate multiplies the zero state and is absent), the cell value
    `σ(i) · tanh(g)` and the hidden value `σ(o) · tanh(cell)`;
  * a two-layer head on the two hidden vectors laid side by side: 2048 → 64 with a rectifier, then 64 → 1.

  The variance of a row is written in the two textbook forms, `E[x²] − E[x]²` and `E[(x − E[x])²]`; they agree
  on rows of real numbers (`varMoments_eq_varCentered`), which is the only place finiteness of an input is used.
-/
import Idealize.ShloMosaic.PureOps.Ideal

noncomputable section

open scoped BigOperators

namespace Cert.Spec

open Idealize.ShloMosaic

/-- The row length 2048 as the extended real its single-precision pattern denotes. -/
def nFeat : EReal := Ideal.ofBits .f32 0x45000000#32
/-- The variance's regulariser, the single-precision pattern nearest 1e-5. -/
def eps : EReal := Ideal.ofBits .f32 0x3727C5AC#32

/-- A row's mean: the sum of its 2048 entries over 2048. -/
def mean (x : Fin 8192 → Fin 2048 → EReal) (r : Fin 8192) : EReal :=
  Ideal.div (∑ k : Fin 2048, x r k) nFeat

/-- A row's variance as the mean of the squares less the square of the mean. -/
def varMoments (x : Fin 8192 → Fin 2048 → EReal) (r : Fin 8192) : EReal :=
  Ideal.div (∑ k : Fin 2048, x r k * x r k) nFeat - mean x r * mean x r

/-- A row's variance as the mean of the squared deviations from the mean. -/
def varCentered (x : Fin 8192 → Fin 2048 → EReal) (r : Fin 8192) : EReal :=
  Ideal.div (∑ k : Fin 2048, (x r k - mean x r) * (x r k - mean x r)) nFeat

/-- The normalised row entry: centred, scaled by the inverse root of the regularised variance, then the affine map. -/
def normed (var : Fin 8192 → EReal) (x : Fin 8192 → Fin 2048 → EReal) (g b : Fin 2048 → EReal)
    (r : Fin 8192) (k : Fin 2048) : EReal :=
  (x r k - mean x r) * Ideal.rsqrt (var r + eps) * g k + b k

/-- The gated row: `x · σ(normed · w + c)`, the weight read contraction index first. -/
def gate (var : Fin 8192 → EReal) (x : Fin 8192 → Fin 2048 → EReal) (g b : Fin 2048 → EReal)
    (w : Fin 2048 → Fin 2048 → EReal) (c : Fin 2048 → EReal) (r : Fin 8192) (j : Fin 2048) : EReal :=
  x r j * Ideal.logistic ((∑ k : Fin 2048, normed var x g b r k * w k j) + c j)

/-- One gate's pre-activation: a row of the gated input against a column of a weight, plus a bias. -/
def preact (xg : Fin 8192 → Fin 2048 → EReal) (w : Fin 2048 → Fin 1024 → EReal) (c : Fin 1024 → EReal)
    (r : Fin 8192) (p : Fin 1024) : EReal :=
  (∑ k : Fin 2048, xg r k * w k p) + c p

/-- One direction's hidden value after one step from the zero state. -/
def hidden (xg : Fin 8192 → Fin 2048 → EReal) (wi wg wo : Fin 2048 → Fin 1024 → EReal) (ci cg co : Fin 1024 → EReal)
    (r : Fin 8192) (p : Fin 1024) : EReal :=
  Ideal.logistic (preact xg wo co r p) * Ideal.tanh (Ideal.logistic (preact xg wi ci r p) * Ideal.tanh (preact xg wg cg r p))

/-- The two hidden vectors side by side: entries below 1024 from the first, the rest from the second. -/
def feat (hf hb : Fin 8192 → Fin 1024 → EReal) (r : Fin 8192) (u : Fin 2048) : EReal :=
  if h : u.val < 1024 then hf r ⟨u.val, h⟩ else hb r ⟨u.val - 1024, by omega⟩

/-- The head: 2048 → 64 with a rectifier, then 64 → 1. -/
def head (hf hb : Fin 8192 → Fin 1024 → EReal) (w1 : Fin 2048 → Fin 64 → EReal) (c1 : Fin 64 → EReal)
    (w2 : Fin 64 → EReal) (c2 : EReal) (r : Fin 8192) : EReal :=
  (∑ s : Fin 64, max ((∑ u : Fin 2048, feat hf hb r u * w1 u s) + c1 s) 0 * w2 s) + c2

end Cert.Spec

end
-- ==== Proof.Arrays.lean ====
/-
  The specification read at array indices. `Mat a b` and `Vec1 a` are arrays of extended reals of the literal
  shapes the programs use. Two array-level functions say what each launched region leaves, in the layout the
  region is handed its operands in (weights already transposed, contraction axis first; the recurrent cell's
  weights with the forget gate's block removed, so that columns 0–1023 are the input gate, 1024–2047 the
  candidate, 2048–3071 the output gate; biases as one-row matrices):

  * `gateArr`: the gated batch as a function of the batch, the two affine rows, the weight and the bias row;
  * `headArr`: the final vector as a function of the gated batch, the two directions' weights and bias rows, and
    the head's two layers.

  `Args` bundles the fifteen argument arrays the result depends on (the two recurrent weights, multiplied into
  the zero state, are absent), in the layout the programs receive them (weights as `out × in` matrices, four gate
  blocks of 1024 rows in the order input, forget, candidate, output; two bias vectors per direction, added).
  `Args.result` is the result at a row as one function of those arrays, for either form of the variance.
-/
import proofs.«408149_j91268055040200_3_alg».proof.Proof.Spec
import Idealize.ShloMosaic.Lib.ValueIdx

noncomputable section

open scoped BigOperators

namespace Cert.Spec

open Idealize.ShloMosaic Idealize.ShloMosaic.ValueIdx

abbrev Mat (a b : Nat) : Type := (⟨2, ![a, b]⟩ : Shape).Idx → EReal
abbrev Vec1 (a : Nat) : Type := (⟨1, ![a]⟩ : Shape).Idx → EReal

/-- The batch as a coordinate function. -/
def rows {a b : Nat} (x : Mat a b) (r : Fin a) (k : Fin b) : EReal := x (ix2 r k)
/-- A one-row matrix as a function of the column. -/
def row0 {b : Nat} (x : Mat 1 b) (k : Fin b) : EReal := x (ix2 0 k)

/-- What the first region leaves: the gated batch, the variance by moments. -/
def gateArr (x : Mat 8192 2048) (g b : Mat 1 2048) (w : Mat 2048 2048) (c : Mat 1 2048) : Mat 8192 2048 :=
  fun i => gate (varMoments (rows x)) (rows x) (row0 g) (row0 b) (rows w) (row0 c) (i 0) (i 1)

theorem gateArr_apply (x : Mat 8192 2048) (g b : Mat 1 2048) (w : Mat 2048 2048) (c : Mat 1 2048) (r : Fin 8192) (j : Fin 2048) :
    gateArr x g b w c (ix2 r j) = gate (varMoments (rows x)) (rows x) (row0 g) (row0 b) (rows w) (row0 c) r j := rfl

/-- Gate block `o` (0, 1024 or 2048) of a three-block weight, contraction index first. -/
def wBlock (o : Nat) (ho : o + 1024 ≤ 3072) (w : Mat 2048 3072) (k : Fin 2048) (p : Fin 1024) : EReal :=
  w (ix2 k ⟨o + p.val, by have := p.isLt; omega⟩)
/-- Gate block `o` of a three-block bias row. -/
def cBlock (o : Nat) (ho : o + 1024 ≤ 3072) (c : Mat 1 3072) (p : Fin 1024) : EReal :=
  c (ix2 0 ⟨o + p.val, by have := p.isLt; omega⟩)

/-- One direction's hidden values from the three-block weight and bias row (input, candidate, output). -/
def hiddenArr (xg : Mat 8192 2048) (w : Mat 2048 3072) (c : Mat 1 3072) (r : Fin 8192) (p : Fin 1024) : EReal :=
  hidden (rows xg) (wBlock 0 (by omega) w) (wBlock 1024 (by omega) w) (wBlock 2048 (by omega) w)
    (cBlock 0 (by omega) c) (cBlock 1024 (by omega) c) (cBlock 2048 (by omega) c) r p

/-- What the second region leaves: the head of the two directions' hidden values. -/
def headArr (xg : Mat 8192 2048) (wf wb : Mat 2048 3072) (cf cb : Mat 1 3072) (w1 : Mat 2048 64) (c1 : Mat 1 64)
    (w2 : Mat 64 1) (c2 : Mat 1 1) : Vec1 8192 :=
  fun i => head (hiddenArr xg wf cf) (hiddenArr xg wb cb) (rows w1) (row0 c1) (fun s => w2 (ix2 s 0)) (c2 (ix2 0 0)) (i 0)

theorem headArr_apply (xg : Mat 8192 2048) (wf wb : Mat 2048 3072) (cf cb : Mat 1 3072) (w1 : Mat 2048 64) (c1 : Mat 1 64)
    (w2 : Mat 64 1) (c2 : Mat 1 1) (r : Fin 8192) :
    headArr xg wf wb cf cb w1 c1 w2 c2 (ix1 r)
      = head (hiddenArr xg wf cf) (hiddenArr xg wb cb) (rows w1) (row0 c1) (fun s => w2 (ix2 s 0)) (c2 (ix2 0 0)) r := rfl

/-- The argument arrays the result depends on, as the programs receive them. -/
structure Args where
  x : Mat 8192 2048
  lng : Vec1 2048
  lnb : Vec1 2048
  Wg : Mat 2048 2048
  bg : Vec1 2048
  Wf : Mat 4096 2048
  biF : Vec1 4096
  bhF : Vec1 4096
  Wb : Mat 4096 2048
  biB : Vec1 4096
  bhB : Vec1 4096
  W1 : Mat 64 2048
  b1 : Vec1 64
  W2 : Mat 1 64
  b2 : Vec1 1

/-- Gate block `o` (0, 2048 or 3072: input, candidate, output) of an `out × in` recurrent-cell weight, contraction index first. -/
def gBlock (o : Nat) (ho : o + 1024 ≤ 4096) (W : Mat 4096 2048) (k : Fin 2048) (p : Fin 1024) : EReal :=
  W (ix2 ⟨o + p.val, by have := p.isLt; omega⟩ k)
/-- Gate block `o` of the sum of the two bias vectors. -/
def gBias (o : Nat) (ho : o + 1024 ≤ 4096) (bi bh : Vec1 4096) (p : Fin 1024) : EReal :=
  bi (ix1 ⟨o + p.val, by have := p.isLt; omega⟩) + bh (ix1 ⟨o + p.val, by have := p.isLt; omega⟩)

/-- The gated batch from the arguments, for a given form of the variance. -/
def Args.gated (var : (Fin 8192 → Fin 2048 → EReal) → Fin 8192 → EReal) (a : Args) (r : Fin 8192) (j : Fin 2048) : EReal :=
  gate (var (rows a.x)) (rows a.x) (fun k => a.lng (ix1 k)) (fun k => a.lnb (ix1 k)) (fun k j => a.Wg (ix2 j k)) (fun j => a.bg (ix1 j)) r j

/-- One direction's hidden values from an `out × in` weight and its two bias vectors. -/
def Args.hid (xg : Fin 8192 → Fin 2048 → EReal) (W : Mat 4096 2048) (bi bh : Vec1 4096) (r : Fin 8192) (p : Fin 1024) : EReal :=
  hidden xg (gBlock 0 (by omega) W) (gBlock 2048 (by omega) W) (gBlock 3072 (by omega) W)
    (gBias 0 (by omega) bi bh) (gBias 2048 (by omega) bi bh) (gBias 3072 (by omega) bi bh) r p

/-- THE RESULT at a row, as one function of the argument arrays, for a given form of the variance. -/
def Args.result (var : (Fin 8192 → Fin 2048 → EReal) → Fin 8192 → EReal) (a : Args) (r : Fin 8192) : EReal :=
  head (Args.hid (a.gated var) a.Wf a.biF a.bhF) (Args.hid (a.gated var) a.Wb a.biB a.bhB)
    (fun u s => a.W1 (ix2 s u)) (fun s => a.b1 (ix1 s)) (fun s => a.W2 (ix2 0 s)) (a.b2 (ix1 0)) r

end Cert.Spec

end
-- ==== Proof.GateRegion.lean ====
/-
  What the first launched region leaves in its output array, for ANY contents `V` the region is entered from:
  the gated batch (`Spec.gateArr`) of the five arrays its input windows read — the batch in 16 blocks of 512 rows,
  the two affine rows, the weight and the bias row whole at every point.
-/
import proofs.«408149_j91268055040200_3_alg».proof.Proof.Gen.KernelIdeal.Frame
import proofs.«408149_j91268055040200_3_alg».proof.Proof.Arrays
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.GateRegion

open Cert.KernelIdeal Cert.KernelIdeal.Gen Idealize.ShloMosaic Idealize.ShloMosaic.TcCoe Idealize.ShloMosaic.ValueIdx Idealize.SL.Sem
open Idealize.ShloMosaic.Pipeline (Dat)

/-! ## Layout: a row sum kept as a column, and a column spread over the rows -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the rows of an `[a, b]` array of extended reals, at row `p`: the sum of that row's entries. -/
theorem rowSum_apply {a b : ℕ} (x : FVec Ideal ⟨2, ![a, b]⟩ .f32) (acc : BitVec FTy.f32.bits)
    (h : (⟨2, ![a, b]⟩ : Shape).Reduces [1] ⟨1, ![a]⟩) (hφ : FKind.Formats .f32)
    (hacc : acc = FKind.add.neutral .f32 hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  refine Finset.sum_congr rfl fun k _ => congrArg x ?_
  funext c
  apply Fin.ext
  match c with
  | ⟨0, _⟩ => rfl
  | ⟨1, _⟩ => rfl

/-! ## The product with the weight, read at an index

The product contracts the left operand's columns against the right operand's rows: at `(p, q)` it is the sum over
`k` of `lhs (p, k) * rhs (k, q)`. The four coordinate facts of the two operand indices come first. -/

theorem lhs_gateDot_0 (j : S512x2048.Idx) (k : dot_S512x2048_S2048x2048_S512x2048_1_0_0_1_n_n.contr.Idx) :
    (dot_S512x2048_S2048x2048_S512x2048_1_0_0_1_n_n.lhsIdx j k 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

theorem lhs_gateDot_1 (j : S512x2048.Idx) (k : dot_S512x2048_S2048x2048_S512x2048_1_0_0_1_n_n.contr.Idx) :
    (dot_S512x2048_S2048x2048_S512x2048_1_0_0_1_n_n.lhsIdx j k 1).val = (k ⟨0, by decide⟩).val :=
  DotDims.lhsIdx_val_of_single dot_S512x2048_S2048x2048_S512x2048_1_0_0_1_n_n (cl := 1) rfl j k

theorem rhs_gateDot_0 (j : S512x2048.Idx) (k : dot_S512x2048_S2048x2048_S512x2048_1_0_0_1_n_n.contr.Idx) :
    (dot_S512x2048_S2048x2048_S512x2048_1_0_0_1_n_n.rhsIdx j k 0).val = (k ⟨0, by decide⟩).val :=
  DotDims.rhsIdx_val_of_single dot_S512x2048_S2048x2048_S512x2048_1_0_0_1_n_n (cr := 0) rfl j k

theorem rhs_gateDot_1 (j : S512x2048.Idx) (k : dot_S512x2048_S2048x2048_S512x2048_1_0_0_1_n_n.contr.Idx) :
    (dot_S512x2048_S2048x2048_S512x2048_1_0_0_1_n_n.rhsIdx j k 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The product into the zero block, at `(p, q)`: the row of the left operand against the column of the right. -/
theorem gateDot_apply (lhs : FVec Ideal S512x2048 .bf16) (rhs : FVec Ideal S2048x2048 .bf16) (p : Fin 512) (q : Fin 2048) :
    matmul dot_S512x2048_S2048x2048_S512x2048_1_0_0_1_n_n none lhs rhs (constant (F := Ideal) S512x2048 .f32 0x00000000#32) (ix2 p q)
      = ∑ k : Fin 2048, lhs (ix2 p k) * rhs (ix2 k q) := by
  refine (Ideal.matmul_constant_zero_apply dot_S512x2048_S2048x2048_S512x2048_1_0_0_1_n_n none lhs rhs (ix2 p q)).trans ?_
  rw [← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q)
      ((contrEquiv1 dot_S512x2048_S2048x2048_S512x2048_1_0_0_1_n_n 2048 rfl rfl).symm k) = ix2 p k := by
    funext a; apply Fin.ext
    match a with
    | ⟨0, _⟩ => exact lhs_gateDot_0 _ _
    | ⟨1, _⟩ => exact (lhs_gateDot_1 _ _).trans hk
  have er : dot_S512x2048_S2048x2048_S512x2048_1_0_0_1_n_n.rhsIdx (ix2 p q)
      ((contrEquiv1 dot_S512x2048_S2048x2048_S512x2048_1_0_0_1_n_n 2048 rfl rfl).symm k) = ix2 k q := by
    funext a; apply Fin.ext
    match a with
    | ⟨0, _⟩ => exact (rhs_gateDot_0 _ _).trans hk
    | ⟨1, _⟩ => exact rhs_gateDot_1 _ _
  rw [el, er]

/-! ## The body's arithmetic, stage by stage

The body computes, for a block `x` of 512 rows: the row sums and the row sums of squares kept as columns, from them
the columns of row means, variances and inverse roots, the normalised block through the two affine rows, its product
with the weight plus the bias row, and the block times the logistic function of that. Each stage is read at an index. -/

/-- The row sums of a block, kept as a column. -/
def colSum (x : FVec Ideal S512x2048 .f32) : FVec Ideal S512x1 .f32 :=
  shapeCast S512x1 (multiReduction .add [1] S512 x 0x00000000#32 reduces_S512x2048_S512 (.inl rfl) rfl) shapeCasts_S512_S512x1

theorem colSum_apply (x : FVec Ideal S512x2048 .f32) (p : Fin 512) (u : Fin 1) :
    colSum x (ix2 p u) = ∑ k : Fin 2048, x (ix2 p k) := by
  unfold colSum
  refine (shapeCast_a_a1_apply _ shapeCasts_S512_S512x1 p u).trans ?_
  exact rowSum_apply x _ reduces_S512x2048_S512 _ _ p

/-- The column of row means: the row sums over the row length. -/
def meanCol (x : FVec Ideal S512x2048 .f32) : FVec Ideal S512x1 .f32 :=
  divf (colSum x) (broadcast S512x1 (Scalar.ofBits .f32 0x45000000#32))

theorem meanCol_apply (x : FVec Ideal S512x2048 .f32) (p : Fin 512) (u : Fin 1) :
    meanCol x (ix2 p u) = Ideal.div (∑ k : Fin 2048, x (ix2 p k)) Spec.nFeat := by
  show Ideal.div (colSum x (ix2 p u)) Spec.nFeat = _
  rw [colSum_apply]

/-- The column of row variances: the mean of the squares less the square of the mean. -/
def varCol (x : FVec Ideal S512x2048 .f32) : FVec Ideal S512x1 .f32 :=
  subf (divf (colSum (mulf x x)) (broadcast S512x1 (Scalar.ofBits .f32 0x45000000#32))) (mulf (meanCol x) (meanCol x))

theorem varCol_apply (x : FVec Ideal S512x2048 .f32) (p : Fin 512) (u : Fin 1) :
    varCol x (ix2 p u)
      = Ideal.div (∑ k : Fin 2048, x (ix2 p k) * x (ix2 p k)) Spec.nFeat
        - Ideal.div (∑ k : Fin 2048, x (ix2 p k)) Spec.nFeat * Ideal.div (∑ k : Fin 2048, x (ix2 p k)) Spec.nFeat := by
  show Ideal.div (colSum (mulf x x) (ix2 p u)) Spec.nFeat - meanCol x (ix2 p u) * meanCol x (ix2 p u) = _
  rw [colSum_apply, meanCol_apply]
  rfl

/-- The column of inverse roots of the regularised variances. -/
def rstdCol (x : FVec Ideal S512x2048 .f32) : FVec Ideal S512x1 .f32 :=
  rsqrt (addf (varCol x) (broadcast S512x1 (Scalar.ofBits .f32 0x3727C5AC#32)))

theorem rstdCol_apply (x : FVec Ideal S512x2048 .f32) (p : Fin 512) (u : Fin 1) :
    rstdCol x (ix2 p u) = Ideal.rsqrt (varCol x (ix2 p u) + Spec.eps) := rfl

/-- The normalised block: centred, scaled by the inverse root, then through the two affine rows. -/
def normedBlk (x : FVec Ideal S512x2048 .f32) (g b : Vec Ideal S1x2048 .f32) : FVec Ideal S512x2048 .f32 :=
  addf
    (mulf
      (mulf (subf x (broadcastTo S512x2048 (meanCol x) broadcasts_S512x1_S512x2048))
        (broadcastTo S512x2048 (rstdCol x) broadcasts_S512x1_S512x2048))
      (broadcastTo S512x2048 (shapeCast S1x2048 g shapeCasts_S1x2048_S1x2048 : FVec Ideal S1x2048 .f32) broadcasts_S1x2048_S512x2048))
    (broadcastTo S512x2048 (shapeCast S1x2048 b shapeCasts_S1x2048_S1x2048 : FVec Ideal S1x2048 .f32) broadcasts_S1x2048_S512x2048)

theorem normedBlk_apply (x : FVec Ideal S512x2048 .f32) (g b : Vec Ideal S1x2048 .f32) (p : Fin 512) (k : Fin 2048) :
    normedBlk x g b (ix2 p k)
      = (x (ix2 p k) - meanCol x (ix2 p (0 : Fin 1))) * rstdCol x (ix2 p (0 : Fin 1)) * g (ix2 (0 : Fin 1) k) + b (ix2 (0 : Fin 1) k) := by
  show (x (ix2 p k) - broadcastTo S512x2048 (meanCol x) broadcasts_S512x1_S512x2048 (ix2 p k))
        * broadcastTo S512x2048 (rstdCol x) broadcasts_S512x1_S512x2048 (ix2 p k)
        * broadcastTo S512x2048 (shapeCast S1x2048 g shapeCasts_S1x2048_S1x2048) broadcasts_S1x2048_S512x2048 (ix2 p k)
      + broadcastTo S512x2048 (shapeCast S1x2048 b shapeCasts_S1x2048_S1x2048) broadcasts_S1x2048_S512x2048 (ix2 p k) = _
  rw [broadcastTo_a1_ab_apply (meanCol x), broadcastTo_a1_ab_apply (rstdCol x), broadcastTo_1b_ab_apply, broadcastTo_1b_ab_apply,
    shapeCast_self, shapeCast_self]

/-- The body's value is the block times the logistic function of the normalised block's product with the weight
    plus the bias row. -/
theorem pay_eq (x0 : Vec Ideal S512x2048 .f32) (x1 x2 : Vec Ideal S1x2048 .f32) (x3 : Vec Ideal S2048x2048 .bf16)
    (x4 : Vec Ideal S1x2048 .f32) :
    k0_pay1 (F := Ideal) x0 x1 x2 x3 x4
      = truncf .bf16
          (mulf x0
            (logistic
              (addf
                (matmul dot_S512x2048_S2048x2048_S512x2048_1_0_0_1_n_n none
                  (truncf .bf16 (normedBlk x0 x1 x2) bitsLt_bf16_f32)
                  (shapeCast S2048x2048 x3 shapeCasts_S2048x2048_S2048x2048 : FVec Ideal S2048x2048 .bf16)
                  (constant (F := Ideal) S512x2048 .f32 0x00000000#32))
                (broadcastTo S512x2048 (shapeCast S1x2048 x4 shapeCasts_S1x2048_S1x2048 : FVec Ideal S1x2048 .f32)
                  broadcasts_S1x2048_S512x2048))))
          bitsLt_bf16_f32 := rfl

/-- The body's value at `(p, q)`: the block's entry times the logistic function of row `p` of the normalised block
    against column `q` of the weight, plus the bias row's entry. -/
theorem pay_apply (x0 : Vec Ideal S512x2048 .f32) (x1 x2 : Vec Ideal S1x2048 .f32) (x3 : Vec Ideal S2048x2048 .bf16)
    (x4 : Vec Ideal S1x2048 .f32) (p : Fin 512) (q : Fin 2048) :
    k0_pay1 (F := Ideal) x0 x1 x2 x3 x4 (ix2 p q)
      = x0 (ix2 p q)
        * Ideal.logistic ((∑ k : Fin 2048, normedBlk x0 x1 x2 (ix2 p k) * x3 (ix2 k q)) + x4 (ix2 (0 : Fin 1) q)) := by
  rw [pay_eq]
  show x0 (ix2 p q)
      * Ideal.logistic
          (matmul dot_S512x2048_S2048x2048_S512x2048_1_0_0_1_n_n none
              (truncf .bf16 (normedBlk x0 x1 x2) bitsLt_bf16_f32)
              (shapeCast S2048x2048 x3 shapeCasts_S2048x2048_S2048x2048 : FVec Ideal S2048x2048 .bf16)
              (constant (F := Ideal) S512x2048 .f32 0x00000000#32) (ix2 p q)
            + broadcastTo S512x2048 (shapeCast S1x2048 x4 shapeCasts_S1x2048_S1x2048 : FVec Ideal S1x2048 .f32)
                broadcasts_S1x2048_S512x2048 (ix2 p q)) = _
  rw [gateDot_apply, broadcastTo_1b_ab_apply, shapeCast_self, shapeCast_self]
  rfl

/-- When row `p` of the block is row `r` of the batch `X`, the body's value at `(p, q)` is the gated batch at `(r, q)`. -/
theorem pay_gate (X : Spec.Mat 8192 2048) (x0 : Vec Ideal S512x2048 .f32) (x1 x2 : Vec Ideal S1x2048 .f32)
    (x3 : Vec Ideal S2048x2048 .bf16) (x4 : Vec Ideal S1x2048 .f32) (r : Fin 8192) (p : Fin 512) (q : Fin 2048)
    (h0 : ∀ k : Fin 2048, x0 (ix2 p k) = X (ix2 r k)) :
    k0_pay1 (F := Ideal) x0 x1 x2 x3 x4 (ix2 p q)
      = Spec.gate (Spec.varMoments (Spec.rows X)) (Spec.rows X) (Spec.row0 x1) (Spec.row0 x2) (Spec.rows x3) (Spec.row0 x4) r q := by
  have hn : ∀ k : Fin 2048, normedBlk x0 x1 x2 (ix2 p k)
      = Spec.normed (Spec.varMoments (Spec.rows X)) (Spec.rows X) (Spec.row0 x1) (Spec.row0 x2) r k := by
    intro k
    rw [normedBlk_apply, rstdCol_apply, varCol_apply, meanCol_apply]
    simp only [h0]
    rfl
  refine (pay_apply x0 x1 x2 x3 x4 p q).trans ?_
  rw [h0 q]
  simp only [hn]
  rfl

variable (V : (c : Dev nD) → (b : Ref sig .tc) → Buf (Elt Ideal) ((c : Thread nD τ).loc b))

/-! ## From the blocks to the array

Grid point `t` reads rows `512 t` to `512 t + 511` of the batch and writes the same rows of the output; the two affine
rows, the weight and the bias row are read whole at every point. -/

theorem zeros2 : (![0, 0] : Fin 2 → Nat) = fun _ => 0 := funext fun a => by fin_cases a <;> rfl

/-- The index maps over the grid: the batch's block index is the output's on the rows; every other block index is zero;
    the output's row block index stays below 16. -/
theorem idx_facts : ∀ t : Fin cfg0.N,
    win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 15 ∧ win0_5.index t (1 : Fin 2) = 0 :=
  (by decide +kernel : ∀ t : Fin grid0.N, _)

/-- Every row block of the output is some grid point's. -/
theorem idx_onto : ∀ b : Fin 16, ∃ t : Fin cfg0.N, win0_5.index t = ![b.val, 0] :=
  (by decide +kernel : ∀ b : Fin 16, ∃ t : Fin grid0.N, win0_5.index t = ![b.val, 0])

/-- Row `p` of the batch's block at point `t` is the batch's row `512 · (block index) + p`. -/
theorem xblk_apply (c : Dev nD) (t : Fin cfg0.N) (p : Fin 512) (k : Fin 2048) (r : Fin 8192)
    (hr : r.val = win0_5.index t (0 : Fin 2) * 512 + 1 * p.val) :
    (iblk0 V c 0 t : Vec Ideal S512x2048 .f32) (ix2 p k) = V c main_arg0 (ix2 r k) := by
  obtain ⟨e0, e1, -⟩ := idx_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 512 + 1 * p.val = r.val; omega
  | ⟨1, _⟩ => show win0_0.index t (1 : Fin 2) * 2048 + 1 * k.val = k.val; omega

/-- The first affine row's block is the whole row at every point. -/
theorem gblk_eq (c : Dev nD) (t : Fin cfg0.N) : (iblk0 V c 1 t : Vec Ideal S1x2048 .f32) = V c main_call0_v0 := by
  obtain ⟨-, -, e0, e1, -⟩ := idx_facts t
  funext j
  show V c main_call0_v0 (((cfg0.win 1).blk t).view.emb j) = V c main_call0_v0 j
  refine congrArg (V c main_call0_v0) ?_
  funext a; apply Fin.ext
  match a with
  | ⟨0, _⟩ => show win0_1.index t (0 : Fin 2) * 1 + 1 * (j 0).val = (j 0).val; omega
  | ⟨1, _⟩ => show win0_1.index t (1 : Fin 2) * 2048 + 1 * (j 1).val = (j 1).val; omega

/-- The second affine row's block is the whole row at every point. -/
theorem bblk_eq (c : Dev nD) (t : Fin cfg0.N) : (iblk0 V c 2 t : Vec Ideal S1x2048 .f32) = V c main_call0_v1 := by
  obtain ⟨-, -, -, -, e0, e1, -⟩ := idx_facts t
  funext j
  show V c main_call0_v1 (((cfg0.win 2).blk t).view.emb j) = V c main_call0_v1 j
  refine congrArg (V c main_call0_v1) ?_
  funext a; apply Fin.ext
  match a with
  | ⟨0, _⟩ => show win0_2.index t (0 : Fin 2) * 1 + 1 * (j 0).val = (j 0).val; omega
  | ⟨1, _⟩ => show win0_2.index t (1 : Fin 2) * 2048 + 1 * (j 1).val = (j 1).val; omega

/-- The weight's block is the whole weight at every point. -/
theorem wblk_eq (c : Dev nD) (t : Fin cfg0.N) : (iblk0 V c 3 t : Vec Ideal S2048x2048 .bf16) = V c main_call0_v4 := by
  obtain ⟨-, -, -, -, -, -, e0, e1, -⟩ := idx_facts t
  funext j
  show V c main_call0_v4 (((cfg0.win 3).blk t).view.emb j) = V c main_call0_v4 j
  refine congrArg (V c main_call0_v4) ?_
  funext a; apply Fin.ext
  match a with
  | ⟨0, _⟩ => show win0_3.index t (0 : Fin 2) * 2048 + 1 * (j 0).val = (j 0).val; omega
  | ⟨1, _⟩ => show win0_3.index t (1 : Fin 2) * 2048 + 1 * (j 1).val = (j 1).val; omega

/-- The bias row's block is the whole row at every point. -/
theorem cblk_eq (c : Dev nD) (t : Fin cfg0.N) : (iblk0 V c 4 t : Vec Ideal S1x2048 .f32) = V c main_call0_v2 := by
  obtain ⟨-, -, -, -, -, -, -, -, e0, e1, -⟩ := idx_facts t
  funext j
  show V c main_call0_v2 (((cfg0.win 4).blk t).view.emb j) = V c main_call0_v2 j
  refine congrArg (V c main_call0_v2) ?_
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega

/-- What grid point `t` writes back is its block of the gated batch of the five arrays as the region finds them. -/
theorem flushed_eq (c : Dev nD) (t : Fin cfg0.N) :
    (dat0 V c).flushed 5 t
      = ((cfg0.win 5).blk t).view.read (Elt Ideal)
          (Spec.gateArr (V c main_arg0) (V c main_call0_v0) (V c main_call0_v1) (V c main_call0_v4) (V c main_call0_v2)) := by
  show (cfg0.win 5).cut (grid0.coords t) ((dat0 V c).after 5 t) = _
  rw [after0_5]
  unfold out0_5
  rw [View.canon_unit_zero zeros2]
  simp only [View.ld_unit_zero (S := S512x2048) zeros2, View.ld_unit_zero (S := S1x2048) zeros2,
    View.ld_unit_zero (S := S2048x2048) zeros2]
  rw [gblk_eq V c t, bblk_eq V c t, wblk_eq V c t, cblk_eq V c t]
  funext j
  obtain ⟨p, q, rfl⟩ : ∃ (p : Fin 512) (q : Fin 2048), j = ix2 p q := ⟨j 0, j 1, eq_ix2 j⟩
  obtain ⟨-, -, -, -, -, -, -, -, -, -, e10, e11⟩ := idx_facts t
  show k0_pay1 (F := Ideal) (iblk0 V c 0 t) (V c main_call0_v0) (V c main_call0_v1) (V c main_call0_v4) (V c main_call0_v2) (ix2 p q)
      = Spec.gateArr (V c main_arg0) (V c main_call0_v0) (V c main_call0_v1) (V c main_call0_v4) (V c main_call0_v2)
          (((cfg0.win 5).blk t).view.emb (ix2 p q))
  have hr : win0_5.index t (0 : Fin 2) * 512 + 1 * p.val < 8192 := by have := p.isLt; omega
  have hi : ((cfg0.win 5).blk t).view.emb (ix2 p q)
      = ix2 (⟨win0_5.index t (0 : Fin 2) * 512 + 1 * p.val, hr⟩ : Fin 8192) q := by
    funext a; apply Fin.ext
    match a with
    | ⟨0, _⟩ => rfl
    | ⟨1, _⟩ => show win0_5.index t (1 : Fin 2) * 2048 + 1 * q.val = q.val; omega
  rw [hi, Spec.gateArr_apply]
  exact pay_gate (V c main_arg0) (iblk0 V c 0 t) (V c main_call0_v0) (V c main_call0_v1) (V c main_call0_v4)
    (V c main_call0_v2) ⟨win0_5.index t (0 : Fin 2) * 512 + 1 * p.val, hr⟩ p q
    (fun k => xblk_apply V c t p k ⟨win0_5.index t (0 : Fin 2) * 512 + 1 * p.val, hr⟩ rfl)

/-- An index of the output array is in point `t`'s block iff each coordinate is in the block's range on its axis. -/
theorem mem_blk (t : Fin cfg0.N) (i : S8192x2048.Idx) :
    i ∈ ((cfg0.win 5).blk t).view.set
      ↔ ∀ a : Fin 2, win0_5.index t a * S512x2048.size a ≤ (i a).val
          ∧ (i a).val < win0_5.index t a * S512x2048.size a + S512x2048.size a := by
  show i ∈ ((View.whole main_call0_v5).slice (win0_5.rect t)).set ↔ _
  rw [View.set_slice_whole, Rect.mem_set_unit]
  exact Iff.rfl

/-- Row `r` of the output is in the block of the point whose row block index is `r / 512`. -/
theorem cover (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 2048 ≤ (i 1).val ∧ (i 1).val < win0_5.index t (1 : Fin 2) * 2048 + 2048
    omega

/-- The first region's output array after its 16 points, as a function of its five input arrays at entry. -/
theorem value (c : Dev nD) :
    (dat0 V c).arrAt 5 cfg0.N
      = Spec.gateArr (V c main_arg0) (V c main_call0_v0) (V c main_call0_v1) (V c main_call0_v4) (V c main_call0_v2) :=
  (dat0 V c).arrAt_eq_of_cover 5 _ (fun t _ => flushed_eq V c t) cover

end Cert.KernelIdeal.GateRegion

end
-- ==== Proof.HeadRegion.lean ====
/-
  What the second launched region leaves in its output array, for ANY contents `V` the region is entered from:
  the head of the two directions' hidden values (`Spec.headArr`) of the nine arrays its input windows read — the
  gated batch in 32 blocks of 256 rows, the weights and bias rows whole at every point.

  The head at a row reads the gated batch through that row alone, so it is written once over a row
  (`headRow`) and read twice: at row `p` of a block (the body's arithmetic at an index: three products read as
  sums over their contraction index, the gate columns `u`, `1024 + u`, `2048 + u` of a direction's pre-activations,
  the two hidden vectors laid side by side, the rectifier against zero, the final column read as a vector) and at
  row `r` of the array (the specification unfolded). Point `t`'s block of the batch is rows `256 t … 256 t + 255`,
  its output block the same rows of the result, and row `r` is covered by point `r / 256`.
-/
import proofs.«408149_j91268055040200_3_alg».proof.Proof.Gen.KernelIdeal.Frame
import proofs.«408149_j91268055040200_3_alg».proof.Proof.Arrays
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HeadRegion

open Cert.KernelIdeal Cert.KernelIdeal.Gen Idealize.ShloMosaic Idealize.ShloMosaic.TcCoe Idealize.ShloMosaic.ValueIdx Idealize.SL.Sem
open Idealize.ShloMosaic.Pipeline (Dat)

/-! ## A plain product read at an index

Each of the body's three products is the plain `[m,k] × [k,n]` product (contraction over the left factor's columns and
the right factor's rows, no batch axis), accumulated into zero. -/

theorem plain_lhs_0 {m k n : Nat} (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton_self _)]
  rfl
theorem plain_lhs_1 {m k n : Nat} (i : (⟨2, ![m, n]⟩ : Shape).Idx) (q : (DotDims.plain m k n).contr.Idx) :
    ((DotDims.plain m k n).lhsIdx i q 1).val = (q ⟨0, Nat.one_pos⟩).val :=
  (DotDims.plain m k n).lhsIdx_val_of_single rfl i q
theorem plain_rhs_0 {m k n : Nat} (i : (⟨2, ![m, n]⟩ : Shape).Idx) (q : (DotDims.plain m k n).contr.Idx) :
    ((DotDims.plain m k n).rhsIdx i q 0).val = (q ⟨0, Nat.one_pos⟩).val :=
  (DotDims.plain m k n).rhsIdx_val_of_single rfl i q
theorem plain_rhs_1 {m k n : Nat} (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton_self _)]
  rfl

/-- Into the zero accumulator the product at `(a, b)` is the sum over the `k` contraction positions of row `a` of the
    left factor against column `b` of the right. -/
theorem matmul_plain_apply (m k n : Nat) {φ₁ φ₂ : FTy} (x : FVec Ideal ⟨2, ![m, k]⟩ φ₁) (w : FVec Ideal ⟨2, ![k, n]⟩ φ₂)
    (a : Fin m) (b : Fin n) :
    matmul (DotDims.plain m k n) none x w (constant (F := Ideal) ⟨2, ![m, n]⟩ .f32 0x00000000#32) (ix2 a b)
      = ∑ c : Fin k, x (ix2 a c) * w (ix2 c b) := by
  simp only [matmul]
  rw [Ideal.matmul_constant_zero_apply, ← Equiv.sum_comp (ValueIdx.contrEquiv1 (DotDims.plain m k n) k rfl rfl).symm]
  refine Finset.sum_congr rfl fun c _ => ?_
  have hc := ValueIdx.contrEquiv1_symm_val (DotDims.plain m k n) k rfl rfl c
  have el : (DotDims.plain m k n).lhsIdx (ix2 a b) ((ValueIdx.contrEquiv1 (DotDims.plain m k n) k rfl rfl).symm c) = ix2 a c :=
    funext fun ax => Fin.ext (by
      match ax with
      | ⟨0, _⟩ => exact plain_lhs_0 _ _
      | ⟨1, _⟩ => exact (plain_lhs_1 _ _).trans hc)
  have er : (DotDims.plain m k n).rhsIdx (ix2 a b) ((ValueIdx.contrEquiv1 (DotDims.plain m k n) k rfl rfl).symm c) = ix2 c b :=
    funext fun ax => Fin.ext (by
      match ax with
      | ⟨0, _⟩ => exact (plain_rhs_0 _ _).trans hc
      | ⟨1, _⟩ => exact plain_rhs_1 _ _)
  rw [el, er]

/-- The three products of the body are plain products. -/
theorem matmulG_apply {φ₁ φ₂ : FTy} (x : FVec Ideal S256x2048 φ₁) (w : FVec Ideal S2048x3072 φ₂) (p : Fin 256) (q : Fin 3072) :
    matmul dot_S256x2048_S2048x3072_S256x3072_1_0_0_1_n_n none x w (constant (F := Ideal) S256x3072 .f32 0x00000000#32) (ix2 p q)
      = ∑ k : Fin 2048, x (ix2 p k) * w (ix2 k q) :=
  matmul_plain_apply 256 2048 3072 x w p q
theorem matmulH_apply {φ₁ φ₂ : FTy} (x : FVec Ideal S256x2048 φ₁) (w : FVec Ideal S2048x64 φ₂) (p : Fin 256) (q : Fin 64) :
    matmul dot_S256x2048_S2048x64_S256x64_1_0_0_1_n_n none x w (constant (F := Ideal) S256x64 .f32 0x00000000#32) (ix2 p q)
      = ∑ k : Fin 2048, x (ix2 p k) * w (ix2 k q) :=
  matmul_plain_apply 256 2048 64 x w p q
theorem matmulO_apply {φ₁ φ₂ : FTy} (x : FVec Ideal S256x64 φ₁) (w : FVec Ideal S64x1 φ₂) (p : Fin 256) (q : Fin 1) :
    matmul dot_S256x64_S64x1_S256x1_1_0_0_1_n_n none x w (constant (F := Ideal) S256x1 .f32 0x00000000#32) (ix2 p q)
      = ∑ k : Fin 64, x (ix2 p k) * w (ix2 k q) :=
  matmul_plain_apply 256 64 1 x w p q

/-! ## The head of one row, as a function of the row alone

The head at a row of the batch reads the gated batch through that row only; written over a row
`xr : Fin 2048 → EReal` it serves a 256-row block and the 8192-row array alike. -/

/-- Column `q` of one direction's three gate blocks: the row against that column of the weight, plus the bias. -/
def preRow (xr : Fin 2048 → EReal) (w : Spec.Mat 2048 3072) (c : Spec.Mat 1 3072) (q : Fin 3072) : EReal :=
  (∑ k : Fin 2048, xr k * w (ix2 k q)) + c (ix2 0 q)

/-- One direction's hidden value at `u`: the output gate at column `2048 + u`, the input gate at `u`, the candidate at `1024 + u`. -/
def hidRow (xr : Fin 2048 → EReal) (w : Spec.Mat 2048 3072) (c : Spec.Mat 1 3072) (u : Fin 1024) : EReal :=
  Ideal.logistic (preRow xr w c ⟨2048 + u.val, by have := u.isLt; omega⟩)
    * Ideal.tanh (Ideal.logistic (preRow xr w c ⟨0 + u.val, by have := u.isLt; omega⟩)
        * Ideal.tanh (preRow xr w c ⟨1024 + u.val, by have := u.isLt; omega⟩))

/-- The two directions' hidden values side by side. -/
def featRow (xr : Fin 2048 → EReal) (wf : Spec.Mat 2048 3072) (cf : Spec.Mat 1 3072) (wb : Spec.Mat 2048 3072) (cb : Spec.Mat 1 3072)
    (u : Fin 2048) : EReal :=
  if h : u.val < 1024 then hidRow xr wf cf ⟨u.val, h⟩ else hidRow xr wb cb ⟨u.val - 1024, by have := u.isLt; omega⟩

/-- The two-layer head of the row. -/
def headRow (xr : Fin 2048 → EReal) (wf wb : Spec.Mat 2048 3072) (cf cb : Spec.Mat 1 3072) (w1 : Spec.Mat 2048 64) (c1 : Spec.Mat 1 64)
    (w2 : Spec.Mat 64 1) (c2 : Spec.Mat 1 1) : EReal :=
  (∑ s : Fin 64, max ((∑ u : Fin 2048, featRow xr wf cf wb cb u * w1 (ix2 u s)) + c1 (ix2 0 s)) 0 * w2 (ix2 s 0)) + c2 (ix2 0 0)

/-- The specification at row `r` is the head of row `r` of the gated batch. -/
theorem headArr_row (xg : Spec.Mat 8192 2048) (wf wb : Spec.Mat 2048 3072) (cf cb : Spec.Mat 1 3072) (w1 : Spec.Mat 2048 64)
    (c1 : Spec.Mat 1 64) (w2 : Spec.Mat 64 1) (c2 : Spec.Mat 1 1) (r : Fin 8192) :
    Spec.headArr xg wf wb cf cb w1 c1 w2 c2 (ix1 r) = headRow (fun k => xg (ix2 r k)) wf wb cf cb w1 c1 w2 c2 := rfl

/-! ## The body's arithmetic at an index of its block -/

/-- One direction's gate pre-activations over a block: the block against the weight, the bias row added to every row. -/
abbrev gatesOf (x : FVec Ideal S256x2048 .bf16) (w : FVec Ideal S2048x3072 .bf16) (b : FVec Ideal S1x3072 .f32) : FVec Ideal S256x3072 .f32 :=
  addf (matmul dot_S256x2048_S2048x3072_S256x3072_1_0_0_1_n_n none x w (constant (F := Ideal) S256x3072 .f32 0x00000000#32))
    (broadcastTo S256x3072 b broadcasts_S1x3072_S256x3072)

theorem gatesOf_apply (x : FVec Ideal S256x2048 .bf16) (w : FVec Ideal S2048x3072 .bf16) (b : FVec Ideal S1x3072 .f32)
    (p : Fin 256) (q : Fin 3072) :
    gatesOf x w b (ix2 p q) = preRow (fun k => x (ix2 p k)) w b q := by
  unfold gatesOf preRow
  rw [addf_apply, matmulG_apply, broadcastTo_1b_ab_apply]

/-- One direction's hidden block: the three column blocks of the pre-activations through the cell. -/
abbrev hidOf (g : FVec Ideal S256x3072 .f32) : FVec Ideal S256x1024 .f32 :=
  mulf (logistic (extractStridedSlice S256x1024 ![0, 2048] g slices_S256x3072_o0_2048_S256x1024))
    (tanh (mulf (logistic (extractStridedSlice S256x1024 ![0, 0] g slices_S256x3072_o0_0_S256x1024))
      (tanh (extractStridedSlice S256x1024 ![0, 1024] g slices_S256x3072_o0_1024_S256x1024))))

theorem hidOf_apply (x : FVec Ideal S256x2048 .bf16) (w : FVec Ideal S2048x3072 .bf16) (b : FVec Ideal S1x3072 .f32)
    (p : Fin 256) (u : Fin 1024) :
    hidOf (gatesOf x w b) (ix2 p u) = hidRow (fun k => x (ix2 p k)) w b u := by
  have e0 := slice2_axis1_eq 0 (gatesOf x w b) slices_S256x3072_o0_0_S256x1024 p u
  have e1 := slice2_axis1_eq 1024 (gatesOf x w b) slices_S256x3072_o0_1024_S256x1024 p u
  have e2 := slice2_axis1_eq 2048 (gatesOf x w b) slices_S256x3072_o0_2048_S256x1024 p u
  show Ideal.logistic (extractStridedSlice S256x1024 ![0, 2048] (gatesOf x w b) slices_S256x3072_o0_2048_S256x1024 (ix2 p u))
      * Ideal.tanh (Ideal.logistic (extractStridedSlice S256x1024 ![0, 0] (gatesOf x w b) slices_S256x3072_o0_0_S256x1024 (ix2 p u))
        * Ideal.tanh (extractStridedSlice S256x1024 ![0, 1024] (gatesOf x w b) slices_S256x3072_o0_1024_S256x1024 (ix2 p u))) = _
  rw [e0, e1, e2, gatesOf_apply, gatesOf_apply, gatesOf_apply]
  rfl

/-- The two hidden blocks laid side by side, left of column 1024 … -/
theorem concat_left (a b : FVec Ideal S256x1024 .bf16) (p : Fin 256) (u : Fin 2048) (h : u.val < 1024) :
    concatenate S256x2048 1 [⟨S256x1024, a⟩, ⟨S256x1024, b⟩] concatenates_S256x1024_S256x1024_S256x2048_d1 (ix2 p u)
      = a (ix2 p ⟨u.val, h⟩) := by
  refine concatenate_pair_apply_left 1 a b _ (ix2 p u) rfl (ix2 p ⟨u.val, h⟩) (fun ax => ?_)
  match ax with
  | ⟨0, _⟩ => rfl
  | ⟨1, _⟩ => rfl

/-- … and from it on. -/
theorem concat_right (a b : FVec Ideal S256x1024 .bf16) (p : Fin 256) (u : Fin 2048) (h : ¬ u.val < 1024) :
    concatenate S256x2048 1 [⟨S256x1024, a⟩, ⟨S256x1024, b⟩] concatenates_S256x1024_S256x1024_S256x2048_d1 (ix2 p u)
      = b (ix2 p ⟨u.val - 1024, by have := u.isLt; omega⟩) := by
  refine concatenate_pair_apply_right 1 a b _ (ix2 p u) rfl rfl (ix2 p ⟨u.val - 1024, by have := u.isLt; omega⟩) (fun ax hax => ?_) ?_
  · match ax with
    | ⟨0, _⟩ => rfl
    | ⟨1, _⟩ => exact absurd rfl hax
  · show (u.val - 1024) + 1024 = u.val
    omega

/-- Narrowing to the sixteen-bit format changes no value. -/
theorem trunc_bf16_apply {s : Shape} (a : FVec Ideal s .f32) (h : FTy.bits .bf16 < FTy.bits .f32) (i : s.Idx) :
    (truncf .bf16 a h : FVec Ideal s .bf16) i = a i := rfl

/-- The first head layer's product over a block, at `(p, s)`: the row's two hidden vectors against column `s`. -/
theorem pay2_apply (x0 : FVec Ideal S256x2048 .bf16) (wf : FVec Ideal S2048x3072 .bf16) (cf : FVec Ideal S1x3072 .f32)
    (wb : FVec Ideal S2048x3072 .bf16) (cb : FVec Ideal S1x3072 .f32) (w1 : FVec Ideal S2048x64 .bf16) (p : Fin 256) (s : Fin 64) :
    k1_pay2 (F := Ideal) x0 wf cf wb cb w1 (ix2 p s)
      = ∑ u : Fin 2048, featRow (fun k => x0 (ix2 p k)) wf cf wb cb u * w1 (ix2 u s) := by
  unfold k1_pay2
  simp only [shapeCast_self]
  refine (matmulH_apply _ _ p s).trans ?_
  refine Finset.sum_congr rfl fun u _ => ?_
  refine congrArg (· * w1 (ix2 u s)) ?_
  unfold featRow
  by_cases h : u.val < 1024
  · rw [dif_pos h]
    refine (concat_left _ _ p u h).trans ?_
    refine (trunc_bf16_apply _ _ _).trans ?_
    refine (hidOf_apply _ _ _ p _).trans ?_
    simp only [shapeCast_self]
  · rw [dif_neg h]
    refine (concat_right _ _ p u h).trans ?_
    refine (trunc_bf16_apply _ _ _).trans ?_
    refine (hidOf_apply _ _ _ p _).trans ?_
    simp only [shapeCast_self]

/-- The rest of the head over a block, at row `p`: bias, rectifier, the second layer, its bias, the column read as a vector. -/
theorem pay1_apply (h : FVec Ideal S256x64 .f32) (c1 : FVec Ideal S1x64 .f32) (w2 : FVec Ideal S64x1 .bf16) (c2 : FVec Ideal S1x1 .f32)
    (p : Fin 256) :
    k1_pay1 (F := Ideal) h c1 w2 c2 (ix1 p)
      = (∑ s : Fin 64, max (h (ix2 p s) + c1 (ix2 0 s)) 0 * w2 (ix2 s 0)) + c2 (ix2 0 0) := by
  unfold k1_pay1
  simp only [shapeCast_self]
  refine (shapeCast_apply _ shapeCasts_S256x1_S256 (ix1 p) (ix2 p (0 : Fin 1)) ?_).trans ?_
  · rw [Shape.rowMajor_val_two, Shape.rowMajor_val_one]
    show p.val * 1 + 0 = p.val
    omega
  rw [addf_apply, matmulO_apply, broadcastTo_1b_ab_apply]
  refine congrArg (· + c2 (ix2 0 0)) (Finset.sum_congr rfl fun s _ => ?_)
  refine congrArg (· * w2 (ix2 s 0)) ?_
  show max (h (ix2 p s) + broadcastTo S256x64 c1 broadcasts_S1x64_S256x64 (ix2 p s)) (Ideal.ofBits .f32 0x00000000#32) = _
  rw [broadcastTo_1b_ab_apply, Ideal.ofBits_zero_f32]

/-- THE BODY AT A ROW OF ITS BLOCK: the head of that row of the block. -/
theorem body_apply (x0 : FVec Ideal S256x2048 .bf16) (wf wb : FVec Ideal S2048x3072 .bf16) (cf cb : FVec Ideal S1x3072 .f32)
    (w1 : FVec Ideal S2048x64 .bf16) (c1 : FVec Ideal S1x64 .f32) (w2 : FVec Ideal S64x1 .bf16) (c2 : FVec Ideal S1x1 .f32) (p : Fin 256) :
    k1_pay1 (F := Ideal) (k1_pay2 x0 wf cf wb cb w1) (k1_pay3 c1) w2 c2 (ix1 p)
      = headRow (fun k => x0 (ix2 p k)) wf wb cf cb w1 c1 w2 c2 := by
  rw [pay1_apply]
  unfold headRow k1_pay3
  simp only [shapeCast_self, pay2_apply]

/-! ## From the blocks to the array -/

/-- THE BODY AT AN INDEX `j` OF ITS OUTPUT BLOCK, when row `j` of the batch block is row `i` of the gated batch `xg`:
    the specification at `i`. -/
theorem body_at_row (xg : Spec.Mat 8192 2048) (x0 : FVec Ideal S256x2048 .bf16) (wf wb : FVec Ideal S2048x3072 .bf16)
    (cf cb : FVec Ideal S1x3072 .f32) (w1 : FVec Ideal S2048x64 .bf16) (c1 : FVec Ideal S1x64 .f32) (w2 : FVec Ideal S64x1 .bf16)
    (c2 : FVec Ideal S1x1 .f32) (j : S256.Idx) (i : S8192.Idx) (p : Fin 256) (r : Fin 8192) (hj : j = ix1 p) (hi : i = ix1 r)
    (hrow : ∀ k : Fin 2048, x0 (ix2 p k) = xg (ix2 r k)) :
    k1_pay1 (F := Ideal) (k1_pay2 x0 wf cf wb cb w1) (k1_pay3 c1) w2 c2 j = Spec.headArr xg wf wb cf cb w1 c1 w2 c2 i := by
  subst hj hi
  rw [body_apply, headArr_row]
  exact congrArg (fun xr => headRow xr wf wb cf cb w1 c1 w2 c2) (funext hrow)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The batch window's block index is the point, the output window's likewise (decided over the 32 points). -/
theorem idx_w0 : ∀ t : Fin cfg1.N, win1_0.index t (0 : Fin 2) = t.val ∧ win1_0.index t (1 : Fin 2) = 0 :=
  (by decide +kernel : ∀ t : Fin grid1.N, _)
theorem idx_w9 : ∀ t : Fin cfg1.N, win1_9.index t (0 : Fin 1) = t.val :=
  (by decide +kernel : ∀ t : Fin grid1.N, _)

/-! Each whole-array window's block index is zero at every point, so its block is the array. -/

theorem idx_w1 : ∀ t : Fin cfg1.N, win1_1.index t (0 : Fin 2) = 0 ∧ win1_1.index t (1 : Fin 2) = 0 :=
  (by decide +kernel : ∀ t : Fin grid1.N, _)
theorem iblk_w1 (c : Dev nD) (t : Fin cfg1.N) : (iblk1 V c 1 t : Vec Ideal S2048x3072 .bf16) = V c main_call0_v21 := by
  obtain ⟨e0, e1⟩ := idx_w1 t
  funext j
  unfold iblk1
  rw [View.read_apply]
  show V c main_call0_v21 _ = V c main_call0_v21 j
  congr 1
  funext a
  apply Fin.ext
  match a with
  | ⟨0, _⟩ => show win1_1.index t (0 : Fin 2) * 2048 + 1 * (j 0).val = (j 0).val; rw [e0]; omega
  | ⟨1, _⟩ => show win1_1.index t (1 : Fin 2) * 3072 + 1 * (j 1).val = (j 1).val; rw [e1]; omega

theorem idx_w2 : ∀ t : Fin cfg1.N, win1_2.index t (0 : Fin 2) = 0 ∧ win1_2.index t (1 : Fin 2) = 0 :=
  (by decide +kernel : ∀ t : Fin grid1.N, _)
theorem iblk_w2 (c : Dev nD) (t : Fin cfg1.N) : (iblk1 V c 2 t : Vec Ideal S2048x3072 .bf16) = V c main_call0_v23 := by
  obtain ⟨e0, e1⟩ := idx_w2 t
  funext j
  unfold iblk1
  rw [View.read_apply]
  show V c main_call0_v23 _ = V c main_call0_v23 j
  congr 1
  funext a
  apply Fin.ext
  match a with
  | ⟨0, _⟩ => show win1_2.index t (0 : Fin 2) * 2048 + 1 * (j 0).val = (j 0).val; rw [e0]; omega
  | ⟨1, _⟩ => show win1_2.index t (1 : Fin 2) * 3072 + 1 * (j 1).val = (j 1).val; rw [e1]; omega

theorem idx_w3 : ∀ t : Fin cfg1.N, win1_3.index t (0 : Fin 2) = 0 ∧ win1_3.index t (1 : Fin 2) = 0 :=
  (by decide +kernel : ∀ t : Fin grid1.N, _)
theorem iblk_w3 (c : Dev nD) (t : Fin cfg1.N) : (iblk1 V c 3 t : Vec Ideal S1x3072 .f32) = V c main_call0_v24 := by
  obtain ⟨e0, e1⟩ := idx_w3 t
  funext j
  unfold iblk1
  rw [View.read_apply]
  show V c main_call0_v24 _ = V c main_call0_v24 j
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 3072 + 1 * (j 1).val = (j 1).val; rw [e1]; omega

theorem idx_w4 : ∀ t : Fin cfg1.N, win1_4.index t (0 : Fin 2) = 0 ∧ win1_4.index t (1 : Fin 2) = 0 :=
  (by decide +kernel : ∀ t : Fin grid1.N, _)
theorem iblk_w4 (c : Dev nD) (t : Fin cfg1.N) : (iblk1 V c 4 t : Vec Ideal S1x3072 .f32) = V c main_call0_v25 := by
  obtain ⟨e0, e1⟩ := idx_w4 t
  funext j
  unfold iblk1
  rw [View.read_apply]
  show V c main_call0_v25 _ = V c main_call0_v25 j
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 3072 + 1 * (j 1).val = (j 1).val; rw [e1]; omega

theorem idx_w5 : ∀ t : Fin cfg1.N, win1_5.index t (0 : Fin 2) = 0 ∧ win1_5.index t (1 : Fin 2) = 0 :=
  (by decide +kernel : ∀ t : Fin grid1.N, _)
theorem iblk_w5 (c : Dev nD) (t : Fin cfg1.N) : (iblk1 V c 5 t : Vec Ideal S2048x64 .bf16) = V c main_call0_v27 := by
  obtain ⟨e0, e1⟩ := idx_w5 t
  funext j
  unfold iblk1
  rw [View.read_apply]
  show V c main_call0_v27 _ = V c main_call0_v27 j
  congr 1
  funext a
  apply Fin.ext
  match a with
  | ⟨0, _⟩ => show win1_5.index t (0 : Fin 2) * 2048 + 1 * (j 0).val = (j 0).val; rw [e0]; omega
  | ⟨1, _⟩ => show win1_5.index t (1 : Fin 2) * 64 + 1 * (j 1).val = (j 1).val; rw [e1]; omega

theorem idx_w6 : ∀ t : Fin cfg1.N, win1_6.index t (0 : Fin 2) = 0 ∧ win1_6.index t (1 : Fin 2) = 0 :=
  (by decide +kernel : ∀ t : Fin grid1.N, _)
theorem iblk_w6 (c : Dev nD) (t : Fin cfg1.N) : (iblk1 V c 6 t : Vec Ideal S1x64 .f32) = V c main_call0_v28 := by
  obtain ⟨e0, e1⟩ := idx_w6 t
  funext j
  unfold iblk1
  rw [View.read_apply]
  show V c main_call0_v28 _ = V c main_call0_v28 j
  congr 1
  funext a
  apply Fin.ext
  match a with
  | ⟨0, _⟩ => show win1_6.index t (0 : Fin 2) * 1 + 1 * (j 0).val = (j 0).val; rw [e0]; omega
  | ⟨1, _⟩ => show win1_6.index t (1 : Fin 2) * 64 + 1 * (j 1).val = (j 1).val; rw [e1]; omega

theorem idx_w7 : ∀ t : Fin cfg1.N, win1_7.index t (0 : Fin 2) = 0 ∧ win1_7.index t (1 : Fin 2) = 0 :=
  (by decide +kernel : ∀ t : Fin grid1.N, _)
theorem iblk_w7 (c : Dev nD) (t : Fin cfg1.N) : (iblk1 V c 7 t : Vec Ideal S64x1 .bf16) = V c main_call0_v30 := by
  obtain ⟨e0, e1⟩ := idx_w7 t
  funext j
  unfold iblk1
  rw [View.read_apply]
  show V c main_call0_v30 _ = V c main_call0_v30 j
  congr 1
  funext a
  apply Fin.ext
  match a with
  | ⟨0, _⟩ => show win1_7.index t (0 : Fin 2) * 64 + 1 * (j 0).val = (j 0).val; rw [e0]; omega
  | ⟨1, _⟩ => show win1_7.index t (1 : Fin 2) * 1 + 1 * (j 1).val = (j 1).val; rw [e1]; omega

theorem idx_w8 : ∀ t : Fin cfg1.N, win1_8.index t (0 : Fin 2) = 0 ∧ win1_8.index t (1 : Fin 2) = 0 :=
  (by decide +kernel : ∀ t : Fin grid1.N, _)
theorem iblk_w8 (c : Dev nD) (t : Fin cfg1.N) : (iblk1 V c 8 t : Vec Ideal S1x1 .f32) = V c main_call0_v31 := by
  obtain ⟨e0, e1⟩ := idx_w8 t
  funext j
  unfold iblk1
  rw [View.read_apply]
  show V c main_call0_v31 _ = V c main_call0_v31 j
  congr 1
  funext a
  apply Fin.ext
  match a with
  | ⟨0, _⟩ => show win1_8.index t (0 : Fin 2) * 1 + 1 * (j 0).val = (j 0).val; rw [e0]; omega
  | ⟨1, _⟩ => show win1_8.index t (1 : Fin 2) * 1 + 1 * (j 1).val = (j 1).val; rw [e1]; omega

/-- Row `p` of the batch window's block at point `t` is row `256 t + p` of the gated batch. -/
theorem iblk_w0_apply (c : Dev nD) (t : Fin cfg1.N) (p : Fin 256) (k : Fin 2048) (r : Fin 8192) (hr : r.val = t.val * 256 + p.val) :
    (iblk1 V c 0 t : Vec Ideal S256x2048 .bf16) (ix2 p k) = (V c main_call0_v5 : S8192x2048.Idx → EReal) (ix2 r k) := by
  obtain ⟨e0, e1⟩ := idx_w0 t
  unfold iblk1
  rw [View.read_apply]
  show V c main_call0_v5 _ = V c main_call0_v5 _
  congr 1
  funext a
  apply Fin.ext
  match a with
  | ⟨0, _⟩ => show win1_0.index t (0 : Fin 2) * 256 + 1 * p.val = r.val; rw [e0, hr]; omega
  | ⟨1, _⟩ => show win1_0.index t (1 : Fin 2) * 2048 + 1 * k.val = k.val; rw [e1]; omega

/-- WHAT POINT `t` WRITES BACK is block `t` of the specification of the arrays as the region finds them. -/
theorem flushed_eq (c : Dev nD) (t : Fin cfg1.N) :
    (dat1 V c).flushed 9 t = ((cfg1.win 9).blk t).view.read (Elt Ideal)
      (Spec.headArr (V c main_call0_v5) (V c main_call0_v21) (V c main_call0_v23) (V c main_call0_v24) (V c main_call0_v25)
          (V c main_call0_v27) (V c main_call0_v28) (V c main_call0_v30) (V c main_call0_v31)) := by
  show (cfg1.win 9).cut (grid1.coords t) ((dat1 V c).after 9 t) = _
  rw [after1_9, iblk_w1 V c t, iblk_w2 V c t, iblk_w3 V c t, iblk_w4 V c t, iblk_w5 V c t, iblk_w6 V c t, iblk_w7 V c t, iblk_w8 V c t]
  unfold out1_9
  rw [View.canon_unit_zero hz1]
  simp only [View.ld_unit_zero (S := S256x2048) hz2, View.ld_unit_zero (S := S2048x3072) hz2, View.ld_unit_zero (S := S1x3072) hz2,
    View.ld_unit_zero (S := S2048x64) hz2, View.ld_unit_zero (S := S1x64) hz2, View.ld_unit_zero (S := S64x1) hz2,
    View.ld_unit_zero (S := S1x1) hz2]
  have e9 := idx_w9 t
  have ht : t.val < 32 := lt_of_lt_of_eq t.isLt N_1
  funext j
  have hj : (j 0).val < 256 := (j 0).isLt
  show k1_pay1 (F := Ideal) (k1_pay2 (iblk1 V c 0 t) (V c main_call0_v21) (V c main_call0_v24) (V c main_call0_v23) (V c main_call0_v25) (V c main_call0_v27))
      (k1_pay3 (V c main_call0_v28)) (V c main_call0_v30) (V c main_call0_v31) j
    = Spec.headArr (V c main_call0_v5) (V c main_call0_v21) (V c main_call0_v23) (V c main_call0_v24) (V c main_call0_v25)
          (V c main_call0_v27) (V c main_call0_v28) (V c main_call0_v30) (V c main_call0_v31) (((cfg1.win 9).blk t).view.emb j)
  refine body_at_row (V c main_call0_v5) (iblk1 V c 0 t) (V c main_call0_v21) (V c main_call0_v23) (V c main_call0_v24) (V c main_call0_v25)
    (V c main_call0_v27) (V c main_call0_v28) (V c main_call0_v30) (V c main_call0_v31) j (((cfg1.win 9).blk t).view.emb j)
    ⟨(j 0).val, hj⟩ ⟨t.val * 256 + (j 0).val, by omega⟩ ?_ ?_ (fun k => iblk_w0_apply V c t _ k _ rfl)
  · funext d
    match d with
    | ⟨0, _⟩ => rfl
  · funext d
    apply Fin.ext
    match d with
    | ⟨0, _⟩ => show win1_9.index t (0 : Fin 1) * 256 + 1 * (j 0).val = t.val * 256 + (j 0).val; rw [e9]; omega

/-- An index of the result is in point `t`'s block iff it is one of rows `256 t … 256 t + 255`. -/
theorem mem_blk (t : Fin cfg1.N) (i : S8192.Idx) :
    i ∈ ((cfg1.win 9).blk t).view.set ↔ ∀ a : Fin 1, win1_9.index t a * S256.size a ≤ (i a).val ∧ (i a).val < win1_9.index t a * S256.size a + S256.size a := by
  show i ∈ ((View.whole main_v0).slice (win1_9.rect t)).set ↔ _
  rw [View.set_slice_whole, Rect.mem_set_unit]
  exact Iff.rfl

/-- Row `r` of the result is written back by point `r / 256`. -/
theorem cover (i : S8192.Idx) : ∃ t : Fin cfg1.N, (cfg1.win 9).flush t = true ∧ i ∈ ((cfg1.win 9).blk t).view.set := by
  have hi0 : (i 0).val < 8192 := (i 0).isLt
  have hN : cfg1.N = 32 := N_1
  refine ⟨⟨(i 0).val / 256, by rw [hN]; omega⟩, flush1_9 _, ?_⟩
  rw [mem_blk]
  intro a
  match a with
  | ⟨0, _⟩ =>
    show win1_9.index ⟨(i 0).val / 256, _⟩ (0 : Fin 1) * 256 ≤ (i 0).val ∧ (i 0).val < win1_9.index ⟨(i 0).val / 256, _⟩ (0 : Fin 1) * 256 + 256
    rw [idx_w9]
    show (i 0).val / 256 * 256 ≤ (i 0).val ∧ (i 0).val < (i 0).val / 256 * 256 + 256
    omega

/-- The second region's output array after its 32 points, as a function of its nine input arrays at entry. -/
theorem value (c : Dev nD) :
    (dat1 V c).arrAt 9 cfg1.N
      = Spec.headArr (V c main_call0_v5) (V c main_call0_v21) (V c main_call0_v23) (V c main_call0_v24) (V c main_call0_v25)
          (V c main_call0_v27) (V c main_call0_v28) (V c main_call0_v30) (V c main_call0_v31) :=
  (dat1 V c).arrAt_eq_of_cover 9
    (Spec.headArr (V c main_call0_v5) (V c main_call0_v21) (V c main_call0_v23) (V c main_call0_v24) (V c main_call0_v25)
          (V c main_call0_v27) (V c main_call0_v28) (V c main_call0_v30) (V c main_call0_v31))
    (fun t _ => flushed_eq V c t) cover

end Cert.KernelIdeal.HeadRegion

end
-- ==== Proof.KernelGlue.lean ====
/-
  Between the launch memory and the two regions: what each window's array holds when its region is entered, as a
  term of the ARGUMENT arrays, and from that the result array as one function of the arguments.

  The host operations before the first region reshape the two affine vectors and the gate's bias into one-row
  matrices and transpose the gate's weight; those before the second region drop the forget gate's block of rows
  from each recurrent weight (rows 1024–2047 of 4096) and transpose what is left, add each direction's two bias
  vectors and drop the same block, transpose the head's two weights and reshape its biases. Read at an index:
  column `q` of a three-block weight is row `q` of the four-block one for `q < 1024` and row `q + 1024` otherwise.
  The second region's batch window reads the array the first region wrote, which no host operation between them touches.
-/
import proofs.«408149_j91268055040200_3_alg».proof.Proof.Gen.KernelIdeal.Frame
import proofs.«408149_j91268055040200_3_alg».proof.Proof.GateRegion
import proofs.«408149_j91268055040200_3_alg».proof.Proof.HeadRegion
import proofs.«408149_j91268055040200_3_alg».proof.Proof.Arrays
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Glue

open Cert.KernelIdeal Cert.KernelIdeal.Gen Idealize.ShloMosaic Idealize.ShloMosaic.TcCoe Idealize.ShloMosaic.ValueIdx
open Idealize.SL.Sem Idealize.ShloMosaic.StableHlo

/-! ## The layout transforms as array functions, read at an index -/

/-- A recurrent weight as the second region receives it: the forget gate's rows dropped, then transposed. -/
def dropT (W : FVec Ideal S4096x2048 .f32) : FVec Ideal S2048x3072 .bf16 :=
  truncf .bf16 (transpose S2048x3072 [1, 0]
    (concatenate S3072x2048 0 [⟨S1024x2048, extractStridedSlice S1024x2048 ![0, 0] W slices_S4096x2048_S1024x2048_0_0⟩,
      ⟨S2048x2048, extractStridedSlice S2048x2048 ![2048, 0] W slices_S4096x2048_S2048x2048_2048_0⟩]
      concatenates_S1024x2048_S2048x2048_S3072x2048_d0)
    transposes_S3072x2048_S2048x3072_1_0) bitsLt_bf16_f32

/-- Below the dropped block a column is the same-numbered row. -/
theorem dropT_lo (W : FVec Ideal S4096x2048 .f32) (k : Fin 2048) (q : Fin 3072) (h : q.val < 1024) :
    dropT W (ix2 k q) = W (ix2 ⟨q.val, by omega⟩ k) := by
  unfold dropT
  rw [truncf_apply, transpose_ix2_apply]
  rw [concatenate_pair_apply_left (t := S3072x2048) (s₁ := S1024x2048) (s₂ := S2048x2048) (0 : Fin 2) _ _
    concatenates_S1024x2048_S2048x2048_S3072x2048_d0 (ix2 q k) rfl
    (ix2 (⟨q.val, h⟩ : Fin 1024) k) (fun b => by match b with | ⟨0, _⟩ => rfl | ⟨1, _⟩ => rfl)]
  exact slice2_axis0_apply 0 W slices_S4096x2048_S1024x2048_0_0 ⟨q.val, h⟩ k ⟨q.val, by omega⟩ (by simp)

/-- Past it a column is the row 1024 further on. -/
theorem dropT_hi (W : FVec Ideal S4096x2048 .f32) (k : Fin 2048) (q : Fin 3072) (h : 1024 ≤ q.val) :
    dropT W (ix2 k q) = W (ix2 ⟨q.val + 1024, by omega⟩ k) := by
  unfold dropT
  rw [truncf_apply, transpose_ix2_apply]
  rw [concatenate_pair_apply_right (t := S3072x2048) (s₁ := S1024x2048) (s₂ := S2048x2048) (0 : Fin 2) _ _
    concatenates_S1024x2048_S2048x2048_S3072x2048_d0 (ix2 q k) rfl rfl
    (ix2 (⟨q.val - 1024, by omega⟩ : Fin 2048) k)
    (fun b hb => by match b with | ⟨0, _⟩ => exact absurd rfl hb | ⟨1, _⟩ => rfl)
    (by show q.val - 1024 + 1024 = q.val; omega)]
  exact slice2_axis0_apply 2048 W slices_S4096x2048_S2048x2048_2048_0 ⟨q.val - 1024, by omega⟩ k ⟨q.val + 1024, by omega⟩
    (by show q.val + 1024 = 2048 + (q.val - 1024); omega)

/-- A direction's bias row as the second region receives it: the two vectors added, the forget gate's block dropped. -/
def dropB (bi bh : FVec Ideal S4096 .f32) : FVec Ideal S1x3072 .f32 :=
  shapeCast S1x3072
    (concatenate S3072 0 [⟨S1024, extractStridedSlice S1024 ![0] (addf bi bh) slices_S4096_S1024_0⟩,
      ⟨S2048, extractStridedSlice S2048 ![2048] (addf bi bh) slices_S4096_S2048_2048⟩] concatenates_S1024_S2048_S3072_d0)
    shapeCasts_S3072_S1x3072

theorem dropB_lo (bi bh : FVec Ideal S4096 .f32) (q : Fin 3072) (h : q.val < 1024) :
    dropB bi bh (ix2 0 q) = bi (ix1 ⟨q.val, by omega⟩) + bh (ix1 ⟨q.val, by omega⟩) := by
  unfold dropB
  rw [shapeCast_a_1a_apply]
  rw [concatenate_pair_apply_left (t := S3072) (s₁ := S1024) (s₂ := S2048) (0 : Fin 1) _ _ concatenates_S1024_S2048_S3072_d0 (ix1 q) rfl
    (ix1 (⟨q.val, h⟩ : Fin 1024)) (fun b => by match b with | ⟨0, _⟩ => rfl)]
  rw [extractStridedSlice_apply ![0] (addf bi bh) slices_S4096_S1024_0 (ix1 (⟨q.val, h⟩ : Fin 1024)) (ix1 ⟨q.val, by omega⟩)
    (fun a => by match a with | ⟨0, _⟩ => simp)]
  rfl

theorem dropB_hi (bi bh : FVec Ideal S4096 .f32) (q : Fin 3072) (h : 1024 ≤ q.val) :
    dropB bi bh (ix2 0 q) = bi (ix1 ⟨q.val + 1024, by omega⟩) + bh (ix1 ⟨q.val + 1024, by omega⟩) := by
  unfold dropB
  rw [shapeCast_a_1a_apply]
  rw [concatenate_pair_apply_right (t := S3072) (s₁ := S1024) (s₂ := S2048) (0 : Fin 1) _ _ concatenates_S1024_S2048_S3072_d0 (ix1 q) rfl rfl
    (ix1 (⟨q.val - 1024, by omega⟩ : Fin 2048))
    (fun b hb => by match b with | ⟨0, _⟩ => exact absurd rfl hb)
    (by show q.val - 1024 + 1024 = q.val; omega)]
  rw [extractStridedSlice_apply ![2048] (addf bi bh) slices_S4096_S2048_2048 (ix1 (⟨q.val - 1024, by omega⟩ : Fin 2048))
    (ix1 ⟨q.val + 1024, by omega⟩) (fun a => by match a with | ⟨0, _⟩ => show q.val + 1024 = 2048 + (q.val - 1024); omega)]
  rfl

/-! ## The windows' arrays at each region's entry, as terms of the launch memory -/

variable (m : (ℓ : Loc nD τ sig) → Buf (Elt Ideal) ℓ) (ρ : Dev nD → PrngReg)

/-- The argument arrays the result depends on, as launched. -/
def argsOf (c : Dev nD) : Spec.Args where
  x := m ((c : Thread nD τ).loc main_arg0)
  lng := m ((c : Thread nD τ).loc main_arg1)
  lnb := m ((c : Thread nD τ).loc main_arg2)
  Wg := m ((c : Thread nD τ).loc main_arg3)
  bg := m ((c : Thread nD τ).loc main_arg4)
  Wf := m ((c : Thread nD τ).loc main_arg5)
  biF := m ((c : Thread nD τ).loc main_arg7)
  bhF := m ((c : Thread nD τ).loc main_arg8)
  Wb := m ((c : Thread nD τ).loc main_arg9)
  biB := m ((c : Thread nD τ).loc main_arg11)
  bhB := m ((c : Thread nD τ).loc main_arg12)
  W1 := m ((c : Thread nD τ).loc main_arg13)
  b1 := m ((c : Thread nD τ).loc main_arg14)
  W2 := m ((c : Thread nD τ).loc main_arg15)
  b2 := m ((c : Thread nD τ).loc main_arg16)

/-! ### Before the first region -/

theorem V1_x (c : Dev nD) : V1 m ρ c main_arg0 = m ((c : Thread nD τ).loc main_arg0) := by
  show StableHlo.after hostOps0 (W0 m ρ c) (Proc.devRef .tc main_arg0) = _
  after_results

theorem V1_g (c : Dev nD) : (V1 m ρ c main_call0_v0 : S1x2048.Idx → EReal) = shapeCast S1x2048 (m ((c : Thread nD τ).loc main_arg1)) shapeCasts_S2048_S1x2048 := by
  show StableHlo.after hostOps0 (W0 m ρ c) (Proc.devRef .tc main_call0_v0) = _
  after_results
  rfl

theorem V1_b (c : Dev nD) : (V1 m ρ c main_call0_v1 : S1x2048.Idx → EReal) = shapeCast S1x2048 (m ((c : Thread nD τ).loc main_arg2)) shapeCasts_S2048_S1x2048 := by
  show StableHlo.after hostOps0 (W0 m ρ c) (Proc.devRef .tc main_call0_v1) = _
  after_results
  rfl

theorem V1_c (c : Dev nD) : (V1 m ρ c main_call0_v2 : S1x2048.Idx → EReal) = shapeCast S1x2048 (m ((c : Thread nD τ).loc main_arg4)) shapeCasts_S2048_S1x2048 := by
  show StableHlo.after hostOps0 (W0 m ρ c) (Proc.devRef .tc main_call0_v2) = _
  after_results
  rfl

theorem V1_w (c : Dev nD) : (V1 m ρ c main_call0_v4 : S2048x2048.Idx → EReal)
    = (truncf .bf16 (transpose S2048x2048 [1, 0] (m ((c : Thread nD τ).loc main_arg3) : FVec Ideal S2048x2048 .f32) transposes_S2048x2048_S2048x2048_1_0) bitsLt_bf16_f32 : FVec Ideal S2048x2048 .bf16) := by
  show StableHlo.after hostOps0 (W0 m ρ c) (Proc.devRef .tc main_call0_v4) = _
  after_results
  rfl

/-! ### Between the regions: an argument no window of the first region reads and no host operation writes is as launched -/

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)

theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)

theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results)

theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results)

theorem W2_arg14 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results)

theorem W2_arg15 (c : Dev nD) : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results)

theorem W2_arg16 (c : Dev nD) : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = _
    after_results)

/-- The first region's output array is not written between the regions. -/
theorem W3_xg (c : Dev nD) : W3 m ρ c (Proc.devRef .tc main_call0_v5) = W2 m ρ c (Proc.devRef .tc main_call0_v5) :=
  StableHlo.after_of_forall_not_mem (b := Proc.devRef .tc main_call0_v5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second region's batch window reads what the first region left: the gated batch of the arguments. -/
theorem V3_xg (c : Dev nD) : (V3 m ρ c main_call0_v5 : S8192x2048.Idx → EReal)
    = Spec.gateArr (V1 m ρ c main_arg0) (V1 m ρ c main_call0_v0) (V1 m ρ c main_call0_v1) (V1 m ρ c main_call0_v4) (V1 m ρ c main_call0_v2) :=
  ((W3_xg m ρ c).trans (W2_arr m ρ c 5)).trans (GateRegion.value (V1 m ρ) c)

/-! ### The second host stretch, over ANY contents `W` it starts from -/

section Stretch1
variable (W : Valuation τ sig (Elt Ideal))

theorem s1_wf : (StableHlo.after hostOps1 W (Proc.devRef .tc main_call0_v21) : S2048x3072.Idx → EReal) = dropT (W (Proc.devRef .tc main_arg5)) := by
  after_results
  rfl
theorem s1_wb : (StableHlo.after hostOps1 W (Proc.devRef .tc main_call0_v23) : S2048x3072.Idx → EReal) = dropT (W (Proc.devRef .tc main_arg9)) := by
  after_results
  rfl
theorem s1_cf : (StableHlo.after hostOps1 W (Proc.devRef .tc main_call0_v24) : S1x3072.Idx → EReal) = dropB (W (Proc.devRef .tc main_arg7)) (W (Proc.devRef .tc main_arg8)) := by
  after_results
  rfl
theorem s1_cb : (StableHlo.after hostOps1 W (Proc.devRef .tc main_call0_v25) : S1x3072.Idx → EReal) = dropB (W (Proc.devRef .tc main_arg11)) (W (Proc.devRef .tc main_arg12)) := by
  after_results
  rfl
theorem s1_w1 : (StableHlo.after hostOps1 W (Proc.devRef .tc main_call0_v27) : S2048x64.Idx → EReal)
    = (truncf .bf16 (transpose S2048x64 [1, 0] (W (Proc.devRef .tc main_arg13) : FVec Ideal S64x2048 .f32) transposes_S64x2048_S2048x64_1_0) bitsLt_bf16_f32 : FVec Ideal S2048x64 .bf16) := by
  after_results
  rfl
theorem s1_c1 : (StableHlo.after hostOps1 W (Proc.devRef .tc main_call0_v28) : S1x64.Idx → EReal) = shapeCast S1x64 (W (Proc.devRef .tc main_arg14)) shapeCasts_S64_S1x64 := by
  after_results
  rfl
theorem s1_w2 : (StableHlo.after hostOps1 W (Proc.devRef .tc main_call0_v30) : S64x1.Idx → EReal)
    = (truncf .bf16 (transpose S64x1 [1, 0] (W (Proc.devRef .tc main_arg15) : FVec Ideal S1x64 .f32) transposes_S1x64_S64x1_1_0) bitsLt_bf16_f32 : FVec Ideal S64x1 .bf16) := by
  after_results
  rfl
theorem s1_c2 : (StableHlo.after hostOps1 W (Proc.devRef .tc main_call0_v31) : S1x1.Idx → EReal) = shapeCast S1x1 (W (Proc.devRef .tc main_arg16)) shapeCasts_S1_S1x1 := by
  after_results
  rfl

end Stretch1

theorem V3_wf (c : Dev nD) : (V3 m ρ c main_call0_v21 : S2048x3072.Idx → EReal) = dropT (m ((c : Thread nD τ).loc main_arg5)) :=
  (s1_wf (W2 m ρ c)).trans (by rw [W2_arg5])
theorem V3_wb (c : Dev nD) : (V3 m ρ c main_call0_v23 : S2048x3072.Idx → EReal) = dropT (m ((c : Thread nD τ).loc main_arg9)) :=
  (s1_wb (W2 m ρ c)).trans (by rw [W2_arg9])
theorem V3_cf (c : Dev nD) : (V3 m ρ c main_call0_v24 : S1x3072.Idx → EReal) = dropB (m ((c : Thread nD τ).loc main_arg7)) (m ((c : Thread nD τ).loc main_arg8)) :=
  (s1_cf (W2 m ρ c)).trans (by rw [W2_arg7, W2_arg8])
theorem V3_cb (c : Dev nD) : (V3 m ρ c main_call0_v25 : S1x3072.Idx → EReal) = dropB (m ((c : Thread nD τ).loc main_arg11)) (m ((c : Thread nD τ).loc main_arg12)) :=
  (s1_cb (W2 m ρ c)).trans (by rw [W2_arg11, W2_arg12])
theorem V3_w1 (c : Dev nD) : (V3 m ρ c main_call0_v27 : S2048x64.Idx → EReal)
    = (truncf .bf16 (transpose S2048x64 [1, 0] (m ((c : Thread nD τ).loc main_arg13) : FVec Ideal S64x2048 .f32) transposes_S64x2048_S2048x64_1_0) bitsLt_bf16_f32 : FVec Ideal S2048x64 .bf16) :=
  (s1_w1 (W2 m ρ c)).trans (by rw [W2_arg13])
theorem V3_c1 (c : Dev nD) : (V3 m ρ c main_call0_v28 : S1x64.Idx → EReal) = shapeCast S1x64 (m ((c : Thread nD τ).loc main_arg14)) shapeCasts_S64_S1x64 :=
  (s1_c1 (W2 m ρ c)).trans (by rw [W2_arg14])
theorem V3_w2 (c : Dev nD) : (V3 m ρ c main_call0_v30 : S64x1.Idx → EReal)
    = (truncf .bf16 (transpose S64x1 [1, 0] (m ((c : Thread nD τ).loc main_arg15) : FVec Ideal S1x64 .f32) transposes_S1x64_S64x1_1_0) bitsLt_bf16_f32 : FVec Ideal S64x1 .bf16) :=
  (s1_w2 (W2 m ρ c)).trans (by rw [W2_arg15])
theorem V3_c2 (c : Dev nD) : (V3 m ρ c main_call0_v31 : S1x1.Idx → EReal) = shapeCast S1x1 (m ((c : Thread nD τ).loc main_arg16)) shapeCasts_S1_S1x1 :=
  (s1_c2 (W2 m ρ c)).trans (by rw [W2_arg16])

/-! ## The result as one function of the arguments -/

/-- The three-block weight's blocks are the four-block weight's input, candidate and output blocks. -/
theorem wBlock_dropT_i (W : FVec Ideal S4096x2048 .f32) :
    Spec.wBlock 0 (by omega) (dropT W) = Spec.gBlock 0 (by omega) W := by
  funext k p
  unfold Spec.wBlock Spec.gBlock
  have hp := p.isLt
  rw [dropT_lo W k _ (by show 0 + p.val < 1024; omega)]
theorem wBlock_dropT_g (W : FVec Ideal S4096x2048 .f32) :
    Spec.wBlock 1024 (by omega) (dropT W) = Spec.gBlock 2048 (by omega) W := by
  funext k p
  unfold Spec.wBlock Spec.gBlock
  have hp := p.isLt
  rw [dropT_hi W k _ (by show 1024 ≤ 1024 + p.val; omega)]
  exact congrArg (fun i => W (ix2 i k)) (Fin.ext (by show 1024 + p.val + 1024 = 2048 + p.val; omega))
theorem wBlock_dropT_o (W : FVec Ideal S4096x2048 .f32) :
    Spec.wBlock 2048 (by omega) (dropT W) = Spec.gBlock 3072 (by omega) W := by
  funext k p
  unfold Spec.wBlock Spec.gBlock
  have hp := p.isLt
  rw [dropT_hi W k _ (by show 1024 ≤ 2048 + p.val; omega)]
  exact congrArg (fun i => W (ix2 i k)) (Fin.ext (by show 2048 + p.val + 1024 = 3072 + p.val; omega))

theorem cBlock_dropB_i (bi bh : FVec Ideal S4096 .f32) :
    Spec.cBlock 0 (by omega) (dropB bi bh) = Spec.gBias 0 (by omega) bi bh := by
  funext p
  unfold Spec.cBlock Spec.gBias
  have hp := p.isLt
  rw [dropB_lo bi bh _ (by show 0 + p.val < 1024; omega)]
theorem cBlock_dropB_g (bi bh : FVec Ideal S4096 .f32) :
    Spec.cBlock 1024 (by omega) (dropB bi bh) = Spec.gBias 2048 (by omega) bi bh := by
  funext p
  unfold Spec.cBlock Spec.gBias
  have hp := p.isLt
  rw [dropB_hi bi bh _ (by show 1024 ≤ 1024 + p.val; omega)]
  have e : (⟨1024 + p.val + 1024, by omega⟩ : Fin 4096) = ⟨2048 + p.val, by omega⟩ := Fin.ext (by show 1024 + p.val + 1024 = 2048 + p.val; omega)
  exact congrArg (fun i => bi (ix1 i) + bh (ix1 i)) e
theorem cBlock_dropB_o (bi bh : FVec Ideal S4096 .f32) :
    Spec.cBlock 2048 (by omega) (dropB bi bh) = Spec.gBias 3072 (by omega) bi bh := by
  funext p
  unfold Spec.cBlock Spec.gBias
  have hp := p.isLt
  rw [dropB_hi bi bh _ (by show 1024 ≤ 2048 + p.val; omega)]
  have e : (⟨2048 + p.val + 1024, by omega⟩ : Fin 4096) = ⟨3072 + p.val, by omega⟩ := Fin.ext (by show 2048 + p.val + 1024 = 3072 + p.val; omega)
  exact congrArg (fun i => bi (ix1 i) + bh (ix1 i)) e

/-- One direction's hidden values, in the region's layout and in the arguments' layout. -/
theorem hiddenArr_drop (xg : Spec.Mat 8192 2048) (W : FVec Ideal S4096x2048 .f32) (bi bh : FVec Ideal S4096 .f32) :
    Spec.hiddenArr xg (dropT W) (dropB bi bh) = Spec.Args.hid (Spec.rows xg) W bi bh := by
  funext r p
  unfold Spec.hiddenArr Spec.Args.hid
  rw [wBlock_dropT_i, wBlock_dropT_g, wBlock_dropT_o, cBlock_dropB_i, cBlock_dropB_g, cBlock_dropB_o]

/-- The first region's output, row by row, is the gated batch of the arguments (variance by moments). -/
theorem rows_gated (c : Dev nD) :
    Spec.rows (Spec.gateArr (V1 m ρ c main_arg0) (V1 m ρ c main_call0_v0) (V1 m ρ c main_call0_v1) (V1 m ρ c main_call0_v4) (V1 m ρ c main_call0_v2))
      = (argsOf m c).gated Spec.varMoments := by
  funext r j
  show Spec.gateArr _ _ _ _ _ (ix2 r j) = _
  rw [Spec.gateArr_apply, V1_x, V1_g, V1_b, V1_w, V1_c]
  unfold Spec.Args.gated
  have hg : Spec.row0 (shapeCast S1x2048 (m ((c : Thread nD τ).loc main_arg1)) shapeCasts_S2048_S1x2048) = fun k => (argsOf m c).lng (ix1 k) :=
    funext fun k => shapeCast_a_1a_apply _ _ 0 k
  have hb : Spec.row0 (shapeCast S1x2048 (m ((c : Thread nD τ).loc main_arg2)) shapeCasts_S2048_S1x2048) = fun k => (argsOf m c).lnb (ix1 k) :=
    funext fun k => shapeCast_a_1a_apply _ _ 0 k
  have hc : Spec.row0 (shapeCast S1x2048 (m ((c : Thread nD τ).loc main_arg4)) shapeCasts_S2048_S1x2048) = fun k => (argsOf m c).bg (ix1 k) :=
    funext fun k => shapeCast_a_1a_apply _ _ 0 k
  have hw : Spec.rows (truncf .bf16 (transpose S2048x2048 [1, 0] (m ((c : Thread nD τ).loc main_arg3) : FVec Ideal S2048x2048 .f32) transposes_S2048x2048_S2048x2048_1_0) bitsLt_bf16_f32 : FVec Ideal S2048x2048 .bf16)
      = fun k j => (argsOf m c).Wg (ix2 j k) :=
    funext fun k => funext fun j => transpose_ix2_apply _ _ k j
  rw [hg, hb, hc, hw]
  rfl

/-- THE KERNEL PROGRAM'S RESULT at a row: the specification's result of the arguments, the variance by moments. -/
theorem kernel_result (c : Dev nD) (r : Fin 8192) :
    (W4 m ρ c (Proc.devRef .tc main_v0) : S8192.Idx → EReal) (ix1 r) = (argsOf m c).result Spec.varMoments r := by
  have h4 : (W4 m ρ c (Proc.devRef .tc main_v0) : S8192.Idx → EReal) = (dat1 (V3 m ρ) c).arrAt 9 cfg1.N := W4_arr m ρ c 9
  rw [h4, HeadRegion.value (V3 m ρ) c, Spec.headArr_apply, V3_xg, V3_wf, V3_wb, V3_cf, V3_cb, V3_w1, V3_c1, V3_w2, V3_c2,
    hiddenArr_drop, hiddenArr_drop, rows_gated]
  unfold Spec.Args.result
  have h1 : Spec.rows (truncf .bf16 (transpose S2048x64 [1, 0] (m ((c : Thread nD τ).loc main_arg13) : FVec Ideal S64x2048 .f32) transposes_S64x2048_S2048x64_1_0) bitsLt_bf16_f32 : FVec Ideal S2048x64 .bf16)
      = fun u s => (argsOf m c).W1 (ix2 s u) :=
    funext fun u => funext fun s => transpose_ix2_apply _ _ u s
  have h2 : Spec.row0 (shapeCast S1x64 (m ((c : Thread nD τ).loc main_arg14)) shapeCasts_S64_S1x64) = fun s => (argsOf m c).b1 (ix1 s) :=
    funext fun s => shapeCast_a_1a_apply _ _ 0 s
  have h3 : (fun s : Fin 64 => (truncf .bf16 (transpose S64x1 [1, 0] (m ((c : Thread nD τ).loc main_arg15) : FVec Ideal S1x64 .f32) transposes_S1x64_S64x1_1_0) bitsLt_bf16_f32 : FVec Ideal S64x1 .bf16) (ix2 s 0))
      = fun s => (argsOf m c).W2 (ix2 0 s) :=
    funext fun s => transpose_ix2_apply _ _ s 0
  have h5 : (shapeCast S1x1 (m ((c : Thread nD τ).loc main_arg16)) shapeCasts_S1_S1x1 : S1x1.Idx → EReal) (ix2 0 0) = (argsOf m c).b2 (ix1 0) :=
    shapeCast_a_1a_apply _ _ 0 0
  rw [h1, h2, h3, h5]
  rfl

end Cert.KernelIdeal.Glue

end
-- ==== Proof.RefStages.lean ====
/-
  The reference program's result as a composition of named array-level stages, each the program's own host
  operations applied in order (generic in the float instance): the row mean; the row variance as jnp computes it
  (centred squares over the row length less a zero degrees-of-freedom correction, guarded by "that divisor is
  positive"); the gated batch; one direction's hidden values from a four-block weight; the head.
-/
import proofs.«408149_j91268055040200_3_alg».proof.Proof.Gen.ReferenceIdeal

noncomputable section

namespace Cert.ReferenceIdeal.Stages

open Cert.ReferenceIdeal Idealize.ShloMosaic Idealize.ShloMosaic.TcCoe

variable {F : FTy → Type} [FloatOps F] [Facts]
open Facts₀ Facts

/-- The constant one, spread over a shape. -/
abbrev zeroS : FVec F S_ .f32 := constant S_ .f32 0x00000000#32
abbrev nS : FVec F S_ .f32 := constant S_ .f32 0x45000000#32
abbrev oneS : FVec F S_ .f32 := constant S_ .f32 0x3F800000#32

/-- Each row's mean, as a column. -/
def mean (x : FVec F S8192x2048 .f32) : FVec F S8192x1 .f32 :=
  Host.divf (broadcastInDim S8192x1 ![0] bcast_S8192_S8192x1_0 (Host.reduceAdd x zeroS reducesTo_S8192x2048_S8192_d1 h_S_))
    (broadcastInDim S8192x1 ![] bcast_S_S8192x1 nS)

/-- Each entry less its row's mean. -/
def centred (x : FVec F S8192x2048 .f32) : FVec F S8192x2048 .f32 :=
  subf x (broadcastInDim S8192x2048 ![0, 1] bcast_S8192x1_S8192x2048_0_1 (mean x))

/-- The variance's divisor: the row length less the (zero) correction. -/
def nEff : FVec F S_ .f32 := subf nS (sitofp .f32 (constantI S_ 32 0#32))

/-- Each row's variance, as a column: the centred squares' sum over `nEff` where `nEff > 0`, the not-a-number pattern otherwise. -/
def var (x : FVec F S8192x2048 .f32) : FVec F S8192x1 .f32 :=
  select (broadcastInDim S8192x1 ![] bcast_S_S8192x1 (cmpf .ogt (nEff (F := F)) zeroS))
    (Host.divf (broadcastInDim S8192x1 ![0] bcast_S8192_S8192x1_0
        (Host.reduceAdd (mulf (centred x) (centred x)) zeroS reducesTo_S8192x2048_S8192_d1 h_S_))
      (broadcastInDim S8192x1 ![] bcast_S_S8192x1 (nEff (F := F))))
    (broadcastInDim S8192x1 ![] bcast_S_S8192x1 (id (constant S_ .f32 0x7FC00000#32)))

/-- A vector of 2048 entries copied down 8192 rows. -/
def downRows (v : FVec F S2048 .f32) : FVec F S8192x2048 .f32 :=
  broadcastInDim S8192x2048 ![0, 1] bcast_S1x2048_S8192x2048_0_1 (broadcastInDim S1x2048 ![1] bcast_S2048_S1x2048_1 v)

/-- The normalised batch. -/
def normed (x : FVec F S8192x2048 .f32) (g b : FVec F S2048 .f32) : FVec F S8192x2048 .f32 :=
  addf (mulf (mulf (centred x)
      (broadcastInDim S8192x2048 ![0, 1] bcast_S8192x1_S8192x2048_0_1
        (Host.rsqrt (addf (var x) (broadcastInDim S8192x1 ![] bcast_S_S8192x1 (constant S_ .f32 0x3727C5AC#32))))))
    (downRows g)) (downRows b)

/-- The logistic function as the host spells it: `1 / (1 + e^(-z))`. -/
def sigm {s : Shape} (one : FVec F s .f32) (z : FVec F s .f32) : FVec F s .f32 :=
  Host.divf one (addf one (Host.exp (Host.negf z)))

/-- The gated batch. -/
def gated (x : FVec F S8192x2048 .f32) (g b : FVec F S2048 .f32) (Wg : FVec F S2048x2048 .f32) (c : FVec F S2048 .f32) :
    FVec F S8192x2048 .f32 :=
  mulf x (sigm (broadcastInDim S8192x2048 ![] bcast_S_S8192x2048 oneS)
    (addf (Host.dotGeneral dot_S8192x2048_S2048x2048_S8192x2048_1_0_0_1_n_n none (normed x g b)
        (transpose S2048x2048 [1, 0] Wg transposes_S2048x2048_S2048x2048_1_0))
      (downRows c)))

/-- The four gates' pre-activations of one direction, side by side. -/
def gates (xg : FVec F S8192x2048 .f32) (W : FVec F S4096x2048 .f32) (bi bh : FVec F S4096 .f32) : FVec F S8192x4096 .f32 :=
  addf (Host.dotGeneral dot_S8192x2048_S2048x4096_S8192x4096_1_0_0_1_n_n none xg
      (transpose S2048x4096 [1, 0] W transposes_S4096x2048_S2048x4096_1_0))
    (broadcastInDim S8192x4096 ![0, 1] bcast_S1x4096_S8192x4096_0_1
      (broadcastInDim S1x4096 ![1] bcast_S4096_S1x4096_1 (addf bi bh)))

abbrev ones1024 : FVec F S8192x1024 .f32 := broadcastInDim S8192x1024 ![] bcast_S_S8192x1024 oneS

/-- One direction's hidden values: `σ(o) · tanh(σ(i) · tanh(g))` of the gates' blocks 0 (input), 2 (candidate), 3 (output). -/
def cell (xg : FVec F S8192x2048 .f32) (W : FVec F S4096x2048 .f32) (bi bh : FVec F S4096 .f32) : FVec F S8192x1024 .f32 :=
  mulf (sigm ones1024 (extractStridedSlice S8192x1024 ![0, 3072] (gates xg W bi bh) slices_S8192x4096_S8192x1024_0_3072))
    (Host.tanh (mulf (sigm ones1024 (extractStridedSlice S8192x1024 ![0, 0] (gates xg W bi bh) slices_S8192x4096_S8192x1024_0_0))
      (Host.tanh (extractStridedSlice S8192x1024 ![0, 2048] (gates xg W bi bh) slices_S8192x4096_S8192x1024_0_2048))))

/-- The head on the two directions' hidden values. -/
def headOf (hf hb : FVec F S8192x1024 .f32) (W1 : FVec F S64x2048 .f32) (b1 : FVec F S64 .f32) (W2 : FVec F S1x64 .f32)
    (b2 : FVec F S1 .f32) : FVec F S8192 .f32 :=
  shapeCast S8192
    (addf (Host.dotGeneral dot_S8192x64_S64x1_S8192x1_1_0_0_1_n_n none
        (maximumf
          (addf (Host.dotGeneral dot_S8192x2048_S2048x64_S8192x64_1_0_0_1_n_n none
              (concatenate S8192x2048 1 [⟨S8192x1024, hf⟩, ⟨S8192x1024, hb⟩] concatenates_S8192x1024_S8192x1024_S8192x2048_d1)
              (transpose S2048x64 [1, 0] W1 transposes_S64x2048_S2048x64_1_0))
            (broadcastInDim S8192x64 ![0, 1] bcast_S1x64_S8192x64_0_1 (broadcastInDim S1x64 ![1] bcast_S64_S1x64_1 b1)))
          (broadcastInDim S8192x64 ![] bcast_S_S8192x64 zeroS))
        (transpose S64x1 [1, 0] W2 transposes_S1x64_S64x1_1_0))
      (broadcastInDim S8192x1 ![0, 1] bcast_S1x1_S8192x1_0_1 (broadcastInDim S1x1 ![1] bcast_S1_S1x1_1 b2)))
    shapeCasts_S8192x1_S8192

/-- THE REFERENCE'S RESULT as one function of its argument arrays. -/
def result (x : FVec F S8192x2048 .f32) (g b : FVec F S2048 .f32) (Wg : FVec F S2048x2048 .f32) (c : FVec F S2048 .f32)
    (Wf : FVec F S4096x2048 .f32) (biF bhF : FVec F S4096 .f32) (Wb : FVec F S4096x2048 .f32) (biB bhB : FVec F S4096 .f32)
    (W1 : FVec F S64x2048 .f32) (b1 : FVec F S64 .f32) (W2 : FVec F S1x64 .f32) (b2 : FVec F S1 .f32) : FVec F S8192 .f32 :=
  headOf (cell (gated x g b Wg c) Wf biF bhF) (cell (gated x g b Wg c) Wb biB bhB) W1 b1 W2 b2

end Cert.ReferenceIdeal.Stages

end
-- ==== Proof.RefRun.lean ====
/-
  The reference program's run, read back: @main is one straight line of host operations (the calls jax outlined —
  the variance, its guard, the rectifier — unfolded where they are called), so every weakly fair execution
  terminates with the result buffer at the stages' composition (`Stages.result`) of the argument arrays as launched,
  and the arguments unchanged.
-/
import proofs.«408149_j91268055040200_3_alg».proof.Proof.RefStages
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Facts₀ Facts

variable {F : FTy → Type} [FloatOps F]

/-- The gated batch's operations (through the product with the batch): the row mean, the variance with its guard, the normalisation, the gate's product, bias and logistic. -/
abbrev opsGate : List (HloOp τ sig (Elt F)) :=
  [
    StableHlo.nullary main_cst (constant S_ .f32 0x00000000#32),
    StableHlo.binary main_arg0 main_cst main_v0 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.unary main_v0 main_v1 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x45000000#32),
    StableHlo.unary main_cst_0 main_v2 (broadcastInDim S8192x1 ![] bcast_S_S8192x1 : (⟨S_, .f32⟩ : BufTy).Contents (Elt F) → (⟨S8192x1, .f32⟩ : BufTy).Contents (Elt F)),
    StableHlo.binary main_v1 main_v2 main_v3 (Host.divf : (⟨S8192x1, .f32⟩ : BufTy).Contents (Elt F) → (⟨S8192x1, .f32⟩ : BufTy).Contents (Elt F) → (⟨S8192x1, .f32⟩ : BufTy).Contents (Elt F)),
    StableHlo.nullary main_c (constantI S_ 32 0#32),
    TRef.nullary main_call0.cst (constant S_ .f32 0x00000000#32),
    TRef.binary (.of main_arg0 : TRef sig ⟨S8192x2048, .f32⟩) main_call0.cst main_call0.v0 (fun x v => Host.reduceAdd x v reducesTo_S8192x2048_S8192_d1 h_S_),
    TRef.unary main_call0.v0 main_call0.v1 (broadcastInDim S8192x1 ![0] bcast_S8192_S8192x1_0),
    TRef.nullary main_call0.cst_0 (constant S_ .f32 0x45000000#32),
    TRef.unary main_call0.cst_0 main_call0.v2 (broadcastInDim S8192x1 ![] bcast_S_S8192x1),
    TRef.binary main_call0.v1 main_call0.v2 main_call0.v3 Host.divf,
    TRef.unary main_call0.v3 main_call0.v4 (broadcastInDim S8192x2048 ![0, 1] bcast_S8192x1_S8192x2048_0_1),
    TRef.binary (.of main_arg0 : TRef sig ⟨S8192x2048, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x45000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x2048_S8192_d1 h_S_),
    TRef.unary main_call0.v9 main_call0.v10 (broadcastInDim S8192x1 ![0] bcast_S8192_S8192x1_0),
    TRef.unary main_call0.v8 main_call0.v11 (broadcastInDim S8192x1 ![] bcast_S_S8192x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8192x1 ![] bcast_S_S8192x1),
    TRef.ternary main_call0.v13 main_call0.v12 main_call0.call0.v1 main_call0.call0.v2 (fun p a b => select (broadcastInDim S8192x1 ![] bcast_S_S8192x1 p) a b),
    StableHlo.unary main_v3 main_v5 (broadcastInDim S8192x2048 ![0, 1] bcast_S8192x1_S8192x2048_0_1 : (⟨S8192x1, .f32⟩ : BufTy).Contents (Elt F) → (⟨S8192x2048, .f32⟩ : BufTy).Contents (Elt F)),
    StableHlo.binary main_arg0 main_v5 main_v6 (subf : (⟨S8192x2048, .f32⟩ : BufTy).Contents (Elt F) → (⟨S8192x2048, .f32⟩ : BufTy).Contents (Elt F) → (⟨S8192x2048, .f32⟩ : BufTy).Contents (Elt F)),
    StableHlo.nullary main_cst_1 (constant S_ .f32 0x3727C5AC#32),
    StableHlo.unary main_cst_1 main_v7 (broadcastInDim S8192x1 ![] bcast_S_S8192x1 : (⟨S_, .f32⟩ : BufTy).Contents (Elt F) → (⟨S8192x1, .f32⟩ : BufTy).Contents (Elt F)),
    StableHlo.binary main_v4 main_v7 main_v8 (addf : (⟨S8192x1, .f32⟩ : BufTy).Contents (Elt F) → (⟨S8192x1, .f32⟩ : BufTy).Contents (Elt F) → (⟨S8192x1, .f32⟩ : BufTy).Contents (Elt F)),
    StableHlo.unary main_v8 main_v9 (Host.rsqrt : (⟨S8192x1, .f32⟩ : BufTy).Contents (Elt F) → (⟨S8192x1, .f32⟩ : BufTy).Contents (Elt F)),
    StableHlo.unary main_v9 main_v10 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v6 main_v10 main_v11 (mulf : (⟨S8192x2048, .f32⟩ : BufTy).Contents (Elt F) → (⟨S8192x2048, .f32⟩ : BufTy).Contents (Elt F) → (⟨S8192x2048, .f32⟩ : BufTy).Contents (Elt F)),
    StableHlo.unary main_arg1 main_v12 (broadcastInDim S1x2048 ![1] bcast_S2048_S1x2048_1 : (⟨S2048, .f32⟩ : BufTy).Contents (Elt F) → (⟨S1x2048, .f32⟩ : BufTy).Contents (Elt F)),
    StableHlo.unary main_v12 main_v13 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v11 main_v13 main_v14 (mulf : (⟨S8192x2048, .f32⟩ : BufTy).Contents (Elt F) → (⟨S8192x2048, .f32⟩ : BufTy).Contents (Elt F) → (⟨S8192x2048, .f32⟩ : BufTy).Contents (Elt F)),
    StableHlo.unary main_arg2 main_v15 (broadcastInDim S1x2048 ![1] bcast_S2048_S1x2048_1 : (⟨S2048, .f32⟩ : BufTy).Contents (Elt F) → (⟨S1x2048, .f32⟩ : BufTy).Contents (Elt F)),
    StableHlo.unary main_v15 main_v16 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v14 main_v16 main_v17 (addf : (⟨S8192x2048, .f32⟩ : BufTy).Contents (Elt F) → (⟨S8192x2048, .f32⟩ : BufTy).Contents (Elt F) → (⟨S8192x2048, .f32⟩ : BufTy).Contents (Elt F)),
    StableHlo.unary main_arg3 main_v18 ((transpose S2048x2048 [1, 0] · transposes_S2048x2048_S2048x2048_1_0) : (⟨S2048x2048, .f32⟩ : BufTy).Contents (Elt F) → (⟨S2048x2048, .f32⟩ : BufTy).Contents (Elt F)),
    StableHlo.binary main_v17 main_v18 main_v19 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg4 main_v20 (broadcastInDim S1x2048 ![1] bcast_S2048_S1x2048_1 : (⟨S2048, .f32⟩ : BufTy).Contents (Elt F) → (⟨S1x2048, .f32⟩ : BufTy).Contents (Elt F)),
    StableHlo.unary main_v20 main_v21 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v19 main_v21 main_v22 (addf : (⟨S8192x2048, .f32⟩ : BufTy).Contents (Elt F) → (⟨S8192x2048, .f32⟩ : BufTy).Contents (Elt F) → (⟨S8192x2048, .f32⟩ : BufTy).Contents (Elt F)),
    StableHlo.unary main_v22 main_v23 (Host.negf : (⟨S8192x2048, .f32⟩ : BufTy).Contents (Elt F) → (⟨S8192x2048, .f32⟩ : BufTy).Contents (Elt F)),
    StableHlo.unary main_v23 main_v24 (Host.exp : (⟨S8192x2048, .f32⟩ : BufTy).Contents (Elt F) → (⟨S8192x2048, .f32⟩ : BufTy).Contents (Elt F)),
    StableHlo.nullary main_cst_2 (constant S_ .f32 0x3F800000#32),
    StableHlo.unary main_cst_2 main_v25 (broadcastInDim S8192x2048 ![] bcast_S_S8192x2048 : (⟨S_, .f32⟩ : BufTy).Contents (Elt F) → (⟨S8192x2048, .f32⟩ : BufTy).Contents (Elt F)),
    StableHlo.binary main_v25 main_v24 main_v26 (addf : (⟨S8192x2048, .f32⟩ : BufTy).Contents (Elt F) → (⟨S8192x2048, .f32⟩ : BufTy).Contents (Elt F) → (⟨S8192x2048, .f32⟩ : BufTy).Contents (Elt F)),
    StableHlo.nullary main_cst_3 (constant S_ .f32 0x3F800000#32),
    StableHlo.unary main_cst_3 main_v27 (broadcastInDim S8192x2048 ![] bcast_S_S8192x2048 : (⟨S_, .f32⟩ : BufTy).Contents (Elt F) → (⟨S8192x2048, .f32⟩ : BufTy).Contents (Elt F)),
    StableHlo.binary main_v27 main_v26 main_v28 (Host.divf : (⟨S8192x2048, .f32⟩ : BufTy).Contents (Elt F) → (⟨S8192x2048, .f32⟩ : BufTy).Contents (Elt F) → (⟨S8192x2048, .f32⟩ : BufTy).Contents (Elt F)),
    StableHlo.binary main_arg0 main_v28 main_v29 (mulf : (⟨S8192x2048, .f32⟩ : BufTy).Contents (Elt F) → (⟨S8192x2048, .f32⟩ : BufTy).Contents (Elt F) → (⟨S8192x2048, .f32⟩ : BufTy).Contents (Elt F)) ]

/-- The forward direction's operations: its gates' pre-activations, their three blocks, the hidden values. -/
abbrev opsFwd : List (HloOp τ sig (Elt F)) :=
  [
    StableHlo.unary main_arg5 main_v30 ((transpose S2048x4096 [1, 0] · transposes_S4096x2048_S2048x4096_1_0) : (⟨S4096x2048, .f32⟩ : BufTy).Contents (Elt F) → (⟨S2048x4096, .f32⟩ : BufTy).Contents (Elt F)),
    StableHlo.binary main_v29 main_v30 main_v31 ((fun l r => Host.dotGeneral dot_S8192x2048_S2048x4096_S8192x4096_1_0_0_1_n_n none l r) : (⟨S8192x2048, .f32⟩ : BufTy).Contents (Elt F) → (⟨S2048x4096, .f32⟩ : BufTy).Contents (Elt F) → (⟨S8192x4096, .f32⟩ : BufTy).Contents (Elt F)),
    StableHlo.binary main_arg7 main_arg8 main_v32 (addf : (⟨S4096, .f32⟩ : BufTy).Contents (Elt F) → (⟨S4096, .f32⟩ : BufTy).Contents (Elt F) → (⟨S4096, .f32⟩ : BufTy).Contents (Elt F)),
    StableHlo.unary main_v32 main_v33 (broadcastInDim S1x4096 ![1] bcast_S4096_S1x4096_1 : (⟨S4096, .f32⟩ : BufTy).Contents (Elt F) → (⟨S1x4096, .f32⟩ : BufTy).Contents (Elt F)),
    StableHlo.unary main_v33 main_v34 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v31 main_v34 main_v35 (addf : (⟨S8192x4096, .f32⟩ : BufTy).Contents (Elt F) → (⟨S8192x4096, .f32⟩ : BufTy).Contents (Elt F) → (⟨S8192x4096, .f32⟩ : BufTy).Contents (Elt F)),
    StableHlo.unary main_v35 main_v36 ((extractStridedSlice S8192x1024 ![0, 0] · slices_S8192x4096_S8192x1024_0_0) : (⟨S8192x4096, .f32⟩ : BufTy).Contents (Elt F) → (⟨S8192x1024, .f32⟩ : BufTy).Contents (Elt F)),
    StableHlo.unary main_v35 main_v37 ((extractStridedSlice S8192x1024 ![0, 1024] · slices_S8192x4096_S8192x1024_0_1024) : (⟨S8192x4096, .f32⟩ : BufTy).Contents (Elt F) → (⟨S8192x1024, .f32⟩ : BufTy).Contents (Elt F)),
    StableHlo.unary main_v35 main_v38 ((extractStridedSlice S8192x1024 ![0, 2048] · slices_S8192x4096_S8192x1024_0_2048) : (⟨S8192x4096, .f32⟩ : BufTy).Contents (Elt F) → (⟨S8192x1024, .f32⟩ : BufTy).Contents (Elt F)),
    StableHlo.unary main_v35 main_v39 ((extractStridedSlice S8192x1024 ![0, 3072] · slices_S8192x4096_S8192x1024_0_3072) : (⟨S8192x4096, .f32⟩ : BufTy).Contents (Elt F) → (⟨S8192x1024, .f32⟩ : BufTy).Contents (Elt F)),
    StableHlo.unary main_v36 main_v40 (Host.negf : (⟨S8192x1024, .f32⟩ : BufTy).Contents (Elt F) → (⟨S8192x1024, .f32⟩ : BufTy).Contents (Elt F)),
    StableHlo.unary main_v40 main_v41 (Host.exp : (⟨S8192x1024, .f32⟩ : BufTy).Contents (Elt F) → (⟨S8192x1024, .f32⟩ : BufTy).Contents (Elt F)),
    StableHlo.nullary main_cst_4 (constant S_ .f32 0x3F800000#32),
    StableHlo.unary main_cst_4 main_v42 (broadcastInDim S8192x1024 ![] bcast_S_S8192x1024 : (⟨S_, .f32⟩ : BufTy).Contents (Elt F) → (⟨S8192x1024, .f32⟩ : BufTy).Contents (Elt F)),
    StableHlo.binary main_v42 main_v41 main_v43 (addf : (⟨S8192x1024, .f32⟩ : BufTy).Contents (Elt F) → (⟨S8192x1024, .f32⟩ : BufTy).Contents (Elt F) → (⟨S8192x1024, .f32⟩ : BufTy).Contents (Elt F)),
    StableHlo.nullary main_cst_5 (constant S_ .f32 0x3F800000#32),
    StableHlo.unary main_cst_5 main_v44 (broadcastInDim S8192x1024 ![] bcast_S_S8192x1024 : (⟨S_, .f32⟩ : BufTy).Contents (Elt F) → (⟨S8192x1024, .f32⟩ : BufTy).Contents (Elt F)),
    StableHlo.binary main_v44 main_v43 main_v45 (Host.divf : (⟨S8192x1024, .f32⟩ : BufTy).Contents (Elt F) → (⟨S8192x1024, .f32⟩ : BufTy).Contents (Elt F) → (⟨S8192x1024, .f32⟩ : BufTy).Contents (Elt F)),
    StableHlo.unary main_v38 main_v46 (Host.tanh : (⟨S8192x1024, .f32⟩ : BufTy).Contents (Elt F) → (⟨S8192x1024, .f32⟩ : BufTy).Contents (Elt F)),
    StableHlo.binary main_v45 main_v46 main_v47 (mulf : (⟨S8192x1024, .f32⟩ : BufTy).Contents (Elt F) → (⟨S8192x1024, .f32⟩ : BufTy).Contents (Elt F) → (⟨S8192x1024, .f32⟩ : BufTy).Contents (Elt F)),
    StableHlo.unary main_v39 main_v48 (Host.negf : (⟨S8192x1024, .f32⟩ : BufTy).Contents (Elt F) → (⟨S8192x1024, .f32⟩ : BufTy).Contents (Elt F)),
    StableHlo.unary main_v48 main_v49 (Host.exp : (⟨S8192x1024, .f32⟩ : BufTy).Contents (Elt F) → (⟨S8192x1024, .f32⟩ : BufTy).Contents (Elt F)),
    StableHlo.nullary main_cst_6 (constant S_ .f32 0x3F800000#32),
    StableHlo.unary main_cst_6 main_v50 (broadcastInDim S8192x1024 ![] bcast_S_S8192x1024 : (⟨S_, .f32⟩ : BufTy).Contents (Elt F) → (⟨S8192x1024, .f32⟩ : BufTy).Contents (Elt F)),
    StableHlo.binary main_v50 main_v49 main_v51 (addf : (⟨S8192x1024, .f32⟩ : BufTy).Contents (Elt F) → (⟨S8192x1024, .f32⟩ : BufTy).Contents (Elt F) → (⟨S8192x1024, .f32⟩ : BufTy).Contents (Elt F)),
    StableHlo.nullary main_cst_7 (constant S_ .f32 0x3F800000#32),
    StableHlo.unary main_cst_7 main_v52 (broadcastInDim S8192x1024 ![] bcast_S_S8192x1024 : (⟨S_, .f32⟩ : BufTy).Contents (Elt F) → (⟨S8192x1024, .f32⟩ : BufTy).Contents (Elt F)),
    StableHlo.binary main_v52 main_v51 main_v53 (Host.divf : (⟨S8192x1024, .f32⟩ : BufTy).Contents (Elt F) → (⟨S8192x1024, .f32⟩ : BufTy).Contents (Elt F) → (⟨S8192x1024, .f32⟩ : BufTy).Contents (Elt F)),
    StableHlo.unary main_v47 main_v54 (Host.tanh : (⟨S8192x1024, .f32⟩ : BufTy).Contents (Elt F) → (⟨S8192x1024, .f32⟩ : BufTy).Contents (Elt F)),
    StableHlo.binary main_v53 main_v54 main_v55 (mulf : (⟨S8192x1024, .f32⟩ : BufTy).Contents (Elt F) → (⟨S8192x1024, .f32⟩ : BufTy).Contents (Elt F) → (⟨S8192x1024, .f32⟩ : BufTy).Contents (Elt F)) ]

/-- The backward direction's operations, the same over its own weights and biases. -/
abbrev opsBwd : List (HloOp τ sig (Elt F)) :=
  [
    StableHlo.unary main_arg9 main_v56 ((transpose S2048x4096 [1, 0] · transposes_S4096x2048_S2048x4096_1_0) : (⟨S4096x2048, .f32⟩ : BufTy).Contents (Elt F) → (⟨S2048x4096, .f32⟩ : BufTy).Contents (Elt F)),
    StableHlo.binary main_v29 main_v56 main_v57 ((fun l r => Host.dotGeneral dot_S8192x2048_S2048x4096_S8192x4096_1_0_0_1_n_n none l r) : (⟨S8192x2048, .f32⟩ : BufTy).Contents (Elt F) → (⟨S2048x4096, .f32⟩ : BufTy).Contents (Elt F) → (⟨S8192x4096, .f32⟩ : BufTy).Contents (Elt F)),
    StableHlo.binary main_arg11 main_arg12 main_v58 (addf : (⟨S4096, .f32⟩ : BufTy).Contents (Elt F) → (⟨S4096, .f32⟩ : BufTy).Contents (Elt F) → (⟨S4096, .f32⟩ : BufTy).Contents (Elt F)),
    StableHlo.unary main_v58 main_v59 (broadcastInDim S1x4096 ![1] bcast_S4096_S1x4096_1 : (⟨S4096, .f32⟩ : BufTy).Contents (Elt F) → (⟨S1x4096, .f32⟩ : BufTy).Contents (Elt F)),
    StableHlo.unary main_v59 main_v60 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v57 main_v60 main_v61 (addf : (⟨S8192x4096, .f32⟩ : BufTy).Contents (Elt F) → (⟨S8192x4096, .f32⟩ : BufTy).Contents (Elt F) → (⟨S8192x4096, .f32⟩ : BufTy).Contents (Elt F)),
    StableHlo.unary main_v61 main_v62 ((extractStridedSlice S8192x1024 ![0, 0] · slices_S8192x4096_S8192x1024_0_0) : (⟨S8192x4096, .f32⟩ : BufTy).Contents (Elt F) → (⟨S8192x1024, .f32⟩ : BufTy).Contents (Elt F)),
    StableHlo.unary main_v61 main_v63 ((extractStridedSlice S8192x1024 ![0, 1024] · slices_S8192x4096_S8192x1024_0_1024) : (⟨S8192x4096, .f32⟩ : BufTy).Contents (Elt F) → (⟨S8192x1024, .f32⟩ : BufTy).Contents (Elt F)),
    StableHlo.unary main_v61 main_v64 ((extractStridedSlice S8192x1024 ![0, 2048] · slices_S8192x4096_S8192x1024_0_2048) : (⟨S8192x4096, .f32⟩ : BufTy).Contents (Elt F) → (⟨S8192x1024, .f32⟩ : BufTy).Contents (Elt F)),
    StableHlo.unary main_v61 main_v65 ((extractStridedSlice S8192x1024 ![0, 3072] · slices_S8192x4096_S8192x1024_0_3072) : (⟨S8192x4096, .f32⟩ : BufTy).Contents (Elt F) → (⟨S8192x1024, .f32⟩ : BufTy).Contents (Elt F)),
    StableHlo.unary main_v62 main_v66 (Host.negf : (⟨S8192x1024, .f32⟩ : BufTy).Contents (Elt F) → (⟨S8192x1024, .f32⟩ : BufTy).Contents (Elt F)),
    StableHlo.unary main_v66 main_v67 (Host.exp : (⟨S8192x1024, .f32⟩ : BufTy).Contents (Elt F) → (⟨S8192x1024, .f32⟩ : BufTy).Contents (Elt F)),
    StableHlo.nullary main_cst_8 (constant S_ .f32 0x3F800000#32),
    StableHlo.unary main_cst_8 main_v68 (broadcastInDim S8192x1024 ![] bcast_S_S8192x1024 : (⟨S_, .f32⟩ : BufTy).Contents (Elt F) → (⟨S8192x1024, .f32⟩ : BufTy).Contents (Elt F)),
    StableHlo.binary main_v68 main_v67 main_v69 (addf : (⟨S8192x1024, .f32⟩ : BufTy).Contents (Elt F) → (⟨S8192x1024, .f32⟩ : BufTy).Contents (Elt F) → (⟨S8192x1024, .f32⟩ : BufTy).Contents (Elt F)),
    StableHlo.nullary main_cst_9 (constant S_ .f32 0x3F800000#32),
    StableHlo.unary main_cst_9 main_v70 (broadcastInDim S8192x1024 ![] bcast_S_S8192x1024 : (⟨S_, .f32⟩ : BufTy).Contents (Elt F) → (⟨S8192x1024, .f32⟩ : BufTy).Contents (Elt F)),
    StableHlo.binary main_v70 main_v69 main_v71 (Host.divf : (⟨S8192x1024, .f32⟩ : BufTy).Contents (Elt F) → (⟨S8192x1024, .f32⟩ : BufTy).Contents (Elt F) → (⟨S8192x1024, .f32⟩ : BufTy).Contents (Elt F)),
    StableHlo.unary main_v64 main_v72 (Host.tanh : (⟨S8192x1024, .f32⟩ : BufTy).Contents (Elt F) → (⟨S8192x1024, .f32⟩ : BufTy).Contents (Elt F)),
    StableHlo.binary main_v71 main_v72 main_v73 (mulf : (⟨S8192x1024, .f32⟩ : BufTy).Contents (Elt F) → (⟨S8192x1024, .f32⟩ : BufTy).Contents (Elt F) → (⟨S8192x1024, .f32⟩ : BufTy).Contents (Elt F)),
    StableHlo.unary main_v65 main_v74 (Host.negf : (⟨S8192x1024, .f32⟩ : BufTy).Contents (Elt F) → (⟨S8192x1024, .f32⟩ : BufTy).Contents (Elt F)),
    StableHlo.unary main_v74 main_v75 (Host.exp : (⟨S8192x1024, .f32⟩ : BufTy).Contents (Elt F) → (⟨S8192x1024, .f32⟩ : BufTy).Contents (Elt F)),
    StableHlo.nullary main_cst_10 (constant S_ .f32 0x3F800000#32),
    StableHlo.unary main_cst_10 main_v76 (broadcastInDim S8192x1024 ![] bcast_S_S8192x1024 : (⟨S_, .f32⟩ : BufTy).Contents (Elt F) → (⟨S8192x1024, .f32⟩ : BufTy).Contents (Elt F)),
    StableHlo.binary main_v76 main_v75 main_v77 (addf : (⟨S8192x1024, .f32⟩ : BufTy).Contents (Elt F) → (⟨S8192x1024, .f32⟩ : BufTy).Contents (Elt F) → (⟨S8192x1024, .f32⟩ : BufTy).Contents (Elt F)),
    StableHlo.nullary main_cst_11 (constant S_ .f32 0x3F800000#32),
    StableHlo.unary main_cst_11 main_v78 (broadcastInDim S8192x1024 ![] bcast_S_S8192x1024 : (⟨S_, .f32⟩ : BufTy).Contents (Elt F) → (⟨S8192x1024, .f32⟩ : BufTy).Contents (Elt F)),
    StableHlo.binary main_v78 main_v77 main_v79 (Host.divf : (⟨S8192x1024, .f32⟩ : BufTy).Contents (Elt F) → (⟨S8192x1024, .f32⟩ : BufTy).Contents (Elt F) → (⟨S8192x1024, .f32⟩ : BufTy).Contents (Elt F)),
    StableHlo.unary main_v73 main_v80 (Host.tanh : (⟨S8192x1024, .f32⟩ : BufTy).Contents (Elt F) → (⟨S8192x1024, .f32⟩ : BufTy).Contents (Elt F)),
    StableHlo.binary main_v79 main_v80 main_v81 (mulf : (⟨S8192x1024, .f32⟩ : BufTy).Contents (Elt F) → (⟨S8192x1024, .f32⟩ : BufTy).Contents (Elt F) → (⟨S8192x1024, .f32⟩ : BufTy).Contents (Elt F)) ]

/-- The head's operations: the two directions side by side, the first layer with its rectifier, the second layer, the reshape to a vector. -/
abbrev opsHead : List (HloOp τ sig (Elt F)) :=
  [
    StableHlo.binary main_v55 main_v81 main_v82 ((fun a b => concatenate S8192x2048 1 [⟨S8192x1024, a⟩, ⟨S8192x1024, b⟩] concatenates_S8192x1024_S8192x1024_S8192x2048_d1) : (⟨S8192x1024, .f32⟩ : BufTy).Contents (Elt F) → (⟨S8192x1024, .f32⟩ : BufTy).Contents (Elt F) → (⟨S8192x2048, .f32⟩ : BufTy).Contents (Elt F)),
    StableHlo.unary main_arg13 main_v83 ((transpose S2048x64 [1, 0] · transposes_S64x2048_S2048x64_1_0) : (⟨S64x2048, .f32⟩ : BufTy).Contents (Elt F) → (⟨S2048x64, .f32⟩ : BufTy).Contents (Elt F)),
    StableHlo.binary main_v82 main_v83 main_v84 ((fun l r => Host.dotGeneral dot_S8192x2048_S2048x64_S8192x64_1_0_0_1_n_n none l r) : (⟨S8192x2048, .f32⟩ : BufTy).Contents (Elt F) → (⟨S2048x64, .f32⟩ : BufTy).Contents (Elt F) → (⟨S8192x64, .f32⟩ : BufTy).Contents (Elt F)),
    StableHlo.unary main_arg14 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S8192x64 ![0, 1] bcast_S1x64_S8192x64_0_1 : (⟨S1x64, .f32⟩ : BufTy).Contents (Elt F) → (⟨S8192x64, .f32⟩ : BufTy).Contents (Elt F)),
    StableHlo.binary main_v84 main_v86 main_v87 (addf : (⟨S8192x64, .f32⟩ : BufTy).Contents (Elt F) → (⟨S8192x64, .f32⟩ : BufTy).Contents (Elt F) → (⟨S8192x64, .f32⟩ : BufTy).Contents (Elt F)),
    TRef.nullary main_call1.cst (constant S_ .f32 0x00000000#32),
    TRef.unary main_call1.cst main_call1.v0 (broadcastInDim S8192x64 ![] bcast_S_S8192x64),
    TRef.binary (.of main_v87 : TRef sig ⟨S8192x64, .f32⟩) main_call1.v0 main_call1.v1 maximumf,
    StableHlo.unary main_arg15 main_v89 ((transpose S64x1 [1, 0] · transposes_S1x64_S64x1_1_0) : (⟨S1x64, .f32⟩ : BufTy).Contents (Elt F) → (⟨S64x1, .f32⟩ : BufTy).Contents (Elt F)),
    StableHlo.binary main_v88 main_v89 main_v90 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    StableHlo.unary main_arg16 main_v91 (broadcastInDim S1x1 ![1] bcast_S1_S1x1_1 : (⟨S1, .f32⟩ : BufTy).Contents (Elt F) → (⟨S1x1, .f32⟩ : BufTy).Contents (Elt F)),
    StableHlo.unary main_v91 main_v92 (broadcastInDim S8192x1 ![0, 1] bcast_S1x1_S8192x1_0_1 : (⟨S1x1, .f32⟩ : BufTy).Contents (Elt F) → (⟨S8192x1, .f32⟩ : BufTy).Contents (Elt F)),
    StableHlo.binary main_v90 main_v92 main_v93 (addf : (⟨S8192x1, .f32⟩ : BufTy).Contents (Elt F) → (⟨S8192x1, .f32⟩ : BufTy).Contents (Elt F) → (⟨S8192x1, .f32⟩ : BufTy).Contents (Elt F)),
    StableHlo.reshape main_v93 main_v94 rfl shapeCasts_S8192x1_S8192 ]

/-- @main's 133 host operations, in order: its own, with the variance's (and inside it the guard's) and the
    rectifier's listed where they are called, over each call's buffer record. -/
abbrev ops : List (HloOp τ sig (Elt F)) :=
  [
    StableHlo.nullary main_cst (constant S_ .f32 0x00000000#32),
    StableHlo.binary main_arg0 main_cst main_v0 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.unary main_v0 main_v1 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x45000000#32),
    StableHlo.unary main_cst_0 main_v2 (broadcastInDim S8192x1 ![] bcast_S_S8192x1 : (⟨S_, .f32⟩ : BufTy).Contents (Elt F) → (⟨S8192x1, .f32⟩ : BufTy).Contents (Elt F)),
    StableHlo.binary main_v1 main_v2 main_v3 (Host.divf : (⟨S8192x1, .f32⟩ : BufTy).Contents (Elt F) → (⟨S8192x1, .f32⟩ : BufTy).Contents (Elt F) → (⟨S8192x1, .f32⟩ : BufTy).Contents (Elt F)),
    StableHlo.nullary main_c (constantI S_ 32 0#32),
    TRef.nullary main_call0.cst (constant S_ .f32 0x00000000#32),
    TRef.binary (.of main_arg0 : TRef sig ⟨S8192x2048, .f32⟩) main_call0.cst main_call0.v0 (fun x v => Host.reduceAdd x v reducesTo_S8192x2048_S8192_d1 h_S_),
    TRef.unary main_call0.v0 main_call0.v1 (broadcastInDim S8192x1 ![0] bcast_S8192_S8192x1_0),
    TRef.nullary main_call0.cst_0 (constant S_ .f32 0x45000000#32),
    TRef.unary main_call0.cst_0 main_call0.v2 (broadcastInDim S8192x1 ![] bcast_S_S8192x1),
    TRef.binary main_call0.v1 main_call0.v2 main_call0.v3 Host.divf,
    TRef.unary main_call0.v3 main_call0.v4 (broadcastInDim S8192x2048 ![0, 1] bcast_S8192x1_S8192x2048_0_1),
    TRef.binary (.of main_arg0 : TRef sig ⟨S8192x2048, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x45000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x2048_S8192_d1 h_S_),
    TRef.unary main_call0.v9 main_call0.v10 (broadcastInDim S8192x1 ![0] bcast_S8192_S8192x1_0),
    TRef.unary main_call0.v8 main_call0.v11 (broadcastInDim S8192x1 ![] bcast_S_S8192x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8192x1 ![] bcast_S_S8192x1),
    TRef.ternary main_call0.v13 main_call0.v12 main_call0.call0.v1 main_call0.call0.v2 (fun p a b => select (broadcastInDim S8192x1 ![] bcast_S_S8192x1 p) a b),
    StableHlo.unary main_v3 main_v5 (broadcastInDim S8192x2048 ![0, 1] bcast_S8192x1_S8192x2048_0_1 : (⟨S8192x1, .f32⟩ : BufTy).Contents (Elt F) → (⟨S8192x2048, .f32⟩ : BufTy).Contents (Elt F)),
    StableHlo.binary main_arg0 main_v5 main_v6 (subf : (⟨S8192x2048, .f32⟩ : BufTy).Contents (Elt F) → (⟨S8192x2048, .f32⟩ : BufTy).Contents (Elt F) → (⟨S8192x2048, .f32⟩ : BufTy).Contents (Elt F)),
    StableHlo.nullary main_cst_1 (constant S_ .f32 0x3727C5AC#32),
    StableHlo.unary main_cst_1 main_v7 (broadcastInDim S8192x1 ![] bcast_S_S8192x1 : (⟨S_, .f32⟩ : BufTy).Contents (Elt F) → (⟨S8192x1, .f32⟩ : BufTy).Contents (Elt F)),
    StableHlo.binary main_v4 main_v7 main_v8 (addf : (⟨S8192x1, .f32⟩ : BufTy).Contents (Elt F) → (⟨S8192x1, .f32⟩ : BufTy).Contents (Elt F) → (⟨S8192x1, .f32⟩ : BufTy).Contents (Elt F)),
    StableHlo.unary main_v8 main_v9 (Host.rsqrt : (⟨S8192x1, .f32⟩ : BufTy).Contents (Elt F) → (⟨S8192x1, .f32⟩ : BufTy).Contents (Elt F)),
    StableHlo.unary main_v9 main_v10 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v6 main_v10 main_v11 (mulf : (⟨S8192x2048, .f32⟩ : BufTy).Contents (Elt F) → (⟨S8192x2048, .f32⟩ : BufTy).Contents (Elt F) → (⟨S8192x2048, .f32⟩ : BufTy).Contents (Elt F)),
    StableHlo.unary main_arg1 main_v12 (broadcastInDim S1x2048 ![1] bcast_S2048_S1x2048_1 : (⟨S2048, .f32⟩ : BufTy).Contents (Elt F) → (⟨S1x2048, .f32⟩ : BufTy).Contents (Elt F)),
    StableHlo.unary main_v12 main_v13 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v11 main_v13 main_v14 (mulf : (⟨S8192x2048, .f32⟩ : BufTy).Contents (Elt F) → (⟨S8192x2048, .f32⟩ : BufTy).Contents (Elt F) → (⟨S8192x2048, .f32⟩ : BufTy).Contents (Elt F)),
    StableHlo.unary main_arg2 main_v15 (broadcastInDim S1x2048 ![1] bcast_S2048_S1x2048_1 : (⟨S2048, .f32⟩ : BufTy).Contents (Elt F) → (⟨S1x2048, .f32⟩ : BufTy).Contents (Elt F)),
    StableHlo.unary main_v15 main_v16 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v14 main_v16 main_v17 (addf : (⟨S8192x2048, .f32⟩ : BufTy).Contents (Elt F) → (⟨S8192x2048, .f32⟩ : BufTy).Contents (Elt F) → (⟨S8192x2048, .f32⟩ : BufTy).Contents (Elt F)),
    StableHlo.unary main_arg3 main_v18 ((transpose S2048x2048 [1, 0] · transposes_S2048x2048_S2048x2048_1_0) : (⟨S2048x2048, .f32⟩ : BufTy).Contents (Elt F) → (⟨S2048x2048, .f32⟩ : BufTy).Contents (Elt F)),
    StableHlo.binary main_v17 main_v18 main_v19 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg4 main_v20 (broadcastInDim S1x2048 ![1] bcast_S2048_S1x2048_1 : (⟨S2048, .f32⟩ : BufTy).Contents (Elt F) → (⟨S1x2048, .f32⟩ : BufTy).Contents (Elt F)),
    StableHlo.unary main_v20 main_v21 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v19 main_v21 main_v22 (addf : (⟨S8192x2048, .f32⟩ : BufTy).Contents (Elt F) → (⟨S8192x2048, .f32⟩ : BufTy).Contents (Elt F) → (⟨S8192x2048, .f32⟩ : BufTy).Contents (Elt F)),
    StableHlo.unary main_v22 main_v23 (Host.negf : (⟨S8192x2048, .f32⟩ : BufTy).Contents (Elt F) → (⟨S8192x2048, .f32⟩ : BufTy).Contents (Elt F)),
    StableHlo.unary main_v23 main_v24 (Host.exp : (⟨S8192x2048, .f32⟩ : BufTy).Contents (Elt F) → (⟨S8192x2048, .f32⟩ : BufTy).Contents (Elt F)),
    StableHlo.nullary main_cst_2 (constant S_ .f32 0x3F800000#32),
    StableHlo.unary main_cst_2 main_v25 (broadcastInDim S8192x2048 ![] bcast_S_S8192x2048 : (⟨S_, .f32⟩ : BufTy).Contents (Elt F) → (⟨S8192x2048, .f32⟩ : BufTy).Contents (Elt F)),
    StableHlo.binary main_v25 main_v24 main_v26 (addf : (⟨S8192x2048, .f32⟩ : BufTy).Contents (Elt F) → (⟨S8192x2048, .f32⟩ : BufTy).Contents (Elt F) → (⟨S8192x2048, .f32⟩ : BufTy).Contents (Elt F)),
    StableHlo.nullary main_cst_3 (constant S_ .f32 0x3F800000#32),
    StableHlo.unary main_cst_3 main_v27 (broadcastInDim S8192x2048 ![] bcast_S_S8192x2048 : (⟨S_, .f32⟩ : BufTy).Contents (Elt F) → (⟨S8192x2048, .f32⟩ : BufTy).Contents (Elt F)),
    StableHlo.binary main_v27 main_v26 main_v28 (Host.divf : (⟨S8192x2048, .f32⟩ : BufTy).Contents (Elt F) → (⟨S8192x2048, .f32⟩ : BufTy).Contents (Elt F) → (⟨S8192x2048, .f32⟩ : BufTy).Contents (Elt F)),
    StableHlo.binary main_arg0 main_v28 main_v29 (mulf : (⟨S8192x2048, .f32⟩ : BufTy).Contents (Elt F) → (⟨S8192x2048, .f32⟩ : BufTy).Contents (Elt F) → (⟨S8192x2048, .f32⟩ : BufTy).Contents (Elt F)),
    StableHlo.unary main_arg5 main_v30 ((transpose S2048x4096 [1, 0] · transposes_S4096x2048_S2048x4096_1_0) : (⟨S4096x2048, .f32⟩ : BufTy).Contents (Elt F) → (⟨S2048x4096, .f32⟩ : BufTy).Contents (Elt F)),
    StableHlo.binary main_v29 main_v30 main_v31 ((fun l r => Host.dotGeneral dot_S8192x2048_S2048x4096_S8192x4096_1_0_0_1_n_n none l r) : (⟨S8192x2048, .f32⟩ : BufTy).Contents (Elt F) → (⟨S2048x4096, .f32⟩ : BufTy).Contents (Elt F) → (⟨S8192x4096, .f32⟩ : BufTy).Contents (Elt F)),
    StableHlo.binary main_arg7 main_arg8 main_v32 (addf : (⟨S4096, .f32⟩ : BufTy).Contents (Elt F) → (⟨S4096, .f32⟩ : BufTy).Contents (Elt F) → (⟨S4096, .f32⟩ : BufTy).Contents (Elt F)),
    StableHlo.unary main_v32 main_v33 (broadcastInDim S1x4096 ![1] bcast_S4096_S1x4096_1 : (⟨S4096, .f32⟩ : BufTy).Contents (Elt F) → (⟨S1x4096, .f32⟩ : BufTy).Contents (Elt F)),
    StableHlo.unary main_v33 main_v34 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v31 main_v34 main_v35 (addf : (⟨S8192x4096, .f32⟩ : BufTy).Contents (Elt F) → (⟨S8192x4096, .f32⟩ : BufTy).Contents (Elt F) → (⟨S8192x4096, .f32⟩ : BufTy).Contents (Elt F)),
    StableHlo.unary main_v35 main_v36 ((extractStridedSlice S8192x1024 ![0, 0] · slices_S8192x4096_S8192x1024_0_0) : (⟨S8192x4096, .f32⟩ : BufTy).Contents (Elt F) → (⟨S8192x1024, .f32⟩ : BufTy).Contents (Elt F)),
    StableHlo.unary main_v35 main_v37 ((extractStridedSlice S8192x1024 ![0, 1024] · slices_S8192x4096_S8192x1024_0_1024) : (⟨S8192x4096, .f32⟩ : BufTy).Contents (Elt F) → (⟨S8192x1024, .f32⟩ : BufTy).Contents (Elt F)),
    StableHlo.unary main_v35 main_v38 ((extractStridedSlice S8192x1024 ![0, 2048] · slices_S8192x4096_S8192x1024_0_2048) : (⟨S8192x4096, .f32⟩ : BufTy).Contents (Elt F) → (⟨S8192x1024, .f32⟩ : BufTy).Contents (Elt F)),
    StableHlo.unary main_v35 main_v39 ((extractStridedSlice S8192x1024 ![0, 3072] · slices_S8192x4096_S8192x1024_0_3072) : (⟨S8192x4096, .f32⟩ : BufTy).Contents (Elt F) → (⟨S8192x1024, .f32⟩ : BufTy).Contents (Elt F)),
    StableHlo.unary main_v36 main_v40 (Host.negf : (⟨S8192x1024, .f32⟩ : BufTy).Contents (Elt F) → (⟨S8192x1024, .f32⟩ : BufTy).Contents (Elt F)),
    StableHlo.unary main_v40 main_v41 (Host.exp : (⟨S8192x1024, .f32⟩ : BufTy).Contents (Elt F) → (⟨S8192x1024, .f32⟩ : BufTy).Contents (Elt F)),
    StableHlo.nullary main_cst_4 (constant S_ .f32 0x3F800000#32),
    StableHlo.unary main_cst_4 main_v42 (broadcastInDim S8192x1024 ![] bcast_S_S8192x1024 : (⟨S_, .f32⟩ : BufTy).Contents (Elt F) → (⟨S8192x1024, .f32⟩ : BufTy).Contents (Elt F)),
    StableHlo.binary main_v42 main_v41 main_v43 (addf : (⟨S8192x1024, .f32⟩ : BufTy).Contents (Elt F) → (⟨S8192x1024, .f32⟩ : BufTy).Contents (Elt F) → (⟨S8192x1024, .f32⟩ : BufTy).Contents (Elt F)),
    StableHlo.nullary main_cst_5 (constant S_ .f32 0x3F800000#32),
    StableHlo.unary main_cst_5 main_v44 (broadcastInDim S8192x1024 ![] bcast_S_S8192x1024 : (⟨S_, .f32⟩ : BufTy).Contents (Elt F) → (⟨S8192x1024, .f32⟩ : BufTy).Contents (Elt F)),
    StableHlo.binary main_v44 main_v43 main_v45 (Host.divf : (⟨S8192x1024, .f32⟩ : BufTy).Contents (Elt F) → (⟨S8192x1024, .f32⟩ : BufTy).Contents (Elt F) → (⟨S8192x1024, .f32⟩ : BufTy).Contents (Elt F)),
    StableHlo.unary main_v38 main_v46 (Host.tanh : (⟨S8192x1024, .f32⟩ : BufTy).Contents (Elt F) → (⟨S8192x1024, .f32⟩ : BufTy).Contents (Elt F)),
    StableHlo.binary main_v45 main_v46 main_v47 (mulf : (⟨S8192x1024, .f32⟩ : BufTy).Contents (Elt F) → (⟨S8192x1024, .f32⟩ : BufTy).Contents (Elt F) → (⟨S8192x1024, .f32⟩ : BufTy).Contents (Elt F)),
    StableHlo.unary main_v39 main_v48 (Host.negf : (⟨S8192x1024, .f32⟩ : BufTy).Contents (Elt F) → (⟨S8192x1024, .f32⟩ : BufTy).Contents (Elt F)),
    StableHlo.unary main_v48 main_v49 (Host.exp : (⟨S8192x1024, .f32⟩ : BufTy).Contents (Elt F) → (⟨S8192x1024, .f32⟩ : BufTy).Contents (Elt F)),
    StableHlo.nullary main_cst_6 (constant S_ .f32 0x3F800000#32),
    StableHlo.unary main_cst_6 main_v50 (broadcastInDim S8192x1024 ![] bcast_S_S8192x1024 : (⟨S_, .f32⟩ : BufTy).Contents (Elt F) → (⟨S8192x1024, .f32⟩ : BufTy).Contents (Elt F)),
    StableHlo.binary main_v50 main_v49 main_v51 (addf : (⟨S8192x1024, .f32⟩ : BufTy).Contents (Elt F) → (⟨S8192x1024, .f32⟩ : BufTy).Contents (Elt F) → (⟨S8192x1024, .f32⟩ : BufTy).Contents (Elt F)),
    StableHlo.nullary main_cst_7 (constant S_ .f32 0x3F800000#32),
    StableHlo.unary main_cst_7 main_v52 (broadcastInDim S8192x1024 ![] bcast_S_S8192x1024 : (⟨S_, .f32⟩ : BufTy).Contents (Elt F) → (⟨S8192x1024, .f32⟩ : BufTy).Contents (Elt F)),
    StableHlo.binary main_v52 main_v51 main_v53 (Host.divf : (⟨S8192x1024, .f32⟩ : BufTy).Contents (Elt F) → (⟨S8192x1024, .f32⟩ : BufTy).Contents (Elt F) → (⟨S8192x1024, .f32⟩ : BufTy).Contents (Elt F)),
    StableHlo.unary main_v47 main_v54 (Host.tanh : (⟨S8192x1024, .f32⟩ : BufTy).Contents (Elt F) → (⟨S8192x1024, .f32⟩ : BufTy).Contents (Elt F)),
    StableHlo.binary main_v53 main_v54 main_v55 (mulf : (⟨S8192x1024, .f32⟩ : BufTy).Contents (Elt F) → (⟨S8192x1024, .f32⟩ : BufTy).Contents (Elt F) → (⟨S8192x1024, .f32⟩ : BufTy).Contents (Elt F)),
    StableHlo.unary main_arg9 main_v56 ((transpose S2048x4096 [1, 0] · transposes_S4096x2048_S2048x4096_1_0) : (⟨S4096x2048, .f32⟩ : BufTy).Contents (Elt F) → (⟨S2048x4096, .f32⟩ : BufTy).Contents (Elt F)),
    StableHlo.binary main_v29 main_v56 main_v57 ((fun l r => Host.dotGeneral dot_S8192x2048_S2048x4096_S8192x4096_1_0_0_1_n_n none l r) : (⟨S8192x2048, .f32⟩ : BufTy).Contents (Elt F) → (⟨S2048x4096, .f32⟩ : BufTy).Contents (Elt F) → (⟨S8192x4096, .f32⟩ : BufTy).Contents (Elt F)),
    StableHlo.binary main_arg11 main_arg12 main_v58 (addf : (⟨S4096, .f32⟩ : BufTy).Contents (Elt F) → (⟨S4096, .f32⟩ : BufTy).Contents (Elt F) → (⟨S4096, .f32⟩ : BufTy).Contents (Elt F)),
    StableHlo.unary main_v58 main_v59 (broadcastInDim S1x4096 ![1] bcast_S4096_S1x4096_1 : (⟨S4096, .f32⟩ : BufTy).Contents (Elt F) → (⟨S1x4096, .f32⟩ : BufTy).Contents (Elt F)),
    StableHlo.unary main_v59 main_v60 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v57 main_v60 main_v61 (addf : (⟨S8192x4096, .f32⟩ : BufTy).Contents (Elt F) → (⟨S8192x4096, .f32⟩ : BufTy).Contents (Elt F) → (⟨S8192x4096, .f32⟩ : BufTy).Contents (Elt F)),
    StableHlo.unary main_v61 main_v62 ((extractStridedSlice S8192x1024 ![0, 0] · slices_S8192x4096_S8192x1024_0_0) : (⟨S8192x4096, .f32⟩ : BufTy).Contents (Elt F) → (⟨S8192x1024, .f32⟩ : BufTy).Contents (Elt F)),
    StableHlo.unary main_v61 main_v63 ((extractStridedSlice S8192x1024 ![0, 1024] · slices_S8192x4096_S8192x1024_0_1024) : (⟨S8192x4096, .f32⟩ : BufTy).Contents (Elt F) → (⟨S8192x1024, .f32⟩ : BufTy).Contents (Elt F)),
    StableHlo.unary main_v61 main_v64 ((extractStridedSlice S8192x1024 ![0, 2048] · slices_S8192x4096_S8192x1024_0_2048) : (⟨S8192x4096, .f32⟩ : BufTy).Contents (Elt F) → (⟨S8192x1024, .f32⟩ : BufTy).Contents (Elt F)),
    StableHlo.unary main_v61 main_v65 ((extractStridedSlice S8192x1024 ![0, 3072] · slices_S8192x4096_S8192x1024_0_3072) : (⟨S8192x4096, .f32⟩ : BufTy).Contents (Elt F) → (⟨S8192x1024, .f32⟩ : BufTy).Contents (Elt F)),
    StableHlo.unary main_v62 main_v66 (Host.negf : (⟨S8192x1024, .f32⟩ : BufTy).Contents (Elt F) → (⟨S8192x1024, .f32⟩ : BufTy).Contents (Elt F)),
    StableHlo.unary main_v66 main_v67 (Host.exp : (⟨S8192x1024, .f32⟩ : BufTy).Contents (Elt F) → (⟨S8192x1024, .f32⟩ : BufTy).Contents (Elt F)),
    StableHlo.nullary main_cst_8 (constant S_ .f32 0x3F800000#32),
    StableHlo.unary main_cst_8 main_v68 (broadcastInDim S8192x1024 ![] bcast_S_S8192x1024 : (⟨S_, .f32⟩ : BufTy).Contents (Elt F) → (⟨S8192x1024, .f32⟩ : BufTy).Contents (Elt F)),
    StableHlo.binary main_v68 main_v67 main_v69 (addf : (⟨S8192x1024, .f32⟩ : BufTy).Contents (Elt F) → (⟨S8192x1024, .f32⟩ : BufTy).Contents (Elt F) → (⟨S8192x1024, .f32⟩ : BufTy).Contents (Elt F)),
    StableHlo.nullary main_cst_9 (constant S_ .f32 0x3F800000#32),
    StableHlo.unary main_cst_9 main_v70 (broadcastInDim S8192x1024 ![] bcast_S_S8192x1024 : (⟨S_, .f32⟩ : BufTy).Contents (Elt F) → (⟨S8192x1024, .f32⟩ : BufTy).Contents (Elt F)),
    StableHlo.binary main_v70 main_v69 main_v71 (Host.divf : (⟨S8192x1024, .f32⟩ : BufTy).Contents (Elt F) → (⟨S8192x1024, .f32⟩ : BufTy).Contents (Elt F) → (⟨S8192x1024, .f32⟩ : BufTy).Contents (Elt F)),
    StableHlo.unary main_v64 main_v72 (Host.tanh : (⟨S8192x1024, .f32⟩ : BufTy).Contents (Elt F) → (⟨S8192x1024, .f32⟩ : BufTy).Contents (Elt F)),
    StableHlo.binary main_v71 main_v72 main_v73 (mulf : (⟨S8192x1024, .f32⟩ : BufTy).Contents (Elt F) → (⟨S8192x1024, .f32⟩ : BufTy).Contents (Elt F) → (⟨S8192x1024, .f32⟩ : BufTy).Contents (Elt F)),
    StableHlo.unary main_v65 main_v74 (Host.negf : (⟨S8192x1024, .f32⟩ : BufTy).Contents (Elt F) → (⟨S8192x1024, .f32⟩ : BufTy).Contents (Elt F)),
    StableHlo.unary main_v74 main_v75 (Host.exp : (⟨S8192x1024, .f32⟩ : BufTy).Contents (Elt F) → (⟨S8192x1024, .f32⟩ : BufTy).Contents (Elt F)),
    StableHlo.nullary main_cst_10 (constant S_ .f32 0x3F800000#32),
    StableHlo.unary main_cst_10 main_v76 (broadcastInDim S8192x1024 ![] bcast_S_S8192x1024 : (⟨S_, .f32⟩ : BufTy).Contents (Elt F) → (⟨S8192x1024, .f32⟩ : BufTy).Contents (Elt F)),
    StableHlo.binary main_v76 main_v75 main_v77 (addf : (⟨S8192x1024, .f32⟩ : BufTy).Contents (Elt F) → (⟨S8192x1024, .f32⟩ : BufTy).Contents (Elt F) → (⟨S8192x1024, .f32⟩ : BufTy).Contents (Elt F)),
    StableHlo.nullary main_cst_11 (constant S_ .f32 0x3F800000#32),
    StableHlo.unary main_cst_11 main_v78 (broadcastInDim S8192x1024 ![] bcast_S_S8192x1024 : (⟨S_, .f32⟩ : BufTy).Contents (Elt F) → (⟨S8192x1024, .f32⟩ : BufTy).Contents (Elt F)),
    StableHlo.binary main_v78 main_v77 main_v79 (Host.divf : (⟨S8192x1024, .f32⟩ : BufTy).Contents (Elt F) → (⟨S8192x1024, .f32⟩ : BufTy).Contents (Elt F) → (⟨S8192x1024, .f32⟩ : BufTy).Contents (Elt F)),
    StableHlo.unary main_v73 main_v80 (Host.tanh : (⟨S8192x1024, .f32⟩ : BufTy).Contents (Elt F) → (⟨S8192x1024, .f32⟩ : BufTy).Contents (Elt F)),
    StableHlo.binary main_v79 main_v80 main_v81 (mulf : (⟨S8192x1024, .f32⟩ : BufTy).Contents (Elt F) → (⟨S8192x1024, .f32⟩ : BufTy).Contents (Elt F) → (⟨S8192x1024, .f32⟩ : BufTy).Contents (Elt F)),
    StableHlo.binary main_v55 main_v81 main_v82 ((fun a b => concatenate S8192x2048 1 [⟨S8192x1024, a⟩, ⟨S8192x1024, b⟩] concatenates_S8192x1024_S8192x1024_S8192x2048_d1) : (⟨S8192x1024, .f32⟩ : BufTy).Contents (Elt F) → (⟨S8192x1024, .f32⟩ : BufTy).Contents (Elt F) → (⟨S8192x2048, .f32⟩ : BufTy).Contents (Elt F)),
    StableHlo.unary main_arg13 main_v83 ((transpose S2048x64 [1, 0] · transposes_S64x2048_S2048x64_1_0) : (⟨S64x2048, .f32⟩ : BufTy).Contents (Elt F) → (⟨S2048x64, .f32⟩ : BufTy).Contents (Elt F)),
    StableHlo.binary main_v82 main_v83 main_v84 ((fun l r => Host.dotGeneral dot_S8192x2048_S2048x64_S8192x64_1_0_0_1_n_n none l r) : (⟨S8192x2048, .f32⟩ : BufTy).Contents (Elt F) → (⟨S2048x64, .f32⟩ : BufTy).Contents (Elt F) → (⟨S8192x64, .f32⟩ : BufTy).Contents (Elt F)),
    StableHlo.unary main_arg14 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S8192x64 ![0, 1] bcast_S1x64_S8192x64_0_1 : (⟨S1x64, .f32⟩ : BufTy).Contents (Elt F) → (⟨S8192x64, .f32⟩ : BufTy).Contents (Elt F)),
    StableHlo.binary main_v84 main_v86 main_v87 (addf : (⟨S8192x64, .f32⟩ : BufTy).Contents (Elt F) → (⟨S8192x64, .f32⟩ : BufTy).Contents (Elt F) → (⟨S8192x64, .f32⟩ : BufTy).Contents (Elt F)),
    TRef.nullary main_call1.cst (constant S_ .f32 0x00000000#32),
    TRef.unary main_call1.cst main_call1.v0 (broadcastInDim S8192x64 ![] bcast_S_S8192x64),
    TRef.binary (.of main_v87 : TRef sig ⟨S8192x64, .f32⟩) main_call1.v0 main_call1.v1 maximumf,
    StableHlo.unary main_arg15 main_v89 ((transpose S64x1 [1, 0] · transposes_S1x64_S64x1_1_0) : (⟨S1x64, .f32⟩ : BufTy).Contents (Elt F) → (⟨S64x1, .f32⟩ : BufTy).Contents (Elt F)),
    StableHlo.binary main_v88 main_v89 main_v90 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    StableHlo.unary main_arg16 main_v91 (broadcastInDim S1x1 ![1] bcast_S1_S1x1_1 : (⟨S1, .f32⟩ : BufTy).Contents (Elt F) → (⟨S1x1, .f32⟩ : BufTy).Contents (Elt F)),
    StableHlo.unary main_v91 main_v92 (broadcastInDim S8192x1 ![0, 1] bcast_S1x1_S8192x1_0_1 : (⟨S1x1, .f32⟩ : BufTy).Contents (Elt F) → (⟨S8192x1, .f32⟩ : BufTy).Contents (Elt F)),
    StableHlo.binary main_v90 main_v92 main_v93 (addf : (⟨S8192x1, .f32⟩ : BufTy).Contents (Elt F) → (⟨S8192x1, .f32⟩ : BufTy).Contents (Elt F) → (⟨S8192x1, .f32⟩ : BufTy).Contents (Elt F)),
    StableHlo.reshape main_v93 main_v94 rfl shapeCasts_S8192x1_S8192 ]

set_option maxRecDepth 8192 in
set_option maxHeartbeats 4000000 in
/-- @main is that straight line of operations. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., unary_bufs_sub .., binary_bufs_sub ..,
    binary_bufs_sub .., unary_bufs_sub .., unary_bufs_sub .., binary_bufs_sub .., unary_bufs_sub .., unary_bufs_sub ..,
    unary_bufs_sub .., unary_bufs_sub .., unary_bufs_sub .., unary_bufs_sub .., nullary_bufs_sub .., unary_bufs_sub ..,
    binary_bufs_sub .., nullary_bufs_sub .., unary_bufs_sub .., binary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., binary_bufs_sub .., unary_bufs_sub .., binary_bufs_sub ..,
    binary_bufs_sub .., unary_bufs_sub .., unary_bufs_sub .., binary_bufs_sub .., unary_bufs_sub .., unary_bufs_sub ..,
    unary_bufs_sub .., unary_bufs_sub .., unary_bufs_sub .., unary_bufs_sub .., nullary_bufs_sub .., unary_bufs_sub ..,
    binary_bufs_sub .., nullary_bufs_sub .., unary_bufs_sub .., binary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    reshape_bufs_sub ..⟩

/-! ## The four stretches, each read back at its result -/

set_option maxRecDepth 8192 in
set_option maxHeartbeats 4000000 in
/-- The first stretch leaves the gated batch. -/
theorem gate_eq (W : Valuation τ sig (Elt F)) :
    after opsGate W (main_v29 : DevRef τ sig)
      = Stages.gated (W (main_arg0 : DevRef τ sig)) (W (main_arg1 : DevRef τ sig)) (W (main_arg2 : DevRef τ sig)) (W (main_arg3 : DevRef τ sig)) (W (main_arg4 : DevRef τ sig)) := by
  conv_lhs => simp (disch := decide) only [after_cons, after_nil, nullary_result', unary_result', binary_result', ternary_result', reshape_result', nullary_result_ne', unary_result_ne', binary_result_ne', ternary_result_ne', reshape_result_ne']
  rfl

set_option maxRecDepth 8192 in
set_option maxHeartbeats 4000000 in
/-- The forward stretch leaves that direction's hidden values of the gated batch it finds. -/
theorem fwd_eq (W : Valuation τ sig (Elt F)) :
    after opsFwd W (main_v55 : DevRef τ sig)
      = Stages.cell (W (main_v29 : DevRef τ sig)) (W (main_arg5 : DevRef τ sig)) (W (main_arg7 : DevRef τ sig)) (W (main_arg8 : DevRef τ sig)) := by
  conv_lhs => simp (disch := decide) only [after_cons, after_nil, nullary_result', unary_result', binary_result', ternary_result', reshape_result', nullary_result_ne', unary_result_ne', binary_result_ne', ternary_result_ne', reshape_result_ne']
  rfl

set_option maxRecDepth 8192 in
set_option maxHeartbeats 4000000 in
/-- The backward stretch, the same over its own weights and biases. -/
theorem bwd_eq (W : Valuation τ sig (Elt F)) :
    after opsBwd W (main_v81 : DevRef τ sig)
      = Stages.cell (W (main_v29 : DevRef τ sig)) (W (main_arg9 : DevRef τ sig)) (W (main_arg11 : DevRef τ sig)) (W (main_arg12 : DevRef τ sig)) := by
  conv_lhs => simp (disch := decide) only [after_cons, after_nil, nullary_result', unary_result', binary_result', ternary_result', reshape_result', nullary_result_ne', unary_result_ne', binary_result_ne', ternary_result_ne', reshape_result_ne']
  rfl

set_option maxRecDepth 8192 in
set_option maxHeartbeats 4000000 in
/-- The last stretch leaves the head of the two directions' hidden values it finds. -/
theorem head_eq (W : Valuation τ sig (Elt F)) :
    after opsHead W (main_v94 : DevRef τ sig)
      = Stages.headOf (W (main_v55 : DevRef τ sig)) (W (main_v81 : DevRef τ sig)) (W (main_arg13 : DevRef τ sig)) (W (main_arg14 : DevRef τ sig)) (W (main_arg15 : DevRef τ sig)) (W (main_arg16 : DevRef τ sig)) := by
  conv_lhs => simp only [after_cons, after_nil]
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

/-! What each stretch does not write it keeps. -/

theorem gate_arg5 (W : Valuation τ sig (Elt F)) : after opsGate W (main_arg5 : DevRef τ sig) = (W (main_arg5 : DevRef τ sig)) := by
  after_results_simp

theorem gate_arg7 (W : Valuation τ sig (Elt F)) : after opsGate W (main_arg7 : DevRef τ sig) = (W (main_arg7 : DevRef τ sig)) := by
  after_results_simp

theorem gate_arg8 (W : Valuation τ sig (Elt F)) : after opsGate W (main_arg8 : DevRef τ sig) = (W (main_arg8 : DevRef τ sig)) := by
  after_results_simp

theorem gate_arg9 (W : Valuation τ sig (Elt F)) : after opsGate W (main_arg9 : DevRef τ sig) = (W (main_arg9 : DevRef τ sig)) := by
  after_results_simp

theorem gate_arg11 (W : Valuation τ sig (Elt F)) : after opsGate W (main_arg11 : DevRef τ sig) = (W (main_arg11 : DevRef τ sig)) := by
  after_results_simp

theorem gate_arg12 (W : Valuation τ sig (Elt F)) : after opsGate W (main_arg12 : DevRef τ sig) = (W (main_arg12 : DevRef τ sig)) := by
  after_results_simp

theorem gate_arg13 (W : Valuation τ sig (Elt F)) : after opsGate W (main_arg13 : DevRef τ sig) = (W (main_arg13 : DevRef τ sig)) := by
  after_results_simp

theorem gate_arg14 (W : Valuation τ sig (Elt F)) : after opsGate W (main_arg14 : DevRef τ sig) = (W (main_arg14 : DevRef τ sig)) := by
  after_results_simp

theorem gate_arg15 (W : Valuation τ sig (Elt F)) : after opsGate W (main_arg15 : DevRef τ sig) = (W (main_arg15 : DevRef τ sig)) := by
  after_results_simp

theorem gate_arg16 (W : Valuation τ sig (Elt F)) : after opsGate W (main_arg16 : DevRef τ sig) = (W (main_arg16 : DevRef τ sig)) := by
  after_results_simp

theorem fwd_v29 (W : Valuation τ sig (Elt F)) : after opsFwd W (main_v29 : DevRef τ sig) = (W (main_v29 : DevRef τ sig)) := by
  after_results_simp

theorem fwd_arg9 (W : Valuation τ sig (Elt F)) : after opsFwd W (main_arg9 : DevRef τ sig) = (W (main_arg9 : DevRef τ sig)) := by
  after_results_simp

theorem fwd_arg11 (W : Valuation τ sig (Elt F)) : after opsFwd W (main_arg11 : DevRef τ sig) = (W (main_arg11 : DevRef τ sig)) := by
  after_results_simp

theorem fwd_arg12 (W : Valuation τ sig (Elt F)) : after opsFwd W (main_arg12 : DevRef τ sig) = (W (main_arg12 : DevRef τ sig)) := by
  after_results_simp

theorem fwd_arg13 (W : Valuation τ sig (Elt F)) : after opsFwd W (main_arg13 : DevRef τ sig) = (W (main_arg13 : DevRef τ sig)) := by
  after_results_simp

theorem fwd_arg14 (W : Valuation τ sig (Elt F)) : after opsFwd W (main_arg14 : DevRef τ sig) = (W (main_arg14 : DevRef τ sig)) := by
  after_results_simp

theorem fwd_arg15 (W : Valuation τ sig (Elt F)) : after opsFwd W (main_arg15 : DevRef τ sig) = (W (main_arg15 : DevRef τ sig)) := by
  after_results_simp

theorem fwd_arg16 (W : Valuation τ sig (Elt F)) : after opsFwd W (main_arg16 : DevRef τ sig) = (W (main_arg16 : DevRef τ sig)) := by
  after_results_simp

theorem bwd_v55 (W : Valuation τ sig (Elt F)) : after opsBwd W (main_v55 : DevRef τ sig) = (W (main_v55 : DevRef τ sig)) := by
  after_results_simp

theorem bwd_arg13 (W : Valuation τ sig (Elt F)) : after opsBwd W (main_arg13 : DevRef τ sig) = (W (main_arg13 : DevRef τ sig)) := by
  after_results_simp

theorem bwd_arg14 (W : Valuation τ sig (Elt F)) : after opsBwd W (main_arg14 : DevRef τ sig) = (W (main_arg14 : DevRef τ sig)) := by
  after_results_simp

theorem bwd_arg15 (W : Valuation τ sig (Elt F)) : after opsBwd W (main_arg15 : DevRef τ sig) = (W (main_arg15 : DevRef τ sig)) := by
  after_results_simp

theorem bwd_arg16 (W : Valuation τ sig (Elt F)) : after opsBwd W (main_arg16 : DevRef τ sig) = (W (main_arg16 : DevRef τ sig)) := by
  after_results_simp

/-- Two lines run one after the other: the second from what the first leaves. -/
theorem after_concat (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The line is its four stretches in order. -/
theorem ops_split : (ops : List (HloOp τ sig (Elt F))) = opsGate ++ opsFwd ++ opsBwd ++ opsHead := rfl

/-- The result buffer after the whole line: the stages' composition of the arguments. -/
theorem out_eq (V : Valuation τ sig (Elt F)) :
    after ops V (main_v94 : DevRef τ sig)
      = Stages.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg7 : DevRef τ sig)) (V (main_arg8 : DevRef τ sig)) (V (main_arg9 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  rw [ops_split, after_concat, after_concat, after_concat, head_eq,
    bwd_eq, bwd_v55, bwd_arg13, bwd_arg14, bwd_arg15, bwd_arg16,
    fwd_eq, fwd_v29, fwd_arg9, fwd_arg11, fwd_arg12, fwd_arg13, fwd_arg14, fwd_arg15, fwd_arg16,
    gate_eq, gate_arg5, gate_arg7, gate_arg8, gate_arg9, gate_arg11, gate_arg12, gate_arg13, gate_arg14, gate_arg15, gate_arg16]
  rfl

/-! No operation writes an argument: each keeps its launch contents. -/

set_option maxRecDepth 8192 in
set_option maxHeartbeats 4000000 in
theorem arg0_eq (V : Valuation τ sig (Elt F)) : after ops V (main_arg0 : DevRef τ sig) = V (main_arg0 : DevRef τ sig) := by
  after_results_simp

set_option maxRecDepth 8192 in
set_option maxHeartbeats 4000000 in
theorem arg1_eq (V : Valuation τ sig (Elt F)) : after ops V (main_arg1 : DevRef τ sig) = V (main_arg1 : DevRef τ sig) := by
  after_results_simp

set_option maxRecDepth 8192 in
set_option maxHeartbeats 4000000 in
theorem arg2_eq (V : Valuation τ sig (Elt F)) : after ops V (main_arg2 : DevRef τ sig) = V (main_arg2 : DevRef τ sig) := by
  after_results_simp

set_option maxRecDepth 8192 in
set_option maxHeartbeats 4000000 in
theorem arg3_eq (V : Valuation τ sig (Elt F)) : after ops V (main_arg3 : DevRef τ sig) = V (main_arg3 : DevRef τ sig) := by
  after_results_simp

set_option maxRecDepth 8192 in
set_option maxHeartbeats 4000000 in
theorem arg4_eq (V : Valuation τ sig (Elt F)) : after ops V (main_arg4 : DevRef τ sig) = V (main_arg4 : DevRef τ sig) := by
  after_results_simp

set_option maxRecDepth 8192 in
set_option maxHeartbeats 4000000 in
theorem arg5_eq (V : Valuation τ sig (Elt F)) : after ops V (main_arg5 : DevRef τ sig) = V (main_arg5 : DevRef τ sig) := by
  after_results_simp

set_option maxRecDepth 8192 in
set_option maxHeartbeats 4000000 in
theorem arg6_eq (V : Valuation τ sig (Elt F)) : after ops V (main_arg6 : DevRef τ sig) = V (main_arg6 : DevRef τ sig) := by
  after_results_simp

set_option maxRecDepth 8192 in
set_option maxHeartbeats 4000000 in
theorem arg7_eq (V : Valuation τ sig (Elt F)) : after ops V (main_arg7 : DevRef τ sig) = V (main_arg7 : DevRef τ sig) := by
  after_results_simp

set_option maxRecDepth 8192 in
set_option maxHeartbeats 4000000 in
theorem arg8_eq (V : Valuation τ sig (Elt F)) : after ops V (main_arg8 : DevRef τ sig) = V (main_arg8 : DevRef τ sig) := by
  after_results_simp

set_option maxRecDepth 8192 in
set_option maxHeartbeats 4000000 in
theorem arg9_eq (V : Valuation τ sig (Elt F)) : after ops V (main_arg9 : DevRef τ sig) = V (main_arg9 : DevRef τ sig) := by
  after_results_simp

set_option maxRecDepth 8192 in
set_option maxHeartbeats 4000000 in
theorem arg10_eq (V : Valuation τ sig (Elt F)) : after ops V (main_arg10 : DevRef τ sig) = V (main_arg10 : DevRef τ sig) := by
  after_results_simp

set_option maxRecDepth 8192 in
set_option maxHeartbeats 4000000 in
theorem arg11_eq (V : Valuation τ sig (Elt F)) : after ops V (main_arg11 : DevRef τ sig) = V (main_arg11 : DevRef τ sig) := by
  after_results_simp

set_option maxRecDepth 8192 in
set_option maxHeartbeats 4000000 in
theorem arg12_eq (V : Valuation τ sig (Elt F)) : after ops V (main_arg12 : DevRef τ sig) = V (main_arg12 : DevRef τ sig) := by
  after_results_simp

set_option maxRecDepth 8192 in
set_option maxHeartbeats 4000000 in
theorem arg13_eq (V : Valuation τ sig (Elt F)) : after ops V (main_arg13 : DevRef τ sig) = V (main_arg13 : DevRef τ sig) := by
  after_results_simp

set_option maxRecDepth 8192 in
set_option maxHeartbeats 4000000 in
theorem arg14_eq (V : Valuation τ sig (Elt F)) : after ops V (main_arg14 : DevRef τ sig) = V (main_arg14 : DevRef τ sig) := by
  after_results_simp

set_option maxRecDepth 8192 in
set_option maxHeartbeats 4000000 in
theorem arg15_eq (V : Valuation τ sig (Elt F)) : after ops V (main_arg15 : DevRef τ sig) = V (main_arg15 : DevRef τ sig) := by
  after_results_simp

set_option maxRecDepth 8192 in
set_option maxHeartbeats 4000000 in
theorem arg16_eq (V : Valuation τ sig (Elt F)) : after ops V (main_arg16 : DevRef τ sig) = V (main_arg16 : DevRef τ sig) := by
  after_results_simp

/-- Every weakly fair execution of the reference terminates with the result at `Stages.result` of the arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = Stages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v94).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _)⟩)
    (run_seq scopedRefs_eq scopedSems_eq defs main (fun _ => ops) main_eq (fun _ => ops_sub) m ρ)

end Cert.ReferenceIdeal.Run

end
-- ==== Proof.RefGate.lean ====
/-
  The reference's gated batch read at an entry: its stages (row mean, jnp's guarded variance, the affine
  normalisation, the product with the transposed weight, the logistic spelt `1 / (1 + e^(-z))`) are, entry by entry,
  the specification's gate with the variance in its centred form.
-/
import proofs.«408149_j91268055040200_3_alg».proof.Proof.RefStages
import proofs.«408149_j91268055040200_3_alg».proof.Proof.Arrays
import Idealize.ShloMosaic.Lib.ValueIdx
import Idealize.ShloMosaic.Lib.ValueLayout
import Idealize.ShloMosaic.Lib.IdealHost
import Idealize.ShloMosaic.Lib.StackMember
import Idealize.ShloMosaic.Lib.Pipeline.Value
import Idealize.ShloMosaic.PureOps.Ideal.Laws

noncomputable section

open scoped BigOperators

namespace Cert.ReferenceIdeal.GateValue

open Cert.ReferenceIdeal Idealize.ShloMosaic Idealize.ShloMosaic.TcCoe Idealize.ShloMosaic.ValueIdx
open Facts₀ Facts

/-! ## The two literals the guard and the logistic need -/

/-- The pattern `0x45000000` denotes the real 2048: exponent field 138, significand field 0. -/
theorem ofBits_2048 : Ideal.ofBits .f32 0x45000000#32 = ((2048 : ℝ) : EReal) := by
  simp [Ideal.ofBits, Ideal.ieee, -EReal.coe_mul]; norm_num

/-- The row length is a positive real. -/
theorem nFeat_pos : (0 : EReal) < Spec.nFeat := by
  unfold Spec.nFeat; rw [ofBits_2048]; exact EReal.coe_pos.mpr (by norm_num)

/-! ## A row sum kept as a column, and the columns and rows spread back over the batch -/

/-- The sum over a row's 2048 entries, kept as a one-entry column: from the zero initial value, the sum of the row. -/
theorem rowSum_apply (y : FVec Ideal S8192x2048 .f32) (r : Fin 8192) :
    broadcastInDim S8192x1 ![0] bcast_S8192_S8192x1_0
        (Host.reduceAdd y (Stages.zeroS (F := Ideal)) reducesTo_S8192x2048_S8192_d1 h_S_) (ix2 r (0 : Fin 1))
      = ∑ k : Fin 2048, y (ix2 r k) := by
  refine (broadcastInDim_apply _ _ _ (ix2 r (0 : Fin 1)) (ix1 r) (fun a => ?_)).trans ?_
  · match a with
    | ⟨0, _⟩ => rfl
  · rw [hostReduceAdd_apply, Ideal.hostReduceAdd_single _ (by decide : S8192x2048.Reduces [1] S8192)]
    show Ideal.ofBits .f32 0x00000000#32 + _ = _
    rw [Ideal.ofBits_zero_f32, zero_add]
    exact Finset.sum_congr rfl fun k _ => congrArg y (funext fun a => Fin.ext (by
      match a with
      | ⟨0, _⟩ => rfl
      | ⟨1, _⟩ => rfl))

/-- A scalar spread over the column reads the scalar. -/
theorem colScalar_apply {α : Type} (v : S_.Idx → α) (r : Fin 8192) :
    broadcastInDim S8192x1 ![] bcast_S_S8192x1 v (ix2 r (0 : Fin 1)) = v ix0 :=
  broadcastInDim_scalar_apply _ _ _

/-- A column spread over the batch reads the row's entry of the column. -/
theorem colSpread_apply (v : FVec Ideal S8192x1 .f32) (r : Fin 8192) (k : Fin 2048) :
    broadcastInDim S8192x2048 ![0, 1] bcast_S8192x1_S8192x2048_0_1 v (ix2 r k) = v (ix2 r (0 : Fin 1)) := by
  refine broadcastInDim_apply _ _ _ (ix2 r k) (ix2 r (0 : Fin 1)) (fun a => ?_)
  match a with
  | ⟨0, _⟩ => rfl
  | ⟨1, _⟩ => rfl

/-- A vector of 2048 entries copied down the rows reads the column's entry. -/
theorem downRows_apply (v : FVec Ideal S2048 .f32) (r : Fin 8192) (k : Fin 2048) :
    Stages.downRows (F := Ideal) v (ix2 r k) = v (ix1 k) := by
  unfold Stages.downRows
  refine (broadcastInDim_apply _ _ _ (ix2 r k) (ix2 (0 : Fin 1) k) (fun a => ?_)).trans ?_
  · match a with
    | ⟨0, _⟩ => rfl
    | ⟨1, _⟩ => rfl
  · refine broadcastInDim_apply _ _ _ (ix2 (0 : Fin 1) k) (ix1 k) (fun a => ?_)
    match a with
    | ⟨0, _⟩ => rfl

/-! ## The stages at an entry -/

/-- A row's mean. -/
theorem mean_apply (x : FVec Ideal S8192x2048 .f32) (r : Fin 8192) :
    Stages.mean (F := Ideal) x (ix2 r (0 : Fin 1)) = Spec.mean (Spec.rows x) r := by
  unfold Stages.mean Spec.mean
  rw [hostDivf_apply, rowSum_apply, colScalar_apply]
  rfl

/-- An entry less its row's mean. -/
theorem centred_apply (x : FVec Ideal S8192x2048 .f32) (r : Fin 8192) (k : Fin 2048) :
    Stages.centred (F := Ideal) x (ix2 r k) = x (ix2 r k) - Spec.mean (Spec.rows x) r := by
  unfold Stages.centred
  rw [subf_apply, colSpread_apply, mean_apply]

/-- The variance's divisor is the row length: the correction is the integer zero. -/
theorem nEff_apply : Stages.nEff (F := Ideal) ix0 = Spec.nFeat := by
  unfold Stages.nEff
  rw [subf_apply, sitofp_apply]
  show Ideal.ofBits .f32 0x45000000#32 - (((0#32 : BitVec 32).toInt : ℝ) : EReal) = Spec.nFeat
  rw [show (0#32 : BitVec 32).toInt = 0 by decide, Int.cast_zero, EReal.coe_zero, sub_zero]
  rfl

/-- The guard "the divisor is positive" holds. -/
theorem guard_apply : cmpf .ogt (Stages.nEff (F := Ideal)) (Stages.zeroS (F := Ideal)) ix0 = 1#1 := by
  rw [cmpf_apply, nEff_apply]
  show Ideal.cmp .ogt Spec.nFeat (Ideal.ofBits .f32 0x00000000#32) = 1#1
  rw [Ideal.ofBits_zero_f32]
  unfold Ideal.cmp
  simp only [nFeat_pos, decide_true]
  rfl

/-- A row's variance: the guard picks the centred squares' mean. -/
theorem var_apply (x : FVec Ideal S8192x2048 .f32) (r : Fin 8192) :
    Stages.var (F := Ideal) x (ix2 r (0 : Fin 1)) = Spec.varCentered (Spec.rows x) r := by
  unfold Stages.var Spec.varCentered
  rw [select_apply, colScalar_apply, guard_apply, select_one, hostDivf_apply, rowSum_apply, colScalar_apply, nEff_apply]
  refine congrArg (fun s => Ideal.div s Spec.nFeat) (Finset.sum_congr rfl fun k _ => ?_)
  rw [mulf_apply, centred_apply]
  rfl

/-- A normalised entry. -/
theorem normed_apply (x : FVec Ideal S8192x2048 .f32) (g b : FVec Ideal S2048 .f32) (r : Fin 8192) (k : Fin 2048) :
    Stages.normed (F := Ideal) x g b (ix2 r k)
      = Spec.normed (Spec.varCentered (Spec.rows x)) (Spec.rows x) (fun k => g (ix1 k)) (fun k => b (ix1 k)) r k := by
  unfold Stages.normed Spec.normed
  rw [addf_apply, mulf_apply, mulf_apply, centred_apply, colSpread_apply, downRows_apply, downRows_apply]
  show (x (ix2 r k) - Spec.mean (Spec.rows x) r)
      * Ideal.rsqrt (Stages.var (F := Ideal) x (ix2 r (0 : Fin 1))
          + broadcastInDim S8192x1 ![] bcast_S_S8192x1 (constant (F := Ideal) S_ .f32 0x3727C5AC#32) (ix2 r (0 : Fin 1)))
      * g (ix1 k) + b (ix1 k) = _
  rw [var_apply, colScalar_apply]
  rfl

/-- The product with the transposed weight: a row of the left operand against a row of the weight. -/
theorem product_apply (L : FVec Ideal S8192x2048 .f32) (Wg : FVec Ideal S2048x2048 .f32) (r : Fin 8192) (j : Fin 2048) :
    Host.dotGeneral dot_S8192x2048_S2048x2048_S8192x2048_1_0_0_1_n_n none L
        (transpose S2048x2048 [1, 0] Wg transposes_S2048x2048_S2048x2048_1_0) (ix2 r j)
      = ∑ k : Fin 2048, L (ix2 r k) * Wg (ix2 j k) := by
  refine (StackMember.dotGeneral_plain_apply (m := 8192) (n := 2048) (k := 2048) none L _ r j).trans ?_
  exact Finset.sum_congr rfl fun k _ => congrArg (L (ix2 r k) * ·) (transpose_ix2_apply Wg _ k j)

/-- The host's `1 / (1 + e^(-z))` is the logistic function, where the array of ones reads one. -/
theorem sigm_apply {s : Shape} (one z : FVec Ideal s .f32) (i : s.Idx) (h : one i = 1) :
    Stages.sigm (F := Ideal) one z i = Ideal.logistic (z i) := by
  unfold Stages.sigm
  rw [hostDivf_apply, addf_apply, h]
  rfl

/-- The constant one spread over the batch reads one. -/
theorem ones_apply (r : Fin 8192) (j : Fin 2048) :
    broadcastInDim S8192x2048 ![] bcast_S_S8192x2048 (Stages.oneS (F := Ideal)) (ix2 r j) = 1 :=
  (broadcastInDim_scalar_apply _ _ _).trans Ideal.ofBits_one_f32

/-- The reference's gated batch at row `r`, column `j`. -/
theorem gated_apply (x : FVec Ideal S8192x2048 .f32) (g b : FVec Ideal S2048 .f32) (Wg : FVec Ideal S2048x2048 .f32)
    (c : FVec Ideal S2048 .f32) (r : Fin 8192) (j : Fin 2048) :
    Stages.gated (F := Ideal) x g b Wg c (ix2 r j)
      = Spec.gate (Spec.varCentered (Spec.rows x)) (Spec.rows x) (fun k => g (ix1 k)) (fun k => b (ix1 k))
          (fun k j => Wg (ix2 j k)) (fun j => c (ix1 j)) r j := by
  unfold Stages.gated Spec.gate
  rw [mulf_apply, sigm_apply _ _ _ (ones_apply r j), addf_apply, product_apply, downRows_apply]
  refine congrArg (fun s => x (ix2 r j) * Ideal.logistic (s + c (ix1 j))) (Finset.sum_congr rfl fun k _ => ?_)
  rw [normed_apply]

end Cert.ReferenceIdeal.GateValue

end
-- ==== Proof.RefCellHead.lean ====
/-
  The reference's recurrent cell and head read at an entry: the four gates' pre-activations side by side, of which
  blocks 0, 2 and 3 (input, candidate, output) are used, are the specification's pre-activations of the weight's row
  blocks at 0, 2048 and 3072; the head is the specification's head of the two hidden arrays laid side by side.
-/
import proofs.«408149_j91268055040200_3_alg».proof.Proof.RefStages
import proofs.«408149_j91268055040200_3_alg».proof.Proof.Arrays
import Idealize.ShloMosaic.Lib.ValueIdx
import Idealize.ShloMosaic.Lib.ValueLayout
import Idealize.ShloMosaic.Lib.IdealHost
import Idealize.ShloMosaic.Lib.Pipeline.Value
import Idealize.ShloMosaic.Lib.StackMember
import Idealize.ShloMosaic.PureOps.Ideal.Laws

noncomputable section

open scoped BigOperators

namespace Cert.ReferenceIdeal.CellHeadValue

open Cert.ReferenceIdeal Idealize.ShloMosaic Idealize.ShloMosaic.TcCoe Idealize.ShloMosaic.ValueIdx

/-! ## The three matrix products: each is the plain rows-by-columns product, a sum over the contracted coordinate -/

/-- A batch of 2048-entry rows against a 2048 × 4096 matrix. -/
theorem dot4096_apply (A : FVec Ideal S8192x2048 .f32) (B : FVec Ideal S2048x4096 .f32) (r : Fin 8192) (q : Fin 4096) :
    Host.dotGeneral (F := Ideal) dot_S8192x2048_S2048x4096_S8192x4096_1_0_0_1_n_n none A B (ix2 r q)
      = ∑ k : Fin 2048, A (ix2 r k) * B (ix2 k q) :=
  StackMember.dotGeneral_plain_apply none A B r q

/-- A batch of 2048-entry rows against a 2048 × 64 matrix. -/
theorem dot64_apply (A : FVec Ideal S8192x2048 .f32) (B : FVec Ideal S2048x64 .f32) (r : Fin 8192) (q : Fin 64) :
    Host.dotGeneral (F := Ideal) dot_S8192x2048_S2048x64_S8192x64_1_0_0_1_n_n none A B (ix2 r q)
      = ∑ k : Fin 2048, A (ix2 r k) * B (ix2 k q) :=
  StackMember.dotGeneral_plain_apply none A B r q

/-- A batch of 64-entry rows against a 64 × 1 matrix. -/
theorem dot1_apply (A : FVec Ideal S8192x64 .f32) (B : FVec Ideal S64x1 .f32) (r : Fin 8192) (q : Fin 1) :
    Host.dotGeneral (F := Ideal) dot_S8192x64_S64x1_S8192x1_1_0_0_1_n_n none A B (ix2 r q)
      = ∑ k : Fin 64, A (ix2 r k) * B (ix2 k q) :=
  StackMember.dotGeneral_plain_apply none A B r q

/-! ## The gates' pre-activations -/

/-- The four gates' pre-activations at row `r`, column `q`: the row against row `q` of the weight, plus the two biases. -/
theorem gates_apply (xg : FVec Ideal S8192x2048 .f32) (W : FVec Ideal S4096x2048 .f32) (bi bh : FVec Ideal S4096 .f32)
    (r : Fin 8192) (q : Fin 4096) :
    Stages.gates (F := Ideal) xg W bi bh (ix2 r q)
      = (∑ k : Fin 2048, xg (ix2 r k) * W (ix2 q k)) + (bi (ix1 q) + bh (ix1 q)) := by
  unfold Stages.gates
  rw [addf_apply, dot4096_apply]
  congr 1
  · refine Finset.sum_congr rfl fun k _ => ?_
    rw [transpose_ix2_apply]
  · refine (broadcastInDim_apply _ _ _ _ (ix2 (0 : Fin 1) q) (fun a => ?_)).trans ?_
    · match a with
      | ⟨0, _⟩ => rfl
      | ⟨1, _⟩ => rfl
    · refine (broadcastInDim_apply _ _ _ _ (ix1 q) (fun a => ?_)).trans ?_
      · match a with
        | ⟨0, _⟩ => rfl
      · rfl

/-- Columns `o … o + 1023` of the gates' pre-activations are the pre-activations of the weight's row block at `o`. -/
theorem block_apply (o : Nat) (ho : o + 1024 ≤ 4096) (xg : FVec Ideal S8192x2048 .f32) (W : FVec Ideal S4096x2048 .f32)
    (bi bh : FVec Ideal S4096 .f32) (h : S8192x4096.Slices ![0, o] S8192x1024) (r : Fin 8192) (p : Fin 1024) :
    extractStridedSlice S8192x1024 ![0, o] (Stages.gates (F := Ideal) xg W bi bh) h (ix2 r p)
      = Spec.preact (Spec.rows xg) (Spec.gBlock o ho W) (Spec.gBias o ho bi bh) r p := by
  refine (slice2_axis1_eq o _ h r p).trans ?_
  refine (gates_apply xg W bi bh r _).trans ?_
  rfl

/-! ## The squashing functions -/

/-- The all-ones array reads one. -/
theorem ones1024_apply (i : S8192x1024.Idx) : Stages.ones1024 (F := Ideal) i = 1 :=
  (broadcastInDim_scalar_apply _ _ _).trans Ideal.ofBits_one_f32

/-- The host's spelling `1 / (1 + e^(-z))` is the logistic function. -/
theorem sigm_ones_apply (z : FVec Ideal S8192x1024 .f32) (i : S8192x1024.Idx) :
    Stages.sigm (F := Ideal) Stages.ones1024 z i = Ideal.logistic (z i) := by
  show Ideal.div (Stages.ones1024 (F := Ideal) i) (Stages.ones1024 (F := Ideal) i + Ideal.exp (-(z i))) = _
  rw [ones1024_apply]
  rfl

/-- The host's hyperbolic tangent, entry by entry. -/
theorem hostTanh_apply {s : Shape} (z : FVec Ideal s .f32) (i : s.Idx) : Host.tanh z i = Ideal.tanh (z i) := rfl

/-! ## The cell -/

/-- One direction's hidden value at row `r`, unit `p`. -/
theorem cell_apply (xg : FVec Ideal S8192x2048 .f32) (W : FVec Ideal S4096x2048 .f32) (bi bh : FVec Ideal S4096 .f32)
    (r : Fin 8192) (p : Fin 1024) :
    Stages.cell (F := Ideal) xg W bi bh (ix2 r p) = Spec.Args.hid (Spec.rows xg) W bi bh r p := by
  unfold Stages.cell
  rw [mulf_apply, sigm_ones_apply, hostTanh_apply, mulf_apply, sigm_ones_apply, hostTanh_apply,
    block_apply 3072 (by omega), block_apply 0 (by omega), block_apply 2048 (by omega)]
  rfl

/-! ## The head -/

/-- The two hidden arrays laid side by side read the first below column 1024 and the second from there on. -/
theorem concat_apply (hf hb : FVec Ideal S8192x1024 .f32)
    (h : Shape.Concatenates [S8192x1024, S8192x1024] S8192x2048 1) (r : Fin 8192) (u : Fin 2048) :
    concatenate S8192x2048 1 [⟨S8192x1024, hf⟩, ⟨S8192x1024, hb⟩] h (ix2 r u)
      = Spec.feat (Spec.rows hf) (Spec.rows hb) r u := by
  unfold Spec.feat
  by_cases hu : u.val < 1024
  · rw [dif_pos hu]
    refine concatenate_pair_apply_left _ hf hb h (ix2 r u) rfl (ix2 r ⟨u.val, hu⟩) (fun b => ?_)
    match b with
    | ⟨0, _⟩ => rfl
    | ⟨1, _⟩ => rfl
  · rw [dif_neg hu]
    refine concatenate_pair_apply_right _ hf hb h (ix2 r u) rfl rfl (ix2 r ⟨u.val - 1024, by omega⟩) (fun b => ?_) ?_
    · match b with
      | ⟨0, _⟩ => exact fun _ => rfl
      | ⟨1, _⟩ => exact fun hne => absurd rfl hne
    · show (u.val - 1024) + 1024 = u.val
      omega

/-- The head's value at row `r`. -/
theorem headOf_apply (hf hb : FVec Ideal S8192x1024 .f32) (W1 : FVec Ideal S64x2048 .f32) (b1 : FVec Ideal S64 .f32)
    (W2 : FVec Ideal S1x64 .f32) (b2 : FVec Ideal S1 .f32) (r : Fin 8192) :
    Stages.headOf (F := Ideal) hf hb W1 b1 W2 b2 (ix1 r)
      = Spec.head (Spec.rows hf) (Spec.rows hb) (fun u s => W1 (ix2 s u)) (fun s => b1 (ix1 s)) (fun s => W2 (ix2 0 s))
          (b2 (ix1 0)) r := by
  unfold Stages.headOf Spec.head
  refine (shapeCast_apply _ _ (ix1 r) (ix2 r (0 : Fin 1)) ?_).trans ?_
  · rw [Shape.rowMajor_val_two, Shape.rowMajor_val_one]
    show r.val * 1 + 0 = r.val
    omega
  rw [addf_apply, dot1_apply]
  congr 1
  · refine Finset.sum_congr rfl fun s _ => ?_
    rw [transpose_ix2_apply, maximumf_apply, addf_apply, dot64_apply]
    congr 2
    · congr 1
      · refine Finset.sum_congr rfl fun u _ => ?_
        rw [transpose_ix2_apply, concat_apply]
      · refine (broadcastInDim_apply _ _ _ _ (ix2 (0 : Fin 1) s) (fun a => ?_)).trans ?_
        · match a with
          | ⟨0, _⟩ => rfl
          | ⟨1, _⟩ => rfl
        · refine (broadcastInDim_apply _ _ _ _ (ix1 s) (fun a => ?_)).trans ?_
          · match a with
            | ⟨0, _⟩ => rfl
          · rfl
    · exact (broadcastInDim_scalar_apply _ _ _).trans Ideal.ofBits_zero_f32
  · refine (broadcastInDim_apply _ _ _ _ (ix2 (0 : Fin 1) (0 : Fin 1)) (fun a => ?_)).trans ?_
    · match a with
      | ⟨0, _⟩ => rfl
      | ⟨1, _⟩ => rfl
    · refine (broadcastInDim_apply _ _ _ _ (ix1 (0 : Fin 1)) (fun a => ?_)).trans ?_
      · match a with
        | ⟨0, _⟩ => rfl
      · rfl

end Cert.ReferenceIdeal.CellHeadValue

end
-- ==== Proof.RefResult.lean ====
/-
  The reference's result read at a row: the head of the two directions' hidden values of the gated batch is the
  specification's result of the argument arrays, the variance in its centred form.
-/
import proofs.«408149_j91268055040200_3_alg».proof.Proof.RefGate
import proofs.«408149_j91268055040200_3_alg».proof.Proof.RefCellHead

noncomputable section

open scoped BigOperators

namespace Cert.ReferenceIdeal.ResultValue

open Cert.ReferenceIdeal Idealize.ShloMosaic Idealize.ShloMosaic.TcCoe Idealize.ShloMosaic.ValueIdx

/-- The reference's result at row `r`, as the specification's result of its fifteen argument arrays. -/
theorem result_apply (x : FVec Ideal S8192x2048 .f32) (g b : FVec Ideal S2048 .f32) (Wg : FVec Ideal S2048x2048 .f32)
    (cg : FVec Ideal S2048 .f32) (Wf : FVec Ideal S4096x2048 .f32) (biF bhF : FVec Ideal S4096 .f32)
    (Wb : FVec Ideal S4096x2048 .f32) (biB bhB : FVec Ideal S4096 .f32) (W1 : FVec Ideal S64x2048 .f32)
    (b1 : FVec Ideal S64 .f32) (W2 : FVec Ideal S1x64 .f32) (b2 : FVec Ideal S1 .f32) (r : Fin 8192) :
    Stages.result (F := Ideal) x g b Wg cg Wf biF bhF Wb biB bhB W1 b1 W2 b2 (ix1 r)
      = Spec.Args.result Spec.varCentered
          { x := x, lng := g, lnb := b, Wg := Wg, bg := cg, Wf := Wf, biF := biF, bhF := bhF, Wb := Wb, biB := biB, bhB := bhB,
            W1 := W1, b1 := b1, W2 := W2, b2 := b2 } r := by
  unfold Stages.result
  rw [CellHeadValue.headOf_apply]
  unfold Spec.Args.result
  have hxg : Spec.rows (Stages.gated (F := Ideal) x g b Wg cg)
      = Spec.Args.gated Spec.varCentered
          { x := x, lng := g, lnb := b, Wg := Wg, bg := cg, Wf := Wf, biF := biF, bhF := bhF, Wb := Wb, biB := biB, bhB := bhB,
            W1 := W1, b1 := b1, W2 := W2, b2 := b2 } :=
    funext fun r => funext fun j => GateValue.gated_apply x g b Wg cg r j
  have hf : Spec.rows (Stages.cell (F := Ideal) (Stages.gated x g b Wg cg) Wf biF bhF)
      = Spec.Args.hid (Spec.rows (Stages.gated (F := Ideal) x g b Wg cg)) Wf biF bhF :=
    funext fun r => funext fun p => CellHeadValue.cell_apply _ Wf biF bhF r p
  have hb : Spec.rows (Stages.cell (F := Ideal) (Stages.gated x g b Wg cg) Wb biB bhB)
      = Spec.Args.hid (Spec.rows (Stages.gated (F := Ideal) x g b Wg cg)) Wb biB bhB :=
    funext fun r => funext fun p => CellHeadValue.cell_apply _ Wb biB bhB r p
  rw [hf, hb, hxg]

end Cert.ReferenceIdeal.ResultValue

end
-- ==== Proof.VarLaw.lean ====
/-
  The one algebraic law between the two programs, and the one use of the precondition.
  On a row of REAL numbers the two textbook forms of the variance agree: with `μ` the mean,
  `Σ (x − μ)² / n = Σ x² / n − 2 μ Σ x / n + μ² = Σ x² / n − μ²`. On the extended reals the expansion fails at an
  infinite entry, so the rows must be finite — which is what the precondition says of the batch.
-/
import proofs.«408149_j91268055040200_3_alg».proof.Proof.Spec

noncomputable section

open scoped BigOperators

namespace Cert.Spec

open Idealize.ShloMosaic

/-- The row length's pattern denotes the real 2048. -/
theorem nFeat_eq : nFeat = ((2048 : ℝ) : EReal) := by
  unfold nFeat
  simp [Ideal.ofBits, Ideal.ieee, -EReal.coe_mul]; norm_num

/-- The coercion of the reals into the extended reals commutes with finite sums. -/
theorem coe_sum_real {ι : Type*} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The variance law over the reals: the mean of the squares less the square of the mean is the mean of the
squared deviations, for 2048 entries. -/
theorem real_var (v : Fin 2048 → ℝ) :
    (∑ k, v k * v k) * (1 / 2048) - ((∑ k, v k) * (1 / 2048)) * ((∑ k, v k) * (1 / 2048))
      = (∑ k, (v k - (∑ k, v k) * (1 / 2048)) * (v k - (∑ k, v k) * (1 / 2048))) * (1 / 2048) := by
  generalize hμ : (∑ k, v k) * (1 / 2048 : ℝ) = μ
  have h2 : ∑ k, v k = 2048 * μ := by rw [← hμ]; ring
  have h1 : ∑ k, (v k - μ) * (v k - μ) = (∑ k, v k * v k) - 2 * μ * (∑ k, v k) + 2048 * (μ * μ) := by
    have e : ∀ k, (v k - μ) * (v k - μ) = v k * v k - 2 * μ * v k + μ * μ := fun k => by ring
    simp only [e, Finset.sum_add_distrib, Finset.sum_sub_distrib, ← Finset.mul_sum, Finset.sum_const,
      Finset.card_univ, Fintype.card_fin, nsmul_eq_mul]
    push_cast; ring
  rw [h1, h2]; ring

/-- On a row of reals, the variance by moments is the variance of the centred entries. -/
theorem varMoments_eq_varCentered (x : Fin 8192 → Fin 2048 → EReal) (r : Fin 8192)
    (h : ∀ k, ∃ v : ℝ, x r k = (v : EReal)) : varMoments x r = varCentered x r := by
  choose v hv using h
  unfold varMoments varCentered mean
  simp only [hv, nFeat_eq, Ideal.div_coe (by norm_num : (2048 : ℝ) ≠ 0)]
  simp only [← EReal.coe_mul, coe_sum_real, ← EReal.coe_sub]
  exact congrArg _ (real_var v)

end Cert.Spec

end
-- ==== Proof.Finite.lean ====
/-
  The precondition read at the batch: "every float input is finite" gives, for each entry of the batch, a real
  number it equals (an extended real strictly between the infinities).
-/
import proofs.«408149_j91268055040200_3_alg».proof.Defs
import proofs.«408149_j91268055040200_3_alg».proof.Proof.Gen.Pre_finite_inputs
import Idealize.ShloMosaic.Lib.ValueIdx
import Idealize.ShloMosaic.Lib.ReduceAll

noncomputable section

namespace Cert.Finite

open Idealize.ShloMosaic Idealize.ShloMosaic.ValueIdx Idealize.SL.Sem

/-- A conjunction of two one-bit arrays that reads 1 at an index has its left operand 1 there. -/
theorem andi_left {s : Shape} (a b : IVec s 1) (j : s.Idx) (h : andi a b j = 1#1) : a j = 1#1 :=
  (IntOp.andi_eq_one.1 h).1

/-- An extended real whose absolute value compares strictly below the pattern of `+inf` is a real number. -/
theorem real_of_abs_lt_top (y : EReal)
    (e : Ideal.cmp .olt (max y (-y)) (Ideal.ofBits .f32 0x7F800000#32) = 1#1) : ∃ v : ℝ, y = (v : EReal) := by
  have htop : Ideal.ofBits .f32 0x7F800000#32 = ⊤ := by simp [Ideal.ofBits, Ideal.ieee]
  rw [htop] at e
  have hlt : max y (-y) < ⊤ := by
    by_contra hn
    simp [Ideal.cmp, hn] at e
  induction y using EReal.rec with
  | bot => simp at hlt
  | top => simp at hlt
  | coe r => exact ⟨r, rfl⟩

/-- Under the precondition every entry of the idealized kernel's batch argument is a real number. -/
theorem batch_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8192x2048.Idx) :
    ∃ v : ℝ, m ((c.tc : Thread Cert.KernelIdeal.nD Cert.KernelIdeal.τ).loc Cert.KernelIdeal.main_arg0) i = (v : EReal) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  generalize m ((c.tc : Thread Cert.KernelIdeal.nD Cert.KernelIdeal.τ).loc Cert.KernelIdeal.main_arg0) = x at h ⊢
  iterate 16 replace h := andi_left _ _ _ h
  haveI : Subsingleton Cert.Pre_finite_inputs.S_.Idx := ⟨fun a b => funext fun d => d.elim0⟩
  have e := Host.reduce_andi_all _ _ _ _ _ h i
  rw [cmpf_apply] at e
  exact real_of_abs_lt_top (x i) e

end Cert.Finite

end
-- ==== Proof.lean ====
/-
  The certificate's five claims.

  Both idealized programs compute, row by row of an 8192 x 2048 batch: a feature gate (each row normalised by its mean
  and variance and an affine map, multiplied into a weight, shifted, squashed by the logistic function, and multiplied
  back into the row), one step of a two-direction recurrent cell from the zero state (so the forget gate and the
  recurrent weights drop out), and a two-layer head with a rectifier. The kernel program does it in two launched regions
  over blocks of 512 and 256 rows, on weights transposed and stripped of the forget gate's rows beforehand, with the
  variance as `E[x²] − E[x]²` and the logistic function as one operation; the reference does it on whole arrays, with
  the variance as `E[(x − E[x])²]` behind jnp's guard on the divisor and the logistic function spelt `1 / (1 + e^(-z))`.

  * The frames of the two kernel programs are the generated ones; the reference's is its run with the result dropped.
  * The idealization rewrote nothing, so `preserves` is trivial.
  * `algebraic`: the kernel program's result array is the last region's output (`KernelRun`), which row by row is
    the specification's result of the argument arrays with the variance by moments (`KernelGlue`, over the two
    regions' values `GateRegion`, `HeadRegion`); the reference's result is the same with the centred variance
    (`RefRun`, `RefResult` over `RefGate`, `RefCellHead`); the two variances agree on rows of real numbers
    (`VarLaw`), which the precondition gives for the batch (`Finite`) — the one place it is used; every other step is
    the same function of equal arguments.
-/
import proofs.«408149_j91268055040200_3_alg».proof.Defs
import proofs.«408149_j91268055040200_3_alg».proof.Proof.Gen.Kernel
import proofs.«408149_j91268055040200_3_alg».proof.Proof.Gen.Kernel.Frame
import proofs.«408149_j91268055040200_3_alg».proof.Proof.Gen.KernelIdeal
import proofs.«408149_j91268055040200_3_alg».proof.Proof.Gen.KernelIdeal.Frame
import proofs.«408149_j91268055040200_3_alg».proof.Proof.Gen.ReferenceIdeal
import proofs.«408149_j91268055040200_3_alg».proof.Proof.Gen.Pre_finite_inputs
import proofs.«408149_j91268055040200_3_alg».proof.Proof.KernelRun
import proofs.«408149_j91268055040200_3_alg».proof.Proof.KernelGlue
import proofs.«408149_j91268055040200_3_alg».proof.Proof.RefRun
import proofs.«408149_j91268055040200_3_alg».proof.Proof.RefResult
import proofs.«408149_j91268055040200_3_alg».proof.Proof.VarLaw
import proofs.«408149_j91268055040200_3_alg».proof.Proof.Finite

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- The result depends on the form of the variance only through the batch's rows' variances. -/
theorem result_congr (a : Cert.Spec.Args)
    (h : Cert.Spec.varMoments (Cert.Spec.rows a.x) = Cert.Spec.varCentered (Cert.Spec.rows a.x)) (r : Fin 8192) :
    a.result Cert.Spec.varMoments r = a.result Cert.Spec.varCentered r := by
  unfold Cert.Spec.Args.result Cert.Spec.Args.gated
  rw [h]

theorem algebraic : Cert.algebraic_KernelIdeal_ReferenceIdeal := by
  intro m ρ m' ρ' hpre hagree
  refine ⟨fun c => Cert.KernelIdeal.Gen.W4 m ρ c (Proc.devRef .tc Cert.KernelIdeal.main_v0), Cert.KernelIdeal.Gen.run_named m ρ, ?_⟩
  refine (θ_run Cert.ReferenceIdeal.defs _ _).mono (fun r h c => ⟨(h c).1.trans ?_, (h c).2⟩)
    (Cert.ReferenceIdeal.Run.run (F := Ideal) m' ρ')
  obtain ⟨e0, e1, e2, e3, e4, e5, e6, e7, e8, e9, e10, e11, e12, e13, e14, e15, e16⟩ := hagree c
  rw [e0, e1, e2, e3, e4, e5, e7, e8, e9, e11, e12, e13, e14, e15, e16]
  funext i
  obtain ⟨r, rfl⟩ : ∃ r : Fin 8192, i = ix1 r := ⟨i 0, eq_ix1 i⟩
  rw [Cert.ReferenceIdeal.ResultValue.result_apply]
  refine Eq.trans ?_ (Cert.KernelIdeal.Glue.kernel_result m ρ c r).symm
  refine (result_congr (Cert.KernelIdeal.Glue.argsOf m c) ?_ r).symm
  funext r'
  exact Cert.Spec.varMoments_eq_varCentered _ r' fun k => Cert.Finite.batch_real m hpre c (ix2 r' k)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
